-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096x128 : Shape := ⟨3, ![8, 4096, 128]⟩
abbrev S4096x16 : Shape := ⟨2, ![4096, 16]⟩
abbrev S4096x256 : Shape := ⟨2, ![4096, 256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S8x4096x128 32) (main_arg2 : FVec F S4096x16 .f32) (main_arg3 : FVec F S4096x256 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S8x4096x128 : Shape := ⟨3, ![8, 4096, 128]⟩
abbrev S4096x16 : Shape := ⟨2, ![4096, 16]⟩
abbrev S4096x256 : Shape := ⟨2, ![4096, 256]⟩
abbrev S4096 : Shape := ⟨1, ![4096]⟩
abbrev S_ : Shape := ⟨0, ![]⟩
abbrev S4x2048 : Shape := ⟨2, ![4, 2048]⟩
abbrev S8192 : Shape := ⟨1, ![8192]⟩
abbrev S8x128x4096 : Shape := ⟨3, ![8, 128, 4096]⟩
abbrev S32 : Shape := ⟨1, ![32]⟩
abbrev S1x32x1 : Shape := ⟨3, ![1, 32, 1]⟩
abbrev S128x32x4096 : Shape := ⟨3, ![128, 32, 4096]⟩
abbrev S1x128x4096 : Shape := ⟨3, ![1, 128, 4096]⟩
abbrev S128x4096 : Shape := ⟨2, ![128, 4096]⟩
abbrev S128x1x4096 : Shape := ⟨3, ![128, 1, 4096]⟩
abbrev S4096x4096 : Shape := ⟨2, ![4096, 4096]⟩
abbrev S256x4096 : Shape := ⟨2, ![256, 4096]⟩
abbrev S16x4096 : Shape := ⟨2, ![16, 4096]⟩
abbrev S4096x4096x1 : Shape := ⟨3, ![4096, 4096, 1]⟩
abbrev S1 : Shape := ⟨1, ![1]⟩
abbrev S1x1x1 : Shape := ⟨3, ![1, 1, 1]⟩
abbrev S1x4096x4096 : Shape := ⟨3, ![1, 4096, 4096]⟩
abbrev S2x4096x4096 : Shape := ⟨3, ![2, 4096, 4096]⟩
abbrev S8192x4096 : Shape := ⟨2, ![8192, 4096]⟩
abbrev S8192x1 : Shape := ⟨2, ![8192, 1]⟩
abbrev S1x1 : Shape := ⟨2, ![1, 1]⟩
abbrev S10240x4096 : Shape := ⟨2, ![10240, 4096]⟩
abbrev S10 : Shape := ⟨1, ![10]⟩
abbrev S1x4096 : Shape := ⟨2, ![1, 4096]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 299
  | .vmem => 9
  | .smem => 1
  | _ => 0

abbrev hbmTy0_0 (i : Nat) : BufTy := match i % 128 with
  | 0 => ⟨S4x2048x4096, .f32⟩
  | 1 => ⟨S8x4096x128, .i32⟩
  | 2 => ⟨S4096x16, .f32⟩
  | 3 => ⟨S4096x256, .f32⟩
  | 4 => ⟨S4096, .f32⟩
  | 5 => ⟨S4x2048x4096, .f32⟩
  | 6 => ⟨S_, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S_, .f32⟩
  | 13 => ⟨S4x2048, .f32⟩
  | 14 => ⟨S4x2048, .f32⟩
  | 15 => ⟨S_, .f32⟩
  | 16 => ⟨S4x2048, .f32⟩
  | 17 => ⟨S4x2048, .i1⟩
  | 18 => ⟨S4x2048, .i32⟩
  | 19 => ⟨S8192, .i32⟩
  | 20 => ⟨S8x128x4096, .i32⟩
  | 21 => ⟨S32, .i32⟩
  | 22 => ⟨S1x32x1, .i32⟩
  | 23 => ⟨S_, .i32⟩
  | 24 => ⟨S128x32x4096, .i32⟩
  | 25 => ⟨S1x128x4096, .i32⟩
  | 26 => ⟨S128x4096, .i32⟩
  | 27 => ⟨S128x1x4096, .i32⟩
  | 28 => ⟨S128x32x4096, .i32⟩
  | 29 => ⟨S128x32x4096, .i32⟩
  | 30 => ⟨S128x32x4096, .i32⟩
  | 31 => ⟨S_, .i32⟩
  | 32 => ⟨S128x32x4096, .i32⟩
  | 33 => ⟨S128x32x4096, .i32⟩
  | 34 => ⟨S_, .i32⟩
  | 35 => ⟨S128x32x4096, .i32⟩
  | 36 => ⟨S128x32x4096, .i32⟩
  | 37 => ⟨S128x32x4096, .i32⟩
  | 38 => ⟨S1x128x4096, .i32⟩
  | 39 => ⟨S128x4096, .i32⟩
  | 40 => ⟨S128x1x4096, .i32⟩
  | 41 => ⟨S128x32x4096, .i32⟩
  | 42 => ⟨S128x32x4096, .i32⟩
  | 43 => ⟨S128x32x4096, .i32⟩
  | 44 => ⟨S_, .i32⟩
  | 45 => ⟨S128x32x4096, .i32⟩
  | 46 => ⟨S128x32x4096, .i32⟩
  | 47 => ⟨S_, .i32⟩
  | 48 => ⟨S128x32x4096, .i32⟩
  | 49 => ⟨S128x32x4096, .i32⟩
  | 50 => ⟨S128x32x4096, .i32⟩
  | 51 => ⟨S1x128x4096, .i32⟩
  | 52 => ⟨S128x4096, .i32⟩
  | 53 => ⟨S128x1x4096, .i32⟩
  | 54 => ⟨S128x32x4096, .i32⟩
  | 55 => ⟨S128x32x4096, .i32⟩
  | 56 => ⟨S128x32x4096, .i32⟩
  | 57 => ⟨S_, .i32⟩
  | 58 => ⟨S128x32x4096, .i32⟩
  | 59 => ⟨S128x32x4096, .i32⟩
  | 60 => ⟨S_, .i32⟩
  | 61 => ⟨S128x32x4096, .i32⟩
  | 62 => ⟨S128x32x4096, .i32⟩
  | 63 => ⟨S128x32x4096, .i32⟩
  | 64 => ⟨S1x128x4096, .i32⟩
  | 65 => ⟨S128x4096, .i32⟩
  | 66 => ⟨S128x1x4096, .i32⟩
  | 67 => ⟨S128x32x4096, .i32⟩
  | 68 => ⟨S128x32x4096, .i32⟩
  | 69 => ⟨S128x32x4096, .i32⟩
  | 70 => ⟨S_, .i32⟩
  | 71 => ⟨S128x32x4096, .i32⟩
  | 72 => ⟨S128x32x4096, .i32⟩
  | 73 => ⟨S_, .i32⟩
  | 74 => ⟨S128x32x4096, .i32⟩
  | 75 => ⟨S128x32x4096, .i32⟩
  | 76 => ⟨S128x32x4096, .i32⟩
  | 77 => ⟨S1x128x4096, .i32⟩
  | 78 => ⟨S128x4096, .i32⟩
  | 79 => ⟨S128x1x4096, .i32⟩
  | 80 => ⟨S128x32x4096, .i32⟩
  | 81 => ⟨S128x32x4096, .i32⟩
  | 82 => ⟨S128x32x4096, .i32⟩
  | 83 => ⟨S_, .i32⟩
  | 84 => ⟨S128x32x4096, .i32⟩
  | 85 => ⟨S128x32x4096, .i32⟩
  | 86 => ⟨S_, .i32⟩
  | 87 => ⟨S128x32x4096, .i32⟩
  | 88 => ⟨S128x32x4096, .i32⟩
  | 89 => ⟨S128x32x4096, .i32⟩
  | 90 => ⟨S1x128x4096, .i32⟩
  | 91 => ⟨S128x4096, .i32⟩
  | 92 => ⟨S128x1x4096, .i32⟩
  | 93 => ⟨S128x32x4096, .i32⟩
  | 94 => ⟨S128x32x4096, .i32⟩
  | 95 => ⟨S128x32x4096, .i32⟩
  | 96 => ⟨S_, .i32⟩
  | 97 => ⟨S128x32x4096, .i32⟩
  | 98 => ⟨S128x32x4096, .i32⟩
  | 99 => ⟨S_, .i32⟩
  | 100 => ⟨S128x32x4096, .i32⟩
  | 101 => ⟨S128x32x4096, .i32⟩
  | 102 => ⟨S128x32x4096, .i32⟩
  | 103 => ⟨S1x128x4096, .i32⟩
  | 104 => ⟨S128x4096, .i32⟩
  | 105 => ⟨S128x1x4096, .i32⟩
  | 106 => ⟨S128x32x4096, .i32⟩
  | 107 => ⟨S128x32x4096, .i32⟩
  | 108 => ⟨S128x32x4096, .i32⟩
  | 109 => ⟨S_, .i32⟩
  | 110 => ⟨S128x32x4096, .i32⟩
  | 111 => ⟨S128x32x4096, .i32⟩
  | 112 => ⟨S_, .i32⟩
  | 113 => ⟨S128x32x4096, .i32⟩
  | 114 => ⟨S128x32x4096, .i32⟩
  | 115 => ⟨S128x32x4096, .i32⟩
  | 116 => ⟨S1x128x4096, .i32⟩
  | 117 => ⟨S128x4096, .i32⟩
  | 118 => ⟨S128x1x4096, .i32⟩
  | 119 => ⟨S128x32x4096, .i32⟩
  | 120 => ⟨S128x32x4096, .i32⟩
  | 121 => ⟨S128x32x4096, .i32⟩
  | 122 => ⟨S_, .i32⟩
  | 123 => ⟨S128x32x4096, .i32⟩
  | 124 => ⟨S128x32x4096, .i32⟩
  | 125 => ⟨S_, .i32⟩
  | 126 => ⟨S128x32x4096, .i32⟩
  | 127 => ⟨S128x32x4096, .i32⟩
  | _ => ⟨S4x2048x4096, .f32⟩

abbrev hbmTy0_1 (i : Nat) : BufTy := match i % 128 with
  | 0 => ⟨S128x32x4096, .i32⟩
  | 1 => ⟨S4096x4096, .i32⟩
  | 2 => ⟨S_, .i32⟩
  | 3 => ⟨S4096x4096, .i32⟩
  | 4 => ⟨S4096x4096, .i32⟩
  | 5 => ⟨S256x4096, .f32⟩
  | 6 => ⟨S16x4096, .f32⟩
  | 7 => ⟨S_, .i32⟩
  | 8 => ⟨S4096x4096, .i32⟩
  | 9 => ⟨S4096x4096, .i1⟩
  | 10 => ⟨S_, .i32⟩
  | 11 => ⟨S4096x4096, .i32⟩
  | 12 => ⟨S4096x4096, .i32⟩
  | 13 => ⟨S4096x4096, .i32⟩
  | 14 => ⟨S4096x4096x1, .i32⟩
  | 15 => ⟨S1, .i32⟩
  | 16 => ⟨S_, .i32⟩
  | 17 => ⟨S4096x4096x1, .i32⟩
  | 18 => ⟨S4096x4096x1, .i1⟩
  | 19 => ⟨S1x1x1, .i32⟩
  | 20 => ⟨S4096x4096x1, .i32⟩
  | 21 => ⟨S4096x4096x1, .i1⟩
  | 22 => ⟨S4096x4096x1, .i1⟩
  | 23 => ⟨S_, .i1⟩
  | 24 => ⟨S4096x4096, .i1⟩
  | 25 => ⟨S4096x4096, .f32⟩
  | 26 => ⟨S_, .f32⟩
  | 27 => ⟨S4096x4096, .f32⟩
  | 28 => ⟨S4096x4096, .f32⟩
  | 29 => ⟨S4096x4096, .bf16⟩
  | 30 => ⟨S_, .i32⟩
  | 31 => ⟨S4096x4096, .i32⟩
  | 32 => ⟨S4096x4096, .i1⟩
  | 33 => ⟨S_, .i32⟩
  | 34 => ⟨S4096x4096, .i32⟩
  | 35 => ⟨S4096x4096, .i32⟩
  | 36 => ⟨S4096x4096, .i32⟩
  | 37 => ⟨S4096x4096x1, .i32⟩
  | 38 => ⟨S1, .i32⟩
  | 39 => ⟨S_, .i32⟩
  | 40 => ⟨S4096x4096x1, .i32⟩
  | 41 => ⟨S4096x4096x1, .i1⟩
  | 42 => ⟨S1x1x1, .i32⟩
  | 43 => ⟨S4096x4096x1, .i32⟩
  | 44 => ⟨S4096x4096x1, .i1⟩
  | 45 => ⟨S4096x4096x1, .i1⟩
  | 46 => ⟨S_, .i1⟩
  | 47 => ⟨S4096x4096, .i1⟩
  | 48 => ⟨S4096x4096, .f32⟩
  | 49 => ⟨S_, .f32⟩
  | 50 => ⟨S4096x4096, .f32⟩
  | 51 => ⟨S4096x4096, .f32⟩
  | 52 => ⟨S4096x4096, .bf16⟩
  | 53 => ⟨S1x4096x4096, .bf16⟩
  | 54 => ⟨S1x4096x4096, .bf16⟩
  | 55 => ⟨S2x4096x4096, .bf16⟩
  | 56 => ⟨S8192, .i32⟩
  | 57 => ⟨S8192, .i32⟩
  | 58 => ⟨S8192, .i32⟩
  | 59 => ⟨S_, .i32⟩
  | 60 => ⟨S8192, .i32⟩
  | 61 => ⟨S8192, .i1⟩
  | 62 => ⟨S8192, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i1⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S8192, .i32⟩
  | 85 => ⟨S8192, .i32⟩
  | 86 => ⟨S8192, .i1⟩
  | 87 => ⟨S8192, .i32⟩
  | 88 => ⟨S8192, .i32⟩
  | 89 => ⟨S8192, .i32⟩
  | 90 => ⟨S8192, .i32⟩
  | 91 => ⟨S8192, .i32⟩
  | 92 => ⟨S8192x4096, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S1, .i32⟩
  | 102 => ⟨S_, .i32⟩
  | 103 => ⟨S8192x1, .i32⟩
  | 104 => ⟨S8192x1, .i1⟩
  | 105 => ⟨S1x1, .i32⟩
  | 106 => ⟨S8192x1, .i32⟩
  | 107 => ⟨S8192x1, .i1⟩
  | 108 => ⟨S8192x1, .i1⟩
  | 109 => ⟨S_, .i1⟩
  | 110 => ⟨S8192, .i1⟩
  | 111 => ⟨S8192x4096, .f32⟩
  | 112 => ⟨S8192x4096, .i1⟩
  | 113 => ⟨S_, .f32⟩
  | 114 => ⟨S8192x4096, .f32⟩
  | 115 => ⟨S8192x4096, .f32⟩
  | 116 => ⟨S8192x4096, .bf16⟩
  | 117 => ⟨S_, .bf16⟩
  | 118 => ⟨S10240x4096, .bf16⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S10240x4096, .bf16⟩
  | _ => ⟨S4x2048x4096, .f32⟩

abbrev hbmTy0_2 (i : Nat) : BufTy := match i % 128 with
  | 0 => ⟨S10, .i32⟩
  | 1 => ⟨S_, .i32⟩
  | 2 => ⟨S10, .i32⟩
  | 3 => ⟨S10, .i32⟩
  | 4 => ⟨S10, .i32⟩
  | 5 => ⟨S10, .i1⟩
  | 6 => ⟨S1x4096, .f32⟩
  | 7 => ⟨S10240x4096, .f32⟩
  | 8 => ⟨S_, .i32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S1, .i32⟩
  | 28 => ⟨S_, .i32⟩
  | 29 => ⟨S8192x1, .i32⟩
  | 30 => ⟨S8192x1, .i1⟩
  | 31 => ⟨S1x1, .i32⟩
  | 32 => ⟨S8192x1, .i32⟩
  | 33 => ⟨S8192x1, .i1⟩
  | 34 => ⟨S8192x1, .i1⟩
  | 35 => ⟨S_, .i1⟩
  | 36 => ⟨S8192, .i1⟩
  | 37 => ⟨S8192x4096, .f32⟩
  | 38 => ⟨S8192x4096, .i1⟩
  | 39 => ⟨S_, .f32⟩
  | 40 => ⟨S8192x4096, .f32⟩
  | 41 => ⟨S8192x4096, .f32⟩
  | 42 => ⟨S4x2048x4096, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .smem, ⟨0, _⟩ => ⟨S10, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_12 : Ref sig .tc := ⟨.hbm, 96, rfl⟩
abbrev main_v74 : Ref sig .tc := ⟨.hbm, 97, rfl⟩
abbrev main_v75 : Ref sig .tc := ⟨.hbm, 98, rfl⟩
abbrev main_c_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_14 : Ref sig .tc := ⟨.hbm, 109, rfl⟩
abbrev main_v85 : Ref sig .tc := ⟨.hbm, 110, rfl⟩
abbrev main_v86 : Ref sig .tc := ⟨.hbm, 111, rfl⟩
abbrev main_c_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_16 : Ref sig .tc := ⟨.hbm, 122, rfl⟩
abbrev main_v96 : Ref sig .tc := ⟨.hbm, 123, rfl⟩
abbrev main_v97 : Ref sig .tc := ⟨.hbm, 124, rfl⟩
abbrev main_c_17 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c_18 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_call1_c : Ref sig .tc := ⟨.hbm, 135, rfl⟩
abbrev main_call1_v0 : Ref sig .tc := ⟨.hbm, 136, rfl⟩
abbrev main_call1_v1 : Ref sig .tc := ⟨.hbm, 137, rfl⟩
abbrev main_call1_c_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_c_1 : Ref sig .tc := ⟨.hbm, 143, rfl⟩
abbrev main_call1_c_2 : Ref sig .tc := ⟨.hbm, 144, rfl⟩
abbrev main_call1_v6 : Ref sig .tc := ⟨.hbm, 145, rfl⟩
abbrev main_call1_v7 : Ref sig .tc := ⟨.hbm, 146, rfl⟩
abbrev main_call1_v8 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_c_3 : Ref sig .tc := ⟨.hbm, 151, rfl⟩
abbrev main_call1_v12 : Ref sig .tc := ⟨.hbm, 152, rfl⟩
abbrev main_call1_v13 : Ref sig .tc := ⟨.hbm, 153, rfl⟩
abbrev main_call1_cst : Ref sig .tc := ⟨.hbm, 154, rfl⟩
abbrev main_call1_v14 : Ref sig .tc := ⟨.hbm, 155, rfl⟩
abbrev main_v106 : Ref sig .tc := ⟨.hbm, 156, rfl⟩
abbrev main_v107 : Ref sig .tc := ⟨.hbm, 157, rfl⟩
abbrev main_call2_c : Ref sig .tc := ⟨.hbm, 158, rfl⟩
abbrev main_call2_v0 : Ref sig .tc := ⟨.hbm, 159, rfl⟩
abbrev main_call2_v1 : Ref sig .tc := ⟨.hbm, 160, rfl⟩
abbrev main_call2_c_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_c_1 : Ref sig .tc := ⟨.hbm, 166, rfl⟩
abbrev main_call2_c_2 : Ref sig .tc := ⟨.hbm, 167, rfl⟩
abbrev main_call2_v6 : Ref sig .tc := ⟨.hbm, 168, rfl⟩
abbrev main_call2_v7 : Ref sig .tc := ⟨.hbm, 169, rfl⟩
abbrev main_call2_v8 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_c_3 : Ref sig .tc := ⟨.hbm, 174, rfl⟩
abbrev main_call2_v12 : Ref sig .tc := ⟨.hbm, 175, rfl⟩
abbrev main_call2_v13 : Ref sig .tc := ⟨.hbm, 176, rfl⟩
abbrev main_call2_cst : Ref sig .tc := ⟨.hbm, 177, rfl⟩
abbrev main_call2_v14 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_call3_v0 : Ref sig .tc := ⟨.hbm, 184, rfl⟩
abbrev main_call3_v1_0 : Ref sig .tc := ⟨.hbm, 185, rfl⟩
abbrev main_v113 : Ref sig .tc := ⟨.hbm, 186, rfl⟩
abbrev main_c_19 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_c_20 : Ref sig .tc := ⟨.hbm, 191, rfl⟩
abbrev main_v117 : Ref sig .tc := ⟨.hbm, 192, rfl⟩
abbrev main_c_21 : Ref sig .tc := ⟨.hbm, 193, rfl⟩
abbrev main_v118 : Ref sig .tc := ⟨.hbm, 194, rfl⟩
abbrev main_c_22 : Ref sig .tc := ⟨.hbm, 195, rfl⟩
abbrev main_v119 : Ref sig .tc := ⟨.hbm, 196, rfl⟩
abbrev main_c_23 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_c : Ref sig .tc := ⟨.hbm, 204, rfl⟩
abbrev main_call4_v6 : Ref sig .tc := ⟨.hbm, 205, rfl⟩
abbrev main_call4_v7 : Ref sig .tc := ⟨.hbm, 206, rfl⟩
abbrev main_call4_c_0 : Ref sig .tc := ⟨.hbm, 207, rfl⟩
abbrev main_call4_v8 : Ref sig .tc := ⟨.hbm, 208, rfl⟩
abbrev main_v120 : Ref sig .tc := ⟨.hbm, 209, rfl⟩
abbrev main_c_24 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_call6_c : Ref sig .tc := ⟨.hbm, 221, rfl⟩
abbrev main_call6_v0 : Ref sig .tc := ⟨.hbm, 222, rfl⟩
abbrev main_call6_v1 : Ref sig .tc := ⟨.hbm, 223, rfl⟩
abbrev main_call6_c_0 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_call6_v5 : Ref sig .tc := ⟨.hbm, 228, rfl⟩
abbrev main_call6_c_1 : Ref sig .tc := ⟨.hbm, 229, rfl⟩
abbrev main_call6_c_2 : Ref sig .tc := ⟨.hbm, 230, rfl⟩
abbrev main_call6_v6 : Ref sig .tc := ⟨.hbm, 231, rfl⟩
abbrev main_call6_v7 : Ref sig .tc := ⟨.hbm, 232, rfl⟩
abbrev main_call6_v8 : Ref sig .tc := ⟨.hbm, 233, rfl⟩
abbrev main_call6_v9 : Ref sig .tc := ⟨.hbm, 234, rfl⟩
abbrev main_call6_v10 : Ref sig .tc := ⟨.hbm, 235, rfl⟩
abbrev main_call6_v11 : Ref sig .tc := ⟨.hbm, 236, rfl⟩
abbrev main_call6_c_3 : Ref sig .tc := ⟨.hbm, 237, rfl⟩
abbrev main_call6_v12 : Ref sig .tc := ⟨.hbm, 238, rfl⟩
abbrev main_call6_v13 : Ref sig .tc := ⟨.hbm, 239, rfl⟩
abbrev main_call6_v14 : Ref sig .tc := ⟨.hbm, 240, rfl⟩
abbrev main_call6_cst : Ref sig .tc := ⟨.hbm, 241, rfl⟩
abbrev main_call6_v15 : Ref sig .tc := ⟨.hbm, 242, rfl⟩
abbrev main_v131 : Ref sig .tc := ⟨.hbm, 243, rfl⟩
abbrev main_v132 : Ref sig .tc := ⟨.hbm, 244, rfl⟩
abbrev main_cst_25 : Ref sig .tc := ⟨.hbm, 245, rfl⟩
abbrev main_v133 : Ref sig .tc := ⟨.hbm, 246, rfl⟩
abbrev main_c_26 : Ref sig .tc := ⟨.hbm, 247, rfl⟩
abbrev main_v134 : Ref sig .tc := ⟨.hbm, 248, rfl⟩
abbrev main_v135 : Ref sig .tc := ⟨.hbm, 249, rfl⟩
abbrev main_c_27 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_c_28 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v147 : Ref sig .tc := ⟨.hbm, 262, rfl⟩
abbrev main_v148 : Ref sig .tc := ⟨.hbm, 263, rfl⟩
abbrev main_c_29 : Ref sig .tc := ⟨.hbm, 264, rfl⟩
abbrev main_v149 : Ref sig .tc := ⟨.hbm, 265, rfl⟩
abbrev main_c_30 : Ref sig .tc := ⟨.hbm, 266, rfl⟩
abbrev main_v150 : Ref sig .tc := ⟨.hbm, 267, rfl⟩
abbrev main_v151 : Ref sig .tc := ⟨.hbm, 268, rfl⟩
abbrev main_c_31 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_call7_c : Ref sig .tc := ⟨.hbm, 275, rfl⟩
abbrev main_call7_v0 : Ref sig .tc := ⟨.hbm, 276, rfl⟩
abbrev main_call7_v1 : Ref sig .tc := ⟨.hbm, 277, rfl⟩
abbrev main_call7_c_0 : Ref sig .tc := ⟨.hbm, 278, rfl⟩
abbrev main_call7_v2 : Ref sig .tc := ⟨.hbm, 279, rfl⟩
abbrev main_call7_v3 : Ref sig .tc := ⟨.hbm, 280, rfl⟩
abbrev main_call7_v4 : Ref sig .tc := ⟨.hbm, 281, rfl⟩
abbrev main_call7_v5 : Ref sig .tc := ⟨.hbm, 282, rfl⟩
abbrev main_call7_c_1 : Ref sig .tc := ⟨.hbm, 283, rfl⟩
abbrev main_call7_c_2 : Ref sig .tc := ⟨.hbm, 284, rfl⟩
abbrev main_call7_v6 : Ref sig .tc := ⟨.hbm, 285, rfl⟩
abbrev main_call7_v7 : Ref sig .tc := ⟨.hbm, 286, rfl⟩
abbrev main_call7_v8 : Ref sig .tc := ⟨.hbm, 287, rfl⟩
abbrev main_call7_v9 : Ref sig .tc := ⟨.hbm, 288, rfl⟩
abbrev main_call7_v10 : Ref sig .tc := ⟨.hbm, 289, rfl⟩
abbrev main_call7_v11 : Ref sig .tc := ⟨.hbm, 290, rfl⟩
abbrev main_call7_c_3 : Ref sig .tc := ⟨.hbm, 291, rfl⟩
abbrev main_call7_v12 : Ref sig .tc := ⟨.hbm, 292, rfl⟩
abbrev main_call7_v13 : Ref sig .tc := ⟨.hbm, 293, rfl⟩
abbrev main_call7_v14 : Ref sig .tc := ⟨.hbm, 294, rfl⟩
abbrev main_call7_cst : Ref sig .tc := ⟨.hbm, 295, rfl⟩
abbrev main_call7_v15 : Ref sig .tc := ⟨.hbm, 296, rfl⟩
abbrev main_v157 : Ref sig .tc := ⟨.hbm, 297, rfl⟩
abbrev main_v158 : Ref sig .tc := ⟨.hbm, 298, rfl⟩
abbrev main_v146 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 4], ![false, false, false]⟩

abbrev pre0 : Pipeline.Prefetch sig := ⟨1, ![main_v146.idx], fun | 0 => main_v146.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S10) ![v0.toNat] S1.size (k0_off1_inb i)) numel1_S1
  let c0_i32 : BitVec 32 := 0#32
  ![v1.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4x2048x4096_S4x2048_d2 : S4x2048x4096.ReducesTo [2] S4x2048
  h_S_ : 0 < S_.numel
  bcast_S_S4x2048 : S_.BroadcastsInDim S4x2048 (![] : Fin 0 → Fin S4x2048.rank)
  natLt_1_32 : 1 < 32
  shapeCasts_S4x2048_S8192 : S4x2048.ShapeCasts S8192
  transposes_S8x4096x128_S8x128x4096_0_2_1 : S8x4096x128.Transposes [0, 2, 1] S8x128x4096
  shapeCasts_S32_S1x32x1 : S32.ShapeCasts S1x32x1
  bcast_S_S128x32x4096 : S_.BroadcastsInDim S128x32x4096 (![] : Fin 0 → Fin S128x32x4096.rank)
  slices_S8x128x4096_S1x128x4096_0_0_0 : S8x128x4096.Slices ![0, 0, 0] S1x128x4096
  shapeCasts_S1x128x4096_S128x4096 : S1x128x4096.ShapeCasts S128x4096
  bcast_S128x4096_S128x1x4096_0_2 : S128x4096.BroadcastsInDim S128x1x4096 (![0, 2] : Fin 2 → Fin S128x1x4096.rank)
  bcast_S128x1x4096_S128x32x4096_0_1_2 : S128x1x4096.BroadcastsInDim S128x32x4096 (![0, 1, 2] : Fin 3 → Fin S128x32x4096.rank)
  bcast_S1x32x1_S128x32x4096_0_1_2 : S1x32x1.BroadcastsInDim S128x32x4096 (![0, 1, 2] : Fin 3 → Fin S128x32x4096.rank)
  slices_S8x128x4096_S1x128x4096_1_0_0 : S8x128x4096.Slices ![1, 0, 0] S1x128x4096
  slices_S8x128x4096_S1x128x4096_2_0_0 : S8x128x4096.Slices ![2, 0, 0] S1x128x4096
  slices_S8x128x4096_S1x128x4096_3_0_0 : S8x128x4096.Slices ![3, 0, 0] S1x128x4096
  slices_S8x128x4096_S1x128x4096_4_0_0 : S8x128x4096.Slices ![4, 0, 0] S1x128x4096
  slices_S8x128x4096_S1x128x4096_5_0_0 : S8x128x4096.Slices ![5, 0, 0] S1x128x4096
  slices_S8x128x4096_S1x128x4096_6_0_0 : S8x128x4096.Slices ![6, 0, 0] S1x128x4096
  slices_S8x128x4096_S1x128x4096_7_0_0 : S8x128x4096.Slices ![7, 0, 0] S1x128x4096
  shapeCasts_S128x32x4096_S4096x4096 : S128x32x4096.ShapeCasts S4096x4096
  bcast_S_S4096x4096 : S_.BroadcastsInDim S4096x4096 (![] : Fin 0 → Fin S4096x4096.rank)
  transposes_S4096x256_S256x4096_1_0 : S4096x256.Transposes [1, 0] S256x4096
  transposes_S4096x16_S16x4096_1_0 : S4096x16.Transposes [1, 0] S16x4096
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  bitsLt_bf16_f32 : FTy.bits .bf16 < FTy.bits .f32
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  bcast_S_S8192 : S_.BroadcastsInDim S8192 (![] : Fin 0 → Fin S8192.rank)
  reducesTo_S8192_S_d0 : S8192.ReducesTo [0] S_
  shapeCasts_S4x2048x4096_S8192x4096 : S4x2048x4096.ShapeCasts S8192x4096
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x4096_0 : S8192.BroadcastsInDim S8192x4096 (![0] : Fin 1 → Fin S8192x4096.rank)
  bcast_S_S8192x4096 : S_.BroadcastsInDim S8192x4096 (![] : Fin 0 → Fin S8192x4096.rank)
  bcast_S_S10240x4096 : S_.BroadcastsInDim S10240x4096 (![] : Fin 0 → Fin S10240x4096.rank)
  bcast_S_S10 : S_.BroadcastsInDim S10 (![] : Fin 0 → Fin S10.rank)
  shapeCasts_S4096_S1x4096 : S4096.ShapeCasts S1x4096
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x4096_S4096x4096x1_S4096x4096_n_0_1_1_0_2_11_wf : GatherDims.WF S256x4096 S4096x4096x1 S4096x4096 [] [0] [1] [0] [1] 2 ![1, 1]
  gather_S16x4096_S4096x4096x1_S4096x4096_n_0_1_1_0_2_11_wf : GatherDims.WF S16x4096 S4096x4096x1 S4096x4096 [] [0] [1] [0] [1] 2 ![1, 1]
  gather_S8192x4096_S8192x1_S8192x4096_1_0_n_n_0_1_14096_wf : GatherDims.WF S8192x4096 S8192x1 S8192x4096 [1] [0] [] [0] [] 1 ![1, 4096]
  scatter_S10240x4096_S8192x1_S8192x4096_1_0_0_1_wf : ScatterDims.WF S10240x4096 S8192x1 S8192x4096 [1] [0] [0] 1
  dot_S1024x1024_S1024x1024_S1024x1024_1_0_0_1_n_n_wf : DotDims.WF S1024x1024 S1024x1024 S1024x1024 [1] [0] [0] [1] [] []
  scatter_S8192_S8192x1_S8192_n_0_0_1_wf : ScatterDims.WF S8192 S8192x1 S8192 [] [0] [0] 1
  gather_S10240x4096_S8192x1_S8192x4096_1_0_n_n_0_1_14096_wf : GatherDims.WF S10240x4096 S8192x1 S8192x4096 [1] [0] [] [0] [] 1 ![1, 4096]
  hrank0 : 0 < grid0.rank
  k0_off1_inb : ∀ i : grid0.Coords, ∀ a, (k0_off1 i) a + S1.size a ≤ S10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x4096.size a
  hwx0_0 : ∀ i : grid0.Coords, EltTy.bits .bf16 = 32 ∨ (Rect.block (s := S10240x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S10240x4096.size a
  hwx0_3 : ∀ i : grid0.Coords, EltTy.bits .f32 = 32 ∨ (Rect.block (s := S10240x4096) S1024x1024.size (cc0_transform_3 i) (hinb0_3 i)).WholeWords (EltTy.packing .f32)

variable [Facts₀]

def gather_S256x4096_S4096x4096x1_S4096x4096_n_0_1_1_0_2_11 : GatherDims S256x4096 S4096x4096x1 S4096x4096 where
  offsetDims := []
  collapsedSliceDims := [0]
  operandBatchingDims := [1]
  startIndicesBatchingDims := [1]
  startIndexMap := [0]
  indexVectorDim := 2
  sliceSizes := ![1, 1]
  wf := gather_S256x4096_S4096x4096x1_S4096x4096_n_0_1_1_0_2_11_wf
def gather_S16x4096_S4096x4096x1_S4096x4096_n_0_1_1_0_2_11 : GatherDims S16x4096 S4096x4096x1 S4096x4096 where
  offsetDims := []
  collapsedSliceDims := [0]
  operandBatchingDims := [1]
  startIndicesBatchingDims := [1]
  startIndexMap := [0]
  indexVectorDim := 2
  sliceSizes := ![1, 1]
  wf := gather_S16x4096_S4096x4096x1_S4096x4096_n_0_1_1_0_2_11_wf
def comparator_i32_i32_d0 : BitVec 32 × BitVec 32 → BitVec 32 × BitVec 32 → BitVec 1 :=
  fun l r =>
    let v2 := IntOp.cmpi .slt l.1 r.1
    v2
def gather_S8192x4096_S8192x1_S8192x4096_1_0_n_n_0_1_14096 : GatherDims S8192x4096 S8192x1 S8192x4096 where
  offsetDims := [1]
  collapsedSliceDims := [0]
  operandBatchingDims := []
  startIndicesBatchingDims := []
  startIndexMap := [0]
  indexVectorDim := 1
  sliceSizes := ![1, 4096]
  wf := gather_S8192x4096_S8192x1_S8192x4096_1_0_n_n_0_1_14096_wf
def scatter_S10240x4096_S8192x1_S8192x4096_1_0_0_1 : ScatterDims S10240x4096 S8192x1 S8192x4096 where
  updateWindowDims := [1]
  insertedWindowDims := [0]
  scatterDimsToOperandDims := [0]
  indexVectorDim := 1
  wf := scatter_S10240x4096_S8192x1_S8192x4096_1_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S10240x4096_S8192x1_S8192x4096_1_0_n_n_0_1_14096 : GatherDims S10240x4096 S8192x1 S8192x4096 where
  offsetDims := [1]
  collapsedSliceDims := [0]
  operandBatchingDims := []
  startIndicesBatchingDims := []
  startIndexMap := [0]
  indexVectorDim := 1
  sliceSizes := ![1, 4096]
  wf := gather_S10240x4096_S8192x1_S8192x4096_1_0_n_n_0_1_14096_wf

abbrev spec0_0 : Pipeline.WinSpec sig grid0.rank :=
  Pipeline.WinSpec.ofSpec (Memref.whole main_v140) S1024x1024.size reads0_0 false false 2 stage0_0 sem0_0 nbuf0_0 hstage0_0

abbrev spec0_1 : Pipeline.WinSpec sig grid0.rank :=
  Pipeline.WinSpec.ofSpec (Memref.whole main_v112) S1x1024x1024.size reads0_1 false false 2 stage0_1 sem0_1 nbuf0_1 hstage0_1

abbrev spec0_2 : Pipeline.WinSpec sig grid0.rank :=
  Pipeline.WinSpec.ofSpec (Memref.whole main_v147) S1x1024.size reads0_2 false false 2 stage0_2 sem0_2 nbuf0_2 hstage0_2

abbrev spec0_3 : Pipeline.WinSpec sig grid0.rank :=
  Pipeline.WinSpec.ofSpec (Memref.whole main_v148) S1024x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S2x4096x4096.size a), EltTy.bits .bf16 = 32 ∨ (Rect.block (s := S2x4096x4096) S1x1024x1024.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S8x4096x128 : Shape := ⟨3, ![8, 4096, 128]⟩
abbrev S4096x16 : Shape := ⟨2, ![4096, 16]⟩
abbrev S4096x256 : Shape := ⟨2, ![4096, 256]⟩
abbrev S4096 : Shape := ⟨1, ![4096]⟩
abbrev S_ : Shape := ⟨0, ![]⟩
abbrev S4x2048 : Shape := ⟨2, ![4, 2048]⟩
abbrev S32 : Shape := ⟨1, ![32]⟩
abbrev S4096x4096 : Shape := ⟨2, ![4096, 4096]⟩
abbrev S1x4096x128 : Shape := ⟨3, ![1, 4096, 128]⟩
abbrev S4096x128 : Shape := ⟨2, ![4096, 128]⟩
abbrev S4096x128x1 : Shape := ⟨3, ![4096, 128, 1]⟩
abbrev S1x1x32 : Shape := ⟨3, ![1, 1, 32]⟩
abbrev S4096x128x32 : Shape := ⟨3, ![4096, 128, 32]⟩
abbrev S4096x4096x1 : Shape := ⟨3, ![4096, 4096, 1]⟩
abbrev S1 : Shape := ⟨1, ![1]⟩
abbrev S1x1x1 : Shape := ⟨3, ![1, 1, 1]⟩
abbrev S4x2048x1 : Shape := ⟨3, ![4, 2048, 1]⟩
abbrev S1x1x4096 : Shape := ⟨3, ![1, 1, 4096]⟩

abbrev nBuf : Space → Nat
  | .hbm => 256
  | .vmem => 0
  | .smem => 0
  | _ => 0

abbrev hbmTy0_0 (i : Nat) : BufTy := match i % 128 with
  | 0 => ⟨S4x2048x4096, .f32⟩
  | 1 => ⟨S8x4096x128, .i32⟩
  | 2 => ⟨S4096x16, .f32⟩
  | 3 => ⟨S4096x256, .f32⟩
  | 4 => ⟨S4096, .f32⟩
  | 5 => ⟨S4x2048x4096, .f32⟩
  | 6 => ⟨S_, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S_, .f32⟩
  | 13 => ⟨S4x2048, .f32⟩
  | 14 => ⟨S4x2048, .f32⟩
  | 15 => ⟨S_, .f32⟩
  | 16 => ⟨S4x2048, .f32⟩
  | 17 => ⟨S4x2048, .i1⟩
  | 18 => ⟨S32, .i32⟩
  | 19 => ⟨S_, .i32⟩
  | 20 => ⟨S4096x4096, .i32⟩
  | 21 => ⟨S1x4096x128, .i32⟩
  | 22 => ⟨S4096x128, .i32⟩
  | 23 => ⟨S4096x128x1, .i32⟩
  | 24 => ⟨S1x1x32, .i32⟩
  | 25 => ⟨S4096x128x32, .i32⟩
  | 26 => ⟨S4096x128x32, .i32⟩
  | 27 => ⟨S4096x128x32, .i32⟩
  | 28 => ⟨S_, .i32⟩
  | 29 => ⟨S4096x128x32, .i32⟩
  | 30 => ⟨S4096x128x32, .i32⟩
  | 31 => ⟨S4096x4096, .i32⟩
  | 32 => ⟨S_, .i32⟩
  | 33 => ⟨S4096x4096, .i32⟩
  | 34 => ⟨S4096x4096, .i32⟩
  | 35 => ⟨S4096x4096, .i32⟩
  | 36 => ⟨S1x4096x128, .i32⟩
  | 37 => ⟨S4096x128, .i32⟩
  | 38 => ⟨S4096x128x1, .i32⟩
  | 39 => ⟨S1x1x32, .i32⟩
  | 40 => ⟨S4096x128x32, .i32⟩
  | 41 => ⟨S4096x128x32, .i32⟩
  | 42 => ⟨S4096x128x32, .i32⟩
  | 43 => ⟨S_, .i32⟩
  | 44 => ⟨S4096x128x32, .i32⟩
  | 45 => ⟨S4096x128x32, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S1x4096x128, .i32⟩
  | 52 => ⟨S4096x128, .i32⟩
  | 53 => ⟨S4096x128x1, .i32⟩
  | 54 => ⟨S1x1x32, .i32⟩
  | 55 => ⟨S4096x128x32, .i32⟩
  | 56 => ⟨S4096x128x32, .i32⟩
  | 57 => ⟨S4096x128x32, .i32⟩
  | 58 => ⟨S_, .i32⟩
  | 59 => ⟨S4096x128x32, .i32⟩
  | 60 => ⟨S4096x128x32, .i32⟩
  | 61 => ⟨S4096x4096, .i32⟩
  | 62 => ⟨S_, .i32⟩
  | 63 => ⟨S4096x4096, .i32⟩
  | 64 => ⟨S4096x4096, .i32⟩
  | 65 => ⟨S4096x4096, .i32⟩
  | 66 => ⟨S1x4096x128, .i32⟩
  | 67 => ⟨S4096x128, .i32⟩
  | 68 => ⟨S4096x128x1, .i32⟩
  | 69 => ⟨S1x1x32, .i32⟩
  | 70 => ⟨S4096x128x32, .i32⟩
  | 71 => ⟨S4096x128x32, .i32⟩
  | 72 => ⟨S4096x128x32, .i32⟩
  | 73 => ⟨S_, .i32⟩
  | 74 => ⟨S4096x128x32, .i32⟩
  | 75 => ⟨S4096x128x32, .i32⟩
  | 76 => ⟨S4096x4096, .i32⟩
  | 77 => ⟨S_, .i32⟩
  | 78 => ⟨S4096x4096, .i32⟩
  | 79 => ⟨S4096x4096, .i32⟩
  | 80 => ⟨S4096x4096, .i32⟩
  | 81 => ⟨S_, .i32⟩
  | 82 => ⟨S4096x4096, .i32⟩
  | 83 => ⟨S4096x4096, .i1⟩
  | 84 => ⟨S_, .i32⟩
  | 85 => ⟨S4096x4096, .i32⟩
  | 86 => ⟨S4096x4096, .i32⟩
  | 87 => ⟨S4096x4096, .i32⟩
  | 88 => ⟨S4096x4096x1, .i32⟩
  | 89 => ⟨S1, .i32⟩
  | 90 => ⟨S_, .i32⟩
  | 91 => ⟨S4096x4096x1, .i32⟩
  | 92 => ⟨S4096x4096x1, .i1⟩
  | 93 => ⟨S1x1x1, .i32⟩
  | 94 => ⟨S4096x4096x1, .i32⟩
  | 95 => ⟨S4096x4096x1, .i1⟩
  | 96 => ⟨S4096x4096x1, .i1⟩
  | 97 => ⟨S_, .i1⟩
  | 98 => ⟨S4096x4096, .i1⟩
  | 99 => ⟨S4096x4096, .f32⟩
  | 100 => ⟨S_, .f32⟩
  | 101 => ⟨S4096x4096, .f32⟩
  | 102 => ⟨S4096x4096, .f32⟩
  | 103 => ⟨S32, .i32⟩
  | 104 => ⟨S_, .i32⟩
  | 105 => ⟨S4096x4096, .i32⟩
  | 106 => ⟨S1x4096x128, .i32⟩
  | 107 => ⟨S4096x128, .i32⟩
  | 108 => ⟨S4096x128x1, .i32⟩
  | 109 => ⟨S1x1x32, .i32⟩
  | 110 => ⟨S4096x128x32, .i32⟩
  | 111 => ⟨S4096x128x32, .i32⟩
  | 112 => ⟨S4096x128x32, .i32⟩
  | 113 => ⟨S_, .i32⟩
  | 114 => ⟨S4096x128x32, .i32⟩
  | 115 => ⟨S4096x128x32, .i32⟩
  | 116 => ⟨S4096x4096, .i32⟩
  | 117 => ⟨S_, .i32⟩
  | 118 => ⟨S4096x4096, .i32⟩
  | 119 => ⟨S4096x4096, .i32⟩
  | 120 => ⟨S4096x4096, .i32⟩
  | 121 => ⟨S1x4096x128, .i32⟩
  | 122 => ⟨S4096x128, .i32⟩
  | 123 => ⟨S4096x128x1, .i32⟩
  | 124 => ⟨S1x1x32, .i32⟩
  | 125 => ⟨S4096x128x32, .i32⟩
  | 126 => ⟨S4096x128x32, .i32⟩
  | 127 => ⟨S4096x128x32, .i32⟩
  | _ => ⟨S4x2048x4096, .f32⟩

abbrev hbmTy0_1 (i : Nat) : BufTy := match i % 128 with
  | 0 => ⟨S_, .i32⟩
  | 1 => ⟨S4096x128x32, .i32⟩
  | 2 => ⟨S4096x128x32, .i32⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S1x4096x128, .i32⟩
  | 9 => ⟨S4096x128, .i32⟩
  | 10 => ⟨S4096x128x1, .i32⟩
  | 11 => ⟨S1x1x32, .i32⟩
  | 12 => ⟨S4096x128x32, .i32⟩
  | 13 => ⟨S4096x128x32, .i32⟩
  | 14 => ⟨S4096x128x32, .i32⟩
  | 15 => ⟨S_, .i32⟩
  | 16 => ⟨S4096x128x32, .i32⟩
  | 17 => ⟨S4096x128x32, .i32⟩
  | 18 => ⟨S4096x4096, .i32⟩
  | 19 => ⟨S_, .i32⟩
  | 20 => ⟨S4096x4096, .i32⟩
  | 21 => ⟨S4096x4096, .i32⟩
  | 22 => ⟨S4096x4096, .i32⟩
  | 23 => ⟨S1x4096x128, .i32⟩
  | 24 => ⟨S4096x128, .i32⟩
  | 25 => ⟨S4096x128x1, .i32⟩
  | 26 => ⟨S1x1x32, .i32⟩
  | 27 => ⟨S4096x128x32, .i32⟩
  | 28 => ⟨S4096x128x32, .i32⟩
  | 29 => ⟨S4096x128x32, .i32⟩
  | 30 => ⟨S_, .i32⟩
  | 31 => ⟨S4096x128x32, .i32⟩
  | 32 => ⟨S4096x128x32, .i32⟩
  | 33 => ⟨S4096x4096, .i32⟩
  | 34 => ⟨S_, .i32⟩
  | 35 => ⟨S4096x4096, .i32⟩
  | 36 => ⟨S4096x4096, .i32⟩
  | 37 => ⟨S4096x4096, .i32⟩
  | 38 => ⟨S1x4096x128, .i32⟩
  | 39 => ⟨S4096x128, .i32⟩
  | 40 => ⟨S4096x128x1, .i32⟩
  | 41 => ⟨S1x1x32, .i32⟩
  | 42 => ⟨S4096x128x32, .i32⟩
  | 43 => ⟨S4096x128x32, .i32⟩
  | 44 => ⟨S4096x128x32, .i32⟩
  | 45 => ⟨S_, .i32⟩
  | 46 => ⟨S4096x128x32, .i32⟩
  | 47 => ⟨S4096x128x32, .i32⟩
  | 48 => ⟨S4096x4096, .i32⟩
  | 49 => ⟨S_, .i32⟩
  | 50 => ⟨S4096x4096, .i32⟩
  | 51 => ⟨S4096x4096, .i32⟩
  | 52 => ⟨S4096x4096, .i32⟩
  | 53 => ⟨S1x4096x128, .i32⟩
  | 54 => ⟨S4096x128, .i32⟩
  | 55 => ⟨S4096x128x1, .i32⟩
  | 56 => ⟨S1x1x32, .i32⟩
  | 57 => ⟨S4096x128x32, .i32⟩
  | 58 => ⟨S4096x128x32, .i32⟩
  | 59 => ⟨S4096x128x32, .i32⟩
  | 60 => ⟨S_, .i32⟩
  | 61 => ⟨S4096x128x32, .i32⟩
  | 62 => ⟨S4096x128x32, .i32⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S1x4096x128, .i32⟩
  | 69 => ⟨S4096x128, .i32⟩
  | 70 => ⟨S4096x128x1, .i32⟩
  | 71 => ⟨S1x1x32, .i32⟩
  | 72 => ⟨S4096x128x32, .i32⟩
  | 73 => ⟨S4096x128x32, .i32⟩
  | 74 => ⟨S4096x128x32, .i32⟩
  | 75 => ⟨S_, .i32⟩
  | 76 => ⟨S4096x128x32, .i32⟩
  | 77 => ⟨S4096x128x32, .i32⟩
  | 78 => ⟨S4096x4096, .i32⟩
  | 79 => ⟨S_, .i32⟩
  | 80 => ⟨S4096x4096, .i32⟩
  | 81 => ⟨S4096x4096, .i32⟩
  | 82 => ⟨S4096x4096, .i32⟩
  | 83 => ⟨S1x4096x128, .i32⟩
  | 84 => ⟨S4096x128, .i32⟩
  | 85 => ⟨S4096x128x1, .i32⟩
  | 86 => ⟨S1x1x32, .i32⟩
  | 87 => ⟨S4096x128x32, .i32⟩
  | 88 => ⟨S4096x128x32, .i32⟩
  | 89 => ⟨S4096x128x32, .i32⟩
  | 90 => ⟨S_, .i32⟩
  | 91 => ⟨S4096x128x32, .i32⟩
  | 92 => ⟨S4096x128x32, .i32⟩
  | 93 => ⟨S4096x4096, .i32⟩
  | 94 => ⟨S_, .i32⟩
  | 95 => ⟨S4096x4096, .i32⟩
  | 96 => ⟨S4096x4096, .i32⟩
  | 97 => ⟨S4096x4096, .i32⟩
  | 98 => ⟨S_, .i32⟩
  | 99 => ⟨S4096x4096, .i32⟩
  | 100 => ⟨S4096x4096, .i1⟩
  | 101 => ⟨S_, .i32⟩
  | 102 => ⟨S4096x4096, .i32⟩
  | 103 => ⟨S4096x4096, .i32⟩
  | 104 => ⟨S4096x4096, .i32⟩
  | 105 => ⟨S4096x4096x1, .i32⟩
  | 106 => ⟨S1, .i32⟩
  | 107 => ⟨S_, .i32⟩
  | 108 => ⟨S4096x4096x1, .i32⟩
  | 109 => ⟨S4096x4096x1, .i1⟩
  | 110 => ⟨S1x1x1, .i32⟩
  | 111 => ⟨S4096x4096x1, .i32⟩
  | 112 => ⟨S4096x4096x1, .i1⟩
  | 113 => ⟨S4096x4096x1, .i1⟩
  | 114 => ⟨S_, .i1⟩
  | 115 => ⟨S4096x4096, .i1⟩
  | 116 => ⟨S4096x4096, .f32⟩
  | 117 => ⟨S_, .f32⟩
  | 118 => ⟨S4096x4096, .f32⟩
  | 119 => ⟨S4096x4096, .f32⟩
  | 120 => ⟨S4x2048x4096, .f32⟩
  | 121 => ⟨S4x2048x4096, .f32⟩
  | 122 => ⟨S4x2048x1, .i1⟩
  | 123 => ⟨S4x2048x4096, .i1⟩
  | 124 => ⟨S4x2048x4096, .f32⟩
  | 125 => ⟨S1x1x4096, .f32⟩
  | 126 => ⟨S4x2048x4096, .f32⟩
  | 127 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_cst : Ref sig .tc := ⟨.hbm, 100, rfl⟩
abbrev main_call1_v14 : Ref sig .tc := ⟨.hbm, 101, rfl⟩
abbrev main_v61 : Ref sig .tc := ⟨.hbm, 102, rfl⟩
abbrev main_v62 : Ref sig .tc := ⟨.hbm, 103, rfl⟩
abbrev main_c_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_11 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_12 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_14 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_15 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_16 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_17 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_18 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_19 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_20 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_21 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_c_22 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_23 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_24 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_25 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_26 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_call2_c : Ref sig .tc := ⟨.hbm, 226, rfl⟩
abbrev main_call2_v0 : Ref sig .tc := ⟨.hbm, 227, rfl⟩
abbrev main_call2_v1 : Ref sig .tc := ⟨.hbm, 228, rfl⟩
abbrev main_call2_c_0 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_call2_v5 : Ref sig .tc := ⟨.hbm, 233, rfl⟩
abbrev main_call2_c_1 : Ref sig .tc := ⟨.hbm, 234, rfl⟩
abbrev main_call2_c_2 : Ref sig .tc := ⟨.hbm, 235, rfl⟩
abbrev main_call2_v6 : Ref sig .tc := ⟨.hbm, 236, rfl⟩
abbrev main_call2_v7 : Ref sig .tc := ⟨.hbm, 237, rfl⟩
abbrev main_call2_v8 : Ref sig .tc := ⟨.hbm, 238, rfl⟩
abbrev main_call2_v9 : Ref sig .tc := ⟨.hbm, 239, rfl⟩
abbrev main_call2_v10 : Ref sig .tc := ⟨.hbm, 240, rfl⟩
abbrev main_call2_v11 : Ref sig .tc := ⟨.hbm, 241, rfl⟩
abbrev main_call2_c_3 : Ref sig .tc := ⟨.hbm, 242, rfl⟩
abbrev main_call2_v12 : Ref sig .tc := ⟨.hbm, 243, rfl⟩
abbrev main_call2_v13 : Ref sig .tc := ⟨.hbm, 244, rfl⟩
abbrev main_call2_cst : Ref sig .tc := ⟨.hbm, 245, rfl⟩
abbrev main_call2_v14 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_call3_v0 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S_S4x2048 : S_.BroadcastsInDim S4x2048 (![] : Fin 0 → Fin S4x2048.rank)
  bcast_S_S4096x4096 : S_.BroadcastsInDim S4096x4096 (![] : Fin 0 → Fin S4096x4096.rank)
  slices_S8x4096x128_S1x4096x128_0_0_0 : S8x4096x128.Slices ![0, 0, 0] S1x4096x128
  shapeCasts_S1x4096x128_S4096x128 : S1x4096x128.ShapeCasts S4096x128
  bcast_S4096x128_S4096x128x1_0_1 : S4096x128.BroadcastsInDim S4096x128x1 (![0, 1] : Fin 2 → Fin S4096x128x1.rank)
  bcast_S32_S1x1x32_2 : S32.BroadcastsInDim S1x1x32 (![2] : Fin 1 → Fin S1x1x32.rank)
  bcast_S4096x128x1_S4096x128x32_0_1_2 : S4096x128x1.BroadcastsInDim S4096x128x32 (![0, 1, 2] : Fin 3 → Fin S4096x128x32.rank)
  bcast_S1x1x32_S4096x128x32_0_1_2 : S1x1x32.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  slices_S8x4096x128_S1x4096x128_1_0_0 : S8x4096x128.Slices ![1, 0, 0] S1x4096x128
  slices_S8x4096x128_S1x4096x128_2_0_0 : S8x4096x128.Slices ![2, 0, 0] S1x4096x128
  slices_S8x4096x128_S1x4096x128_3_0_0 : S8x4096x128.Slices ![3, 0, 0] S1x4096x128
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  slices_S8x4096x128_S1x4096x128_4_0_0 : S8x4096x128.Slices ![4, 0, 0] S1x4096x128
  slices_S8x4096x128_S1x4096x128_5_0_0 : S8x4096x128.Slices ![5, 0, 0] S1x4096x128
  slices_S8x4096x128_S1x4096x128_6_0_0 : S8x4096x128.Slices ![6, 0, 0] S1x4096x128
  slices_S8x4096x128_S1x4096x128_7_0_0 : S8x4096x128.Slices ![7, 0, 0] S1x4096x128
  bcast_S4x2048_S4x2048x1_0_1 : S4x2048.BroadcastsInDim S4x2048x1 (![0, 1] : Fin 2 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x16_S4096x4096x1_S4096x4096_n_1_0_0_1_2_11_wf : GatherDims.WF S4096x16 S4096x4096x1 S4096x4096 [] [1] [0] [1] [0] 2 ![1, 1]
  gather_S4096x256_S4096x4096x1_S4096x4096_n_1_0_0_1_2_11_wf : GatherDims.WF S4096x256 S4096x4096x1 S4096x4096 [] [1] [0] [1] [0] 2 ![1, 1]
  dot_S4x2048x4096_S4096x4096_S4x2048x4096_2_1_01_0_n_n_wf : DotDims.WF S4x2048x4096 S4096x4096 S4x2048x4096 [2] [1] [0, 1] [0] [] []

variable [Facts₀]

def gather_S4096x16_S4096x4096x1_S4096x4096_n_1_0_0_1_2_11 : GatherDims S4096x16 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x16_S4096x4096x1_S4096x4096_n_1_0_0_1_2_11_wf
def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.OkKernel.lean ====
/-
  The weight window's block index reads a prefetched table of ten words, one per row tile: which of the two stacked
  [4096, 4096] matrices the tile multiplies by. The program computes that table itself, just before the call, as a
  comparison bit (row-tile start against a threshold, signed ≥) widened from 1 bit to 32. A widened bit is 0 or 1,
  so whatever the launch memory holds, the block (table[i], k, j) of extent [1, 1024, 1024] lies inside the
  [2, 4096, 4096] stack: 0 or 1 along the leading axis, and k, j < 4 along the other two. Its transfers end on whole
  words because the block's row extent, 1024, is a multiple of the two bf16 elements a word packs. Hence the
  pipeline's side condition on the table's contents holds of every memory: no precondition is needed for it.
-/
import proofs.«415461_j65850438582285_3_alg».proof.Proof.Gen.Kernel.Frame.Runs

set_option maxRecDepth 16384

noncomputable section

namespace Cert.Kernel.Bridge

open Idealize.ShloMosaic Idealize.SL.Sem Idealize.ShloMosaic.TcCoe
open Cert.Kernel Cert.Kernel.Gen

variable {F : FTy → Type} [FloatOps F] (m : (ℓ : Loc nD τ sig) → Buf (Elt F) ℓ)

/-- A one-bit word widened to 32 bits is 0 or 1: widening keeps the unsigned value, which is below 2. -/
theorem setWidth_one_le (b : BitVec 1) : (b.setWidth 32).toNat ≤ 1 := by
  rw [BitVec.toNat_setWidth]
  have := b.isLt
  omega

/-- The contents after a list of stretches of operations whose last is `l`: the last stretch run from the contents
    the others leave. -/
theorem after_flatten_concat {τ : Topo} {sig : RefSig} {Val : EltTy → Type} (L : List (List (HloOp τ sig Val)))
    (l : List (HloOp τ sig Val)) (W : Valuation τ sig Val) :
    StableHlo.after (List.flatten (L ++ [l])) W = StableHlo.after l (StableHlo.after (List.flatten L) W) := by
  rw [List.flatten_append, StableHlo.after_append, List.flatten_cons, List.flatten_nil, List.append_nil]

/-- Every word of the table of weight numbers is 0 or 1: it is a widened comparison bit. Only the last stretch of
    host operations matters: its last operation but one writes the table as `extui 32` of a 1-bit vector, and the last
    one, a reshape, writes another buffer. Whatever the earlier operations left (`W`), the word is a widened bit. -/
theorem tbl_le_one (j : S10.Idx) : (tbl m 0 j).toNat ≤ 1 := by
  unfold tbl
  show (V m 0 main_v146 j).toNat ≤ 1
  unfold V
  have key : V0 m (0 : Dev nD) = StableHlo.after hostOps0_13 (StableHlo.after (List.flatten [hostOps0, hostOps0_1, hostOps0_2, hostOps0_3, hostOps0_4, hostOps0_5, hostOps0_6, hostOps0_7, hostOps0_8, hostOps0_9, hostOps0_10, hostOps0_11, hostOps0_12]) (fun b => m ((0 : Dev nD), b))) :=
    after_flatten_concat [hostOps0, hostOps0_1, hostOps0_2, hostOps0_3, hostOps0_4, hostOps0_5, hostOps0_6, hostOps0_7, hostOps0_8, hostOps0_9, hostOps0_10, hostOps0_11, hostOps0_12] hostOps0_13 _
  rw [key]
  generalize StableHlo.after (List.flatten [hostOps0, hostOps0_1, hostOps0_2, hostOps0_3, hostOps0_4, hostOps0_5, hostOps0_6, hostOps0_7, hostOps0_8, hostOps0_9, hostOps0_10, hostOps0_11, hostOps0_12]) (fun b => m ((0 : Dev nD), b)) = W
  simp only [hostOps0_13, StableHlo.after_cons, StableHlo.after_nil]
  rw [StableHlo.reshape_result_ne (h := (by decide : main_v146 ≠ main_v147))]
  rw [StableHlo.unary_result]
  exact setWidth_one_le _

/-- The table-indexed weight block lies inside the stacked weights at every grid point, its transfer ends on whole
    words: the table's words are 0 or 1 and there are two matrices; the other two block coordinates are grid
    coordinates below 4, and 4 · 1024 = 4096; the block's 1024 rows are a multiple of the packing 2. -/
theorem ok_all : Ok m := by
  intro i
  -- the index map's value: the table's word at the row tile, then the grid coordinates 2 and 1
  obtain ⟨w, hw, e⟩ : ∃ w : BitVec 32, w.toNat ≤ 1 ∧
      cc0_transform_1 k0_off1_inb numel1_S1 (tbl m) i = ![w.toNat, (BitVec.ofNat 32 (i 2).val).toNat, (BitVec.ofNat 32 (i 1).val).toNat] :=
    ⟨_, tbl_le_one m _, rfl⟩
  refine ⟨fun a => ?_, .inr (Affine.block_words_dvd (of_decide_eq_true rfl) (by decide))⟩
  rw [e]
  have h1 : (i 1).val < 4 := (i 1).isLt
  have h2 : (i 2).val < 4 := (i 2).isLt
  fin_cases a <;> simp [S1x1024x1024, S2x4096x4096] <;> omega

end Cert.Kernel.Bridge

end
-- ==== Proof.OkKernelIdeal.lean ====
/-
  The weight window's block index reads a prefetched table of ten words, one per row tile: which of the two stacked
  [4096, 4096] matrices the tile multiplies by. The program computes that table itself, just before the call, as a
  comparison bit (row-tile start against a threshold, signed ≥) widened from 1 bit to 32. A widened bit is 0 or 1,
  so whatever the launch memory holds, the block (table[i], k, j) of extent [1, 1024, 1024] lies inside the
  [2, 4096, 4096] stack: 0 or 1 along the leading axis, and k, j < 4 along the other two. Its transfers end on whole
  words because the block's row extent, 1024, is a multiple of the two bf16 elements a word packs. Hence the
  pipeline's side condition on the table's contents holds of every memory: no precondition is needed for it.
-/
import proofs.«415461_j65850438582285_3_alg».proof.Proof.Gen.KernelIdeal.Frame.Runs

set_option maxRecDepth 16384

noncomputable section

namespace Cert.KernelIdeal.Bridge

open Idealize.ShloMosaic Idealize.SL.Sem Idealize.ShloMosaic.TcCoe
open Cert.KernelIdeal Cert.KernelIdeal.Gen

variable {F : FTy → Type} [FloatOps F] (m : (ℓ : Loc nD τ sig) → Buf (Elt F) ℓ)

/-- A one-bit word widened to 32 bits is 0 or 1: widening keeps the unsigned value, which is below 2. -/
theorem setWidth_one_le (b : BitVec 1) : (b.setWidth 32).toNat ≤ 1 := by
  rw [BitVec.toNat_setWidth]
  have := b.isLt
  omega

/-- The contents after a list of stretches of operations whose last is `l`: the last stretch run from the contents
    the others leave. -/
theorem after_flatten_concat {τ : Topo} {sig : RefSig} {Val : EltTy → Type} (L : List (List (HloOp τ sig Val)))
    (l : List (HloOp τ sig Val)) (W : Valuation τ sig Val) :
    StableHlo.after (List.flatten (L ++ [l])) W = StableHlo.after l (StableHlo.after (List.flatten L) W) := by
  rw [List.flatten_append, StableHlo.after_append, List.flatten_cons, List.flatten_nil, List.append_nil]

/-- Every word of the table of weight numbers is 0 or 1: it is a widened comparison bit. Only the last stretch of
    host operations matters: its last operation but one writes the table as `extui 32` of a 1-bit vector, and the last
    one, a reshape, writes another buffer. Whatever the earlier operations left (`W`), the word is a widened bit. -/
theorem tbl_le_one (j : S10.Idx) : (tbl m 0 j).toNat ≤ 1 := by
  unfold tbl
  show (V m 0 main_v146 j).toNat ≤ 1
  unfold V
  have key : V0 m (0 : Dev nD) = StableHlo.after hostOps0_13 (StableHlo.after (List.flatten [hostOps0, hostOps0_1, hostOps0_2, hostOps0_3, hostOps0_4, hostOps0_5, hostOps0_6, hostOps0_7, hostOps0_8, hostOps0_9, hostOps0_10, hostOps0_11, hostOps0_12]) (fun b => m ((0 : Dev nD), b))) :=
    after_flatten_concat [hostOps0, hostOps0_1, hostOps0_2, hostOps0_3, hostOps0_4, hostOps0_5, hostOps0_6, hostOps0_7, hostOps0_8, hostOps0_9, hostOps0_10, hostOps0_11, hostOps0_12] hostOps0_13 _
  rw [key]
  generalize StableHlo.after (List.flatten [hostOps0, hostOps0_1, hostOps0_2, hostOps0_3, hostOps0_4, hostOps0_5, hostOps0_6, hostOps0_7, hostOps0_8, hostOps0_9, hostOps0_10, hostOps0_11, hostOps0_12]) (fun b => m ((0 : Dev nD), b)) = W
  simp only [hostOps0_13, StableHlo.after_cons, StableHlo.after_nil]
  rw [StableHlo.reshape_result_ne (h := (by decide : main_v146 ≠ main_v147))]
  rw [StableHlo.unary_result]
  exact setWidth_one_le _

/-- The table-indexed weight block lies inside the stacked weights at every grid point, its transfer ends on whole
    words: the table's words are 0 or 1 and there are two matrices; the other two block coordinates are grid
    coordinates below 4, and 4 · 1024 = 4096; the block's 1024 rows are a multiple of the packing 2. -/
theorem ok_all : Ok m := by
  intro i
  -- the index map's value: the table's word at the row tile, then the grid coordinates 2 and 1
  obtain ⟨w, hw, e⟩ : ∃ w : BitVec 32, w.toNat ≤ 1 ∧
      cc0_transform_1 k0_off1_inb numel1_S1 (tbl m) i = ![w.toNat, (BitVec.ofNat 32 (i 2).val).toNat, (BitVec.ofNat 32 (i 1).val).toNat] :=
    ⟨_, tbl_le_one m _, rfl⟩
  refine ⟨fun a => ?_, .inr (Affine.block_words_dvd (of_decide_eq_true rfl) (by decide))⟩
  rw [e]
  have h1 : (i 1).val < 4 := (i 1).isLt
  have h2 : (i 2).val < 4 := (i 2).isLt
  fin_cases a <;> simp [S1x1024x1024, S2x4096x4096] <;> omega

end Cert.KernelIdeal.Bridge

end
-- ==== Proof.KArr.lean ====
/-
  Names, at their literal types, for the arrays the region meets at the idealized instance: the padded and routed
  tokens, the two stacked weight matrices, the bias row and the table of each row tile's weight number.
-/
import proofs.«415461_j65850438582285_3_alg».proof.Proof.FrameKernelIdeal
import Idealize.ShloMosaic.PureOps.Ideal

noncomputable section

namespace Cert.KernelIdeal.Bridge

open Idealize.ShloMosaic Idealize.SL.Sem Idealize.ShloMosaic.TcCoe
open Cert.KernelIdeal Cert.KernelIdeal.Gen Cert.KernelIdeal.GenP

variable (m : (ℓ : Loc nD τ sig) → Buf (Elt Ideal) ℓ)

/-- The routed tokens, zero-padded to 10 row tiles of 1024: [10240, 4096]. -/
abbrev xpad (c : Dev nD) : Vec Ideal S10240x4096 .bf16 := V m c main_v140
/-- The two weight matrices stacked, low precision first: [2, 4096 (in), 4096 (out)]. -/
abbrev wst (c : Dev nD) : Vec Ideal S2x4096x4096 .bf16 := V m c main_v112
/-- The bias as a row: [1, 4096]. -/
abbrev b2d (c : Dev nD) : Vec Ideal S1x4096 .f32 := V m c main_v147
/-- The weight number of each of the 10 row tiles. -/
abbrev gid : IVec S10 32 := tbl m 0
/-- The region's result array after the run: [10240, 4096]. -/
abbrev ypad (hO : Ok m) (c : Dev nD) : Vec Ideal S10240x4096 .f32 := (dats m hO 0 c).arrAt 3 (cfgM m hO).N

end Cert.KernelIdeal.Bridge

end
-- ==== Proof.KHost.lean ====
/-
  The kernel program's host side as pure functions, one per step of the routing, generic in the float instance:
  the token flags widened and flattened (mask), the weights' codes laid out input-major and the two dequantized
  matrices stacked, the stable argsort of the mask, the number of low-precision tokens, the first padded slot of the
  high-precision group, each sorted position's slot, the routed and zero-padded tokens, the table of each row tile's
  weight number; and, after the region, the slot of each token and the gathered result.
-/
import proofs.«415461_j65850438582285_3_alg».proof.Proof.Gen.KernelIdeal

noncomputable section

namespace Cert.KernelIdeal.Host

open Idealize.ShloMosaic Idealize.SL.Sem
open Cert.KernelIdeal Cert.KernelIdeal.Gen

variable {F : FTy → Type} [FloatOps F]

/-! ## Splats -/

/-- A word splat over the 8192 tokens. -/
abbrev splat8192 (k : BitVec 32) : IVec S8192 32 := broadcastInDim S8192 ![] bcast_S_S8192 (constantI S_ 32 k)

/-! ## The flags and the mask -/

/-- The token flags: the norm of each row, times one plus zero, compared with 64. -/
def flagFn (x : FVec F S4x2048x4096 .f32) : IVec S4x2048 1 :=
  cmpf .ogt
    (addf
      (mulf (Host.sqrt (Host.reduceAdd (mulf x x) (constant S_ .f32 0x00000000#32) reducesTo_S4x2048x4096_S4x2048_d2 h_S_))
        (broadcastInDim S4x2048 ![] bcast_S_S4x2048 (constant S_ .f32 0x3F800000#32)))
      (broadcastInDim S4x2048 ![] bcast_S_S4x2048 (constant S_ .f32 0x00000000#32)))
    (broadcastInDim S4x2048 ![] bcast_S_S4x2048 (constant S_ .f32 0x42800000#32))

/-- The flags as words, one per token in row-major order. -/
def maskFn (x : FVec F S4x2048x4096 .f32) : IVec S8192 32 :=
  shapeCast S8192 (extui 32 (flagFn x) natLt_1_32) shapeCasts_S4x2048_S8192

/-! ## The codes, input-major -/

/-- The planes with the output axis last: [8, 128, 4096]. -/
def planesT (q : IVec S8x4096x128 32) : IVec S8x128x4096 32 :=
  transpose S8x128x4096 [0, 2, 1] q transposes_S8x4096x128_S8x128x4096_0_2_1

/-- The bit positions 0..31 along the middle axis of [1, 32, 1]. -/
def shifts : IVec S1x32x1 32 := shapeCast S1x32x1 (iotaInDim S32 32 0) shapeCasts_S32_S1x32x1

/-- One plane's bits, each moved to the plane's place `sh`: [128, 32, 4096]. -/
def planeTerm (off : Fin 3 → Nat) (hs : S8x128x4096.Slices off S1x128x4096) (sh : BitVec 32) (q9 : IVec S8x128x4096 32) :
    IVec S128x32x4096 32 :=
  Host.shli
    (andi
      (Host.shrsi
        (broadcastInDim S128x32x4096 ![0, 1, 2] bcast_S128x1x4096_S128x32x4096_0_1_2
          (broadcastInDim S128x1x4096 ![0, 2] bcast_S128x4096_S128x1x4096_0_2
            (shapeCast S128x4096 (extractStridedSlice S1x128x4096 off q9 hs) shapeCasts_S1x128x4096_S128x4096)))
        (broadcastInDim S128x32x4096 ![0, 1, 2] bcast_S1x32x1_S128x32x4096_0_1_2 shifts))
      (broadcastInDim S128x32x4096 ![] bcast_S_S128x32x4096 (constantI S_ 32 1#32)))
    (broadcastInDim S128x32x4096 ![] bcast_S_S128x32x4096 (constantI S_ 32 sh))

/-- The 8-bit codes, [input, output]: the eight planes' terms or-ed from zero in order, the word and bit axes merged. -/
def codes8T (q : IVec S8x4096x128 32) : IVec S4096x4096 32 :=
  shapeCast S4096x4096
    (ori (ori (ori (ori (ori (ori (ori (ori
      (broadcastInDim S128x32x4096 ![] bcast_S_S128x32x4096 (constantI S_ 32 0#32))
      (planeTerm ![0, 0, 0] slices_S8x128x4096_S1x128x4096_0_0_0 0#32 (planesT q)))
      (planeTerm ![1, 0, 0] slices_S8x128x4096_S1x128x4096_1_0_0 1#32 (planesT q)))
      (planeTerm ![2, 0, 0] slices_S8x128x4096_S1x128x4096_2_0_0 2#32 (planesT q)))
      (planeTerm ![3, 0, 0] slices_S8x128x4096_S1x128x4096_3_0_0 3#32 (planesT q)))
      (planeTerm ![4, 0, 0] slices_S8x128x4096_S1x128x4096_4_0_0 4#32 (planesT q)))
      (planeTerm ![5, 0, 0] slices_S8x128x4096_S1x128x4096_5_0_0 5#32 (planesT q)))
      (planeTerm ![6, 0, 0] slices_S8x128x4096_S1x128x4096_6_0_0 6#32 (planesT q)))
      (planeTerm ![7, 0, 0] slices_S8x128x4096_S1x128x4096_7_0_0 7#32 (planesT q)))
    shapeCasts_S128x32x4096_S4096x4096

/-- The 4-bit codes: the low four bits of the 8-bit codes. -/
def codes4T (q : IVec S8x4096x128 32) : IVec S4096x4096 32 :=
  andi (codes8T q) (broadcastInDim S4096x4096 ![] bcast_S_S4096x4096 (constantI S_ 32 15#32))

/-! ## Reading a table along its first axis -/

/-- jnp's take along the first axis of a [n, 4096] table by a [4096, 4096] table of positions: a negative position counted from the
    end (`n`), the table read at the position kept inside it, and a quiet not-a-number where the position is outside. -/
def takeAlong {St : Shape} (n nm1 : BitVec 32) (gd : GatherDims St S4096x4096x1 S4096x4096) (tab : FVec F St .f32)
    (idx : IVec S4096x4096 32) : FVec F S4096x4096 .f32 :=
  select
    (Host.reduce IntOp.andi
      (andi
        (cmpi .sge
          (shapeCast S4096x4096x1
            (select (cmpi .slt idx (broadcastInDim S4096x4096 ![] bcast_S_S4096x4096 (constantI S_ 32 0#32)))
              (addi idx (broadcastInDim S4096x4096 ![] bcast_S_S4096x4096 (constantI S_ 32 n))) idx)
            shapeCasts_S4096x4096_S4096x4096x1)
          (broadcastInDim S4096x4096x1 ![] bcast_S_S4096x4096x1 (constantI S_ 32 0#32)))
        (cmpi .sle
          (shapeCast S4096x4096x1
            (select (cmpi .slt idx (broadcastInDim S4096x4096 ![] bcast_S_S4096x4096 (constantI S_ 32 0#32)))
              (addi idx (broadcastInDim S4096x4096 ![] bcast_S_S4096x4096 (constantI S_ 32 n))) idx)
            shapeCasts_S4096x4096_S4096x4096x1)
          (broadcastInDim S4096x4096x1 ![0, 1, 2] bcast_S1x1x1_S4096x4096x1_0_1_2
            (broadcastInDim S1x1x1 ![2] bcast_S1_S1x1x1_2 (constantI S1 32 nm1)))))
      (constantI S_ 1 1#1) reducesTo_S4096x4096x1_S4096x4096_d2 h_S_)
    (Host.gather gd tab
      (shapeCast S4096x4096x1
        (select (cmpi .slt idx (broadcastInDim S4096x4096 ![] bcast_S_S4096x4096 (constantI S_ 32 0#32)))
          (addi idx (broadcastInDim S4096x4096 ![] bcast_S_S4096x4096 (constantI S_ 32 n))) idx)
        shapeCasts_S4096x4096_S4096x4096x1))
    (broadcastInDim S4096x4096 ![] bcast_S_S4096x4096 (constant S_ .f32 0x7FC00000#32))

/-- The high-precision weights, [input, output]. -/
def wHighT (q : IVec S8x4096x128 32) (lut8 : FVec F S4096x256 .f32) : FVec F S4096x4096 .bf16 :=
  truncf .bf16
    (takeAlong 256#32 255#32 gather_S256x4096_S4096x4096x1_S4096x4096_n_0_1_1_0_2_11
      (transpose S256x4096 [1, 0] lut8 transposes_S4096x256_S256x4096_1_0) (codes8T q))
    bitsLt_bf16_f32

/-- The low-precision weights, [input, output]. -/
def wLowT (q : IVec S8x4096x128 32) (lut4 : FVec F S4096x16 .f32) : FVec F S4096x4096 .bf16 :=
  truncf .bf16
    (takeAlong 16#32 15#32 gather_S16x4096_S4096x4096x1_S4096x4096_n_0_1_1_0_2_11
      (transpose S16x4096 [1, 0] lut4 transposes_S4096x16_S16x4096_1_0) (codes4T q))
    bitsLt_bf16_f32

/-- The two weight matrices stacked, low precision first. -/
def wStack (q : IVec S8x4096x128 32) (lut4 : FVec F S4096x16 .f32) (lut8 : FVec F S4096x256 .f32) : FVec F S2x4096x4096 .bf16 :=
  concatenate S2x4096x4096 0
    [⟨S1x4096x4096, broadcastInDim S1x4096x4096 ![1, 2] bcast_S4096x4096_S1x4096x4096_1_2 (wLowT q lut4)⟩,
     ⟨S1x4096x4096, broadcastInDim S1x4096x4096 ![1, 2] bcast_S4096x4096_S1x4096x4096_1_2 (wHighT q lut8)⟩]
    concatenates_S1x4096x4096_S1x4096x4096_S2x4096x4096_d0

/-! ## The routing -/

/-- The stable argsort of the mask: position p holds the number of the token sorted to p. -/
def orderFn (mk : IVec S8192 32) : IVec S8192 32 :=
  (Host.sort2 S8192 0 comparator_i32_i32_d0 mk (iotaInDim S8192 32 0)).2

/-- The number of low-precision tokens: the count of zero mask words. -/
def nlowFn (mk : IVec S8192 32) : IVec S_ 32 :=
  Host.reduce IntOp.addi (extui 32 (cmpi .eq mk (splat8192 0#32)) natLt_1_32) (constantI S_ 32 0#32) reducesTo_S8192_S_d0 h_S_

/-- jnp's floor division of two words: the truncated quotient, one less where the signs differ and the remainder is not zero. -/
def floorDivFn (a b : IVec S_ 32) : IVec S_ 32 :=
  select (andi (cmpi .ne (signi a) (signi b)) (cmpi .ne (Host.remsi a b) (constantI S_ 32 0#32)))
    (subi (Host.divsi a b) (constantI S_ 32 1#32)) (Host.divsi a b)

/-- The first slot of the high-precision group: the number of low-precision tokens rounded up to a multiple of 1024. -/
def lowpadFn (mk : IVec S8192 32) : IVec S_ 32 :=
  muli (constantI S_ 32 1024#32)
    (floorDivFn (subi (addi (nlowFn mk) (constantI S_ 32 1024#32)) (constantI S_ 32 1#32)) (id (constantI S_ 32 1024#32)))

/-- The slot of sorted position p: p itself below the number of low-precision tokens, else the high group's first slot plus the
    position's rank in that group. -/
def destFn (mk : IVec S8192 32) : IVec S8192 32 :=
  select (cmpi .slt (iotaInDim S8192 32 0) (broadcastInDim S8192 ![] bcast_S_S8192 (nlowFn mk)))
    (iotaInDim S8192 32 0)
    (addi (broadcastInDim S8192 ![] bcast_S_S8192 (lowpadFn mk))
      (subi (iotaInDim S8192 32 0) (broadcastInDim S8192 ![] bcast_S_S8192 (nlowFn mk))))

/-- The table of the ten row tiles' weight numbers: 1 from the high group's first tile on. -/
def gidFn (mk : IVec S8192 32) : IVec S10 32 :=
  extui 32
    (cmpi .sge (muli (iotaInDim S10 32 0) (broadcastInDim S10 ![] bcast_S_S10 (constantI S_ 32 1024#32)))
      (broadcastInDim S10 ![] bcast_S_S10 (lowpadFn mk)))
    natLt_1_32

/-- A table of positions with the negative ones counted from the end `n`. -/
def wrapIdx (n : BitVec 32) (idx : IVec S8192 32) : IVec S8192 32 :=
  select (cmpi .slt idx (splat8192 0#32)) (addi idx (splat8192 n)) idx

/-- The positions as an [8192, 1] column. -/
def colIdx (n : BitVec 32) (idx : IVec S8192 32) : IVec S8192x1 32 :=
  broadcastInDim S8192x1 ![0] bcast_S8192_S8192x1_0 (wrapIdx n idx)

/-- jnp's take of 8192 rows of a [n, 4096] table: row p of the result is the table's row at position p (kept inside the table),
    a quiet not-a-number where the position is outside. -/
def takeRows {St : Shape} (n nm1 : BitVec 32) (gd : GatherDims St S8192x1 S8192x4096) (tab : FVec F St .f32) (idx : IVec S8192 32) :
    FVec F S8192x4096 .f32 :=
  select
    (broadcastInDim S8192x4096 ![0] bcast_S8192_S8192x4096_0
      (Host.reduce IntOp.andi
        (andi
          (cmpi .sge (colIdx n idx) (broadcastInDim S8192x1 ![] bcast_S_S8192x1 (constantI S_ 32 0#32)))
          (cmpi .sle (colIdx n idx)
            (broadcastInDim S8192x1 ![0, 1] bcast_S1x1_S8192x1_0_1 (broadcastInDim S1x1 ![1] bcast_S1_S1x1_1 (constantI S1 32 nm1)))))
        (constantI S_ 1 1#1) reducesTo_S8192x1_S8192_d1 h_S_))
    (Host.gather gd tab (colIdx n idx))
    (broadcastInDim S8192x4096 ![] bcast_S_S8192x4096 (constant S_ .f32 0x7FC00000#32))

/-- The tokens as 8192 rows. -/
def rowsFn (x : FVec F S4x2048x4096 .f32) : FVec F S8192x4096 .f32 := shapeCast S8192x4096 x shapeCasts_S4x2048x4096_S8192x4096

/-- The routed tokens: sorted position p's token written at its slot, zero rows elsewhere. -/
def xpadFn (x : FVec F S4x2048x4096 .f32) (order dest : IVec S8192 32) : FVec F S10240x4096 .bf16 :=
  Host.scatter scatter_S10240x4096_S8192x1_S8192x4096_1_0_0_1 (fun _ b => b)
    (broadcastInDim S10240x4096 ![] bcast_S_S10240x4096 (constant S_ .bf16 0x0000#16))
    (colIdx 10240#32 dest)
    (truncf .bf16 (takeRows 8192#32 8191#32 gather_S8192x4096_S8192x1_S8192x4096_1_0_n_n_0_1_14096 (rowsFn x) order) bitsLt_bf16_f32)

/-- The bias as a row. -/
def biasRow (b : FVec F S4096 .f32) : FVec F S1x4096 .f32 := shapeCast S1x4096 b shapeCasts_S4096_S1x4096

/-! ## After the region -/

/-- Each token's slot: sorted position p's slot written at the token sorted to p. -/
def finalIdxFn (order dest : IVec S8192 32) : IVec S8192 32 :=
  Host.scatter scatter_S8192_S8192x1_S8192_n_0_0_1 (fun _ b => b) (splat8192 0#32) (colIdx 8192#32 order) dest

/-- The result: each token's row of the region's result at its slot, back in the tokens' [4, 2048] order. -/
def outFn (yp : FVec F S10240x4096 .f32) (order dest : IVec S8192 32) : FVec F S4x2048x4096 .f32 :=
  shapeCast S4x2048x4096
    (takeRows 10240#32 10239#32 gather_S10240x4096_S8192x1_S8192x4096_1_0_n_n_0_1_14096 yp (finalIdxFn order dest))
    shapeCasts_S8192x4096_S4x2048x4096

end Cert.KernelIdeal.Host

end
-- ==== Proof.KPrefix.lean ====
/-
  What the region finds: each array it reads, and the routing tables, as the host functions of the program's arguments.
-/
import proofs.«415461_j65850438582285_3_alg».proof.Proof.Gen.KernelIdeal.Frame.Runs
import proofs.«415461_j65850438582285_3_alg».proof.Proof.KHost
import Idealize.ShloMosaic.Lib.StableHlo.Run

noncomputable section

namespace Cert.KernelIdeal.Bridge

open Idealize.ShloMosaic Idealize.SL.Sem Idealize.ShloMosaic.TcCoe
open Cert.KernelIdeal Cert.KernelIdeal.Gen Cert.KernelIdeal.Host

variable {F : FTy → Type} [FloatOps F] (m : (ℓ : Loc nD τ sig) → Buf (Elt F) ℓ)

set_option maxHeartbeats 16000000 in
/-- The mask the routing sorts is the tokens' flags, widened and flattened. -/
theorem V_mask (c : Dev nD) : (V m c main_v8 : IVec S8192 32) = maskFn (V m c main_arg0) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

set_option maxHeartbeats 16000000 in
/-- The sorted order of the tokens. -/
theorem V_order (c : Dev nD) : (V m c main_v113 : IVec S8192 32) = orderFn (maskFn (V m c main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

set_option maxHeartbeats 16000000 in
/-- The slot of each sorted position. -/
theorem V_dest (c : Dev nD) : (V m c main_v129 : IVec S8192 32) = destFn (maskFn (V m c main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

set_option maxHeartbeats 16000000 in
/-- The table of the row tiles' weight numbers. -/
theorem V_gid (c : Dev nD) : (V m c main_v146 : IVec S10 32) = gidFn (maskFn (V m c main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

set_option maxHeartbeats 16000000 in
/-- The bias row. -/
theorem V_b2d (c : Dev nD) : (V m c main_v147 : FVec F S1x4096 .f32) = biasRow (V m c main_arg4) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

set_option maxHeartbeats 16000000 in
/-- The routed, padded tokens. -/
theorem V_xpad (c : Dev nD) : (V m c main_v140 : FVec F S10240x4096 .bf16) = xpadFn (V m c main_arg0) (orderFn (maskFn (V m c main_arg0))) (destFn (maskFn (V m c main_arg0))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  try simp only [StableHlo.TRef.ofBuf, StableHlo.TRef.toBuf, cast_eq]
  rfl

end Cert.KernelIdeal.Bridge

end
-- ==== Proof.KPrefixJ.lean ====
/-
  The stacked weights the region finds are the join of the two matrices it finds. The stack is written by one operation, the
  concatenation of two buffers along a new leading axis; no later operation before the region writes the stack or either of
  the two buffers, so all three are read as that operation left them, and the stack is the concatenation of the other two.
-/
import proofs.«415461_j65850438582285_3_alg».proof.Proof.Gen.KernelIdeal.Frame.Runs
import Idealize.ShloMosaic.Lib.StableHlo.Run

set_option maxRecDepth 16384

noncomputable section

namespace Cert.KernelIdeal.Bridge

open Idealize.ShloMosaic Idealize.SL.Sem Idealize.ShloMosaic.TcCoe
open Cert.KernelIdeal Cert.KernelIdeal.Gen

/-- A line of operations whose last is a two-operand operation `y := f a b` (`a` and `b` other buffers than `y`), followed by
    operations none of which writes `y`, `a` or `b`: in the contents after them all, `y` is `f` of `a` and `b`. -/
theorem after_binary_last {τ : Topo} {sig : RefSig} {Val : EltTy → Type} {a b y : Ref sig .tc}
    (f : a.ty.Contents Val → b.ty.Contents Val → y.ty.Contents Val) (ha hb hy)
    (l post : List (HloOp τ sig Val)) (W Vx : Valuation τ sig Val)
    (hl : l.dropLast ++ [StableHlo.binary a b y f ha hb hy] = l)
    (hV : Vx = StableHlo.after post (StableHlo.after l W))
    (hay : a ≠ y) (hby : b ≠ y)
    (ky : ∀ op ∈ post, Proc.devRef (τ := τ) .tc y ∉ op.writes)
    (ka : ∀ op ∈ post, Proc.devRef (τ := τ) .tc a ∉ op.writes)
    (kb : ∀ op ∈ post, Proc.devRef (τ := τ) .tc b ∉ op.writes) :
    Vx (Proc.devRef .tc y) = f (Vx (Proc.devRef .tc a)) (Vx (Proc.devRef .tc b)) := by
  subst hV
  rw [StableHlo.after_of_forall_not_mem post _ ky, StableHlo.after_of_forall_not_mem post _ ka,
    StableHlo.after_of_forall_not_mem post _ kb, ← hl, StableHlo.after_append, StableHlo.after_cons, StableHlo.after_nil,
    StableHlo.binary_result, StableHlo.binary_result_ne (h := hay), StableHlo.binary_result_ne (h := hby)]

/-- The contents after a list of stretches, split at one of them: the later stretches run from what that stretch leaves, it
    from what the earlier ones leave. -/
theorem after_flatten_mid {τ : Topo} {sig : RefSig} {Val : EltTy → Type} (L₁ : List (List (HloOp τ sig Val)))
    (l : List (HloOp τ sig Val)) (L₂ : List (List (HloOp τ sig Val))) (M : Valuation τ sig Val) :
    StableHlo.after (List.flatten (L₁ ++ l :: L₂)) M
      = StableHlo.after (List.flatten L₂) (StableHlo.after l (StableHlo.after (List.flatten L₁) M)) := by
  rw [List.flatten_append, List.flatten_cons, StableHlo.after_append, StableHlo.after_append]

variable {F : FTy → Type} [FloatOps F] (m : (ℓ : Loc nD τ sig) → Buf (Elt F) ℓ)

/-- The stretches of host operations before the one that writes the stack, and after it. -/
abbrev preL : List (List (HloOp τ sig (Elt F))) := [hostOps0, hostOps0_1, hostOps0_2, hostOps0_3, hostOps0_4]
abbrev postL : List (List (HloOp τ sig (Elt F))) := [hostOps0_6, hostOps0_7, hostOps0_8, hostOps0_9, hostOps0_10, hostOps0_11, hostOps0_12, hostOps0_13]

/-- No operation after the join writes `main_v112`. -/
theorem post_keeps_main_v112 : ∀ op ∈ List.flatten (postL (F := F)), Proc.devRef (τ := τ) .tc main_v112 ∉ op.writes :=
  List.forall_iff_forall_mem.mp (by
    simp only [postL, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the join writes `main_v110`. -/
theorem post_keeps_main_v110 : ∀ op ∈ List.flatten (postL (F := F)), Proc.devRef (τ := τ) .tc main_v110 ∉ op.writes :=
  List.forall_iff_forall_mem.mp (by
    simp only [postL, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the join writes `main_v111`. -/
theorem post_keeps_main_v111 : ∀ op ∈ List.flatten (postL (F := F)), Proc.devRef (τ := τ) .tc main_v111 ∉ op.writes :=
  List.forall_iff_forall_mem.mp (by
    simp only [postL, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The stacked weights the region finds are the two matrices it finds, joined along a new leading axis. -/
theorem V_wst_join (c : Dev nD) :
    (V m c main_v112 : FVec F S2x4096x4096 .bf16)
      = concatenate S2x4096x4096 0 [⟨S1x4096x4096, (V m c main_v110 : FVec F S1x4096x4096 .bf16)⟩, ⟨S1x4096x4096, (V m c main_v111 : FVec F S1x4096x4096 .bf16)⟩]
          concatenates_S1x4096x4096_S1x4096x4096_S2x4096x4096_d0 :=
  after_binary_last (a := main_v110) (b := main_v111) (y := main_v112)
    (fun a b => concatenate S2x4096x4096 0 [⟨S1x4096x4096, a⟩, ⟨S1x4096x4096, b⟩] concatenates_S1x4096x4096_S1x4096x4096_S2x4096x4096_d0)
    _ _ _ hostOps0_5 (List.flatten postL) (StableHlo.after (List.flatten preL) (fun b => m (c, b))) (V0 m c)
    rfl (after_flatten_mid preL hostOps0_5 postL _) (by decide) (by decide)
    post_keeps_main_v112 post_keeps_main_v110 post_keeps_main_v111

end Cert.KernelIdeal.Bridge

end
-- ==== Proof.KStretch1.lean ====
/-
  The codes' stretch of the host side before the region, from any earlier contents: the 8-bit codes laid out
  input-major (the eight bit planes transposed, each plane's bits moved to its place and or-ed from zero, the word and
  bit axes merged), the 4-bit codes (their low four bits), and the two lookup tables transposed — each as the pure
  function of the earlier contents at the stretch's inputs.
-/
import proofs.«415461_j65850438582285_3_alg».proof.Proof.Gen.KernelIdeal.Frame.Runs
import proofs.«415461_j65850438582285_3_alg».proof.Proof.KHost
import Idealize.ShloMosaic.Lib.StableHlo.Run

noncomputable section

namespace Cert.KernelIdeal.Bridge

open Idealize.ShloMosaic Idealize.SL.Sem Idealize.ShloMosaic.TcCoe
open Cert.KernelIdeal Cert.KernelIdeal.Gen Cert.KernelIdeal.Host

variable {F : FTy → Type} [FloatOps F]

set_option maxHeartbeats 16000000 in
/-- The 8-bit codes, input-major. -/
theorem s1_codes8 (W : Valuation τ sig (Elt F)) : (StableHlo.after hostOps0_1 W (Proc.devRef .tc main_v101) : IVec S4096x4096 32) = codes8T (W (Proc.devRef .tc main_arg1)) := by
  simp only [hostOps0_1]
  after_results_simp
  all_goals (try simp only [StableHlo.TRef.ofBuf, StableHlo.TRef.toBuf, cast_eq])
  all_goals rfl

set_option maxHeartbeats 16000000 in
/-- The 4-bit codes, input-major. -/
theorem s1_codes4 (W : Valuation τ sig (Elt F)) : (StableHlo.after hostOps0_1 W (Proc.devRef .tc main_v103) : IVec S4096x4096 32) = codes4T (W (Proc.devRef .tc main_arg1)) := by
  simp only [hostOps0_1]
  after_results_simp
  all_goals (try simp only [StableHlo.TRef.ofBuf, StableHlo.TRef.toBuf, cast_eq])
  all_goals rfl

set_option maxHeartbeats 16000000 in
/-- The large lookup table transposed. -/
theorem s1_lut8t (W : Valuation τ sig (Elt F)) : (StableHlo.after hostOps0_1 W (Proc.devRef .tc main_v104) : FVec F S256x4096 .f32) = transpose S256x4096 [1, 0] (W (Proc.devRef .tc main_arg3)) transposes_S4096x256_S256x4096_1_0 := by
  simp only [hostOps0_1]
  after_results_simp
  all_goals (try simp only [StableHlo.TRef.ofBuf, StableHlo.TRef.toBuf, cast_eq])
  all_goals rfl

set_option maxHeartbeats 16000000 in
/-- The small lookup table transposed. -/
theorem s1_lut4t (W : Valuation τ sig (Elt F)) : (StableHlo.after hostOps0_1 W (Proc.devRef .tc main_v105) : FVec F S16x4096 .f32) = transpose S16x4096 [1, 0] (W (Proc.devRef .tc main_arg2)) transposes_S4096x16_S16x4096_1_0 := by
  simp only [hostOps0_1]
  after_results_simp
  all_goals (try simp only [StableHlo.TRef.ofBuf, StableHlo.TRef.toBuf, cast_eq])
  all_goals rfl

end Cert.KernelIdeal.Bridge

end
-- ==== Proof.KPrefixW.lean ====
/-
  What the region finds for its weight window: the two dequantized matrices, stacked, as the host function of the
  packed planes and the two tables. The contents at the region's entry are the stretches of host operations run one after
  the other from the launch contents. Each stretch is read with the contents before it left arbitrary: what it writes,
  as the pure term of what it reads, and what it leaves alone. The low-precision matrix is followed back through the
  stretches that write it (the join's first piece, the narrowing, the take at the 4-bit codes, the codes and the
  transposed table), the high-precision one likewise; the stack is then the join of the two.
-/
import proofs.«415461_j65850438582285_3_alg».proof.Proof.Gen.KernelIdeal.Frame.Runs
import proofs.«415461_j65850438582285_3_alg».proof.Proof.KHost
import proofs.«415461_j65850438582285_3_alg».proof.Proof.KPrefixJ
import proofs.«415461_j65850438582285_3_alg».proof.Proof.KStretch1
import Idealize.ShloMosaic.Lib.StableHlo.Run

set_option maxRecDepth 16384

noncomputable section

namespace Cert.KernelIdeal.Bridge

open Idealize.ShloMosaic Idealize.SL.Sem Idealize.ShloMosaic.TcCoe
open Cert.KernelIdeal Cert.KernelIdeal.Gen Cert.KernelIdeal.Host

variable {F : FTy → Type} [FloatOps F]

/-! ## The stretches, from any contents -/

/-- Stretch 5 leaves in `main_v110` the low-precision matrix (the narrowing of `main_v108`) under a new leading axis. -/
theorem s5_v110 (W : Valuation τ sig (Elt F)) :
    (StableHlo.after (hostOps0_5 (F := F)) W (Proc.devRef .tc main_v110) : FVec F S1x4096x4096 .bf16)
      = broadcastInDim S1x4096x4096 ![1, 2] bcast_S4096x4096_S1x4096x4096_1_2
          (truncf .bf16 (W (Proc.devRef .tc main_v108) : FVec F S4096x4096 .f32) bitsLt_bf16_f32) := by
  simp only [hostOps0_5]
  after_results
  all_goals (try simp only [StableHlo.TRef.ofBuf, StableHlo.TRef.toBuf, cast_eq])
  all_goals rfl

/-- Stretch 5 leaves in `main_v111` the high-precision matrix `main_v107` under a new leading axis. -/
theorem s5_v111 (W : Valuation τ sig (Elt F)) :
    (StableHlo.after (hostOps0_5 (F := F)) W (Proc.devRef .tc main_v111) : FVec F S1x4096x4096 .bf16)
      = broadcastInDim S1x4096x4096 ![1, 2] bcast_S4096x4096_S1x4096x4096_1_2
          (W (Proc.devRef .tc main_v107) : FVec F S4096x4096 .bf16) := by
  simp only [hostOps0_5]
  after_results
  all_goals (try simp only [StableHlo.TRef.ofBuf, StableHlo.TRef.toBuf, cast_eq])
  all_goals rfl

/-! ### The take of stretch `hostOps0_4`, in three parts: the positions as a column, the in-range test, the gather and the select -/

set_option maxHeartbeats 1000000 in
/-- The first eight operations leave in `main_call2_v5` the positions, the negative ones counted from the end, as a [4096, 4096, 1] column. -/
theorem t4A_col (W : Valuation τ sig (Elt F)) :
    (StableHlo.after ((hostOps0_4 (F := F)).take 8) W (Proc.devRef .tc main_call2_v5) : IVec S4096x4096x1 32)
      = shapeCast S4096x4096x1
          (select (cmpi .slt (W (Proc.devRef .tc main_v103) : IVec S4096x4096 32) (broadcastInDim S4096x4096 ![] bcast_S_S4096x4096 (constantI S_ 32 0#32)))
            (addi (W (Proc.devRef .tc main_v103) : IVec S4096x4096 32) (broadcastInDim S4096x4096 ![] bcast_S_S4096x4096 (constantI S_ 32 16#32)))
            (W (Proc.devRef .tc main_v103) : IVec S4096x4096 32))
          shapeCasts_S4096x4096_S4096x4096x1 := by
  simp only [hostOps0_4, List.take, List.drop]
  after_results
  all_goals (try simp only [StableHlo.TRef.ofBuf, StableHlo.TRef.toBuf, cast_eq])
  all_goals rfl

/-- They do not write the table. -/
theorem t4A_keeps_tab (W : Valuation τ sig (Elt F)) :
    StableHlo.after ((hostOps0_4 (F := F)).take 8) W (Proc.devRef .tc main_v105) = W (Proc.devRef .tc main_v105) :=
  StableHlo.after_of_forall_not_mem _ _ (List.forall_iff_forall_mem.mp (by
    simp only [hostOps0_4, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The next ten operations leave in `main_call2_v12` the in-range test of the column. -/
theorem t4B_test (W : Valuation τ sig (Elt F)) :
    (StableHlo.after (((hostOps0_4 (F := F)).drop 8).take 10) W (Proc.devRef .tc main_call2_v12) : IVec S4096x4096 1)
      = Host.reduce IntOp.andi
          (andi
            (cmpi .sge (W (Proc.devRef .tc main_call2_v5) : IVec S4096x4096x1 32)
              (broadcastInDim S4096x4096x1 ![] bcast_S_S4096x4096x1 (constantI S_ 32 0#32)))
            (cmpi .sle (W (Proc.devRef .tc main_call2_v5) : IVec S4096x4096x1 32)
              (broadcastInDim S4096x4096x1 ![0, 1, 2] bcast_S1x1x1_S4096x4096x1_0_1_2
                (broadcastInDim S1x1x1 ![2] bcast_S1_S1x1x1_2 (constantI S1 32 15#32)))))
          (constantI S_ 1 1#1) reducesTo_S4096x4096x1_S4096x4096_d2 h_S_ := by
  simp only [hostOps0_4, List.take, List.drop]
  after_results
  all_goals (try simp only [StableHlo.TRef.ofBuf, StableHlo.TRef.toBuf, cast_eq])
  all_goals rfl

/-- They write neither the column nor the table. -/
theorem t4B_keeps_col (W : Valuation τ sig (Elt F)) :
    StableHlo.after (((hostOps0_4 (F := F)).drop 8).take 10) W (Proc.devRef .tc main_call2_v5) = W (Proc.devRef .tc main_call2_v5) :=
  StableHlo.after_of_forall_not_mem _ _ (List.forall_iff_forall_mem.mp (by
    simp only [hostOps0_4, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem t4B_keeps_tab (W : Valuation τ sig (Elt F)) :
    StableHlo.after (((hostOps0_4 (F := F)).drop 8).take 10) W (Proc.devRef .tc main_v105) = W (Proc.devRef .tc main_v105) :=
  StableHlo.after_of_forall_not_mem _ _ (List.forall_iff_forall_mem.mp (by
    simp only [hostOps0_4, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The last four operations leave in `main_v108` the gather where the test holds, a quiet not-a-number elsewhere. -/
theorem t4C_out (W : Valuation τ sig (Elt F)) :
    (StableHlo.after (((hostOps0_4 (F := F)).drop 8).drop 10) W (Proc.devRef .tc main_v108) : FVec F S4096x4096 .f32)
      = select (W (Proc.devRef .tc main_call2_v12) : IVec S4096x4096 1)
          (Host.gather gather_S16x4096_S4096x4096x1_S4096x4096_n_0_1_1_0_2_11 (W (Proc.devRef .tc main_v105) : FVec F S16x4096 .f32) (W (Proc.devRef .tc main_call2_v5) : IVec S4096x4096x1 32))
          (broadcastInDim S4096x4096 ![] bcast_S_S4096x4096 (constant S_ .f32 0x7FC00000#32)) := by
  simp only [hostOps0_4, List.take, List.drop]
  after_results
  all_goals (try simp only [StableHlo.TRef.ofBuf, StableHlo.TRef.toBuf, cast_eq])
  all_goals rfl

/-- The whole stretch: the take of the table `main_v105` at the positions `main_v103`. -/
theorem t4_take (W : Valuation τ sig (Elt F)) :
    (StableHlo.after (hostOps0_4 (F := F)) W (Proc.devRef .tc main_v108) : FVec F S4096x4096 .f32)
      = takeAlong 16#32 15#32 gather_S16x4096_S4096x4096x1_S4096x4096_n_0_1_1_0_2_11
          (W (Proc.devRef .tc main_v105) : FVec F S16x4096 .f32) (W (Proc.devRef .tc main_v103) : IVec S4096x4096 32) := by
  have hs : (hostOps0_4 (F := F)) = ((hostOps0_4 (F := F)).take 8) ++ ((((hostOps0_4 (F := F)).drop 8).take 10) ++ (((hostOps0_4 (F := F)).drop 8).drop 10)) := by rw [List.take_append_drop, List.take_append_drop]
  rw [hs, StableHlo.after_append, StableHlo.after_append, t4C_out, t4B_test, t4B_keeps_col, t4B_keeps_tab, t4A_col, t4A_keeps_tab]
  rfl

/-- The stretch `hostOps0_4` does not write `main_v107`. -/
theorem s4_keeps_v107 (W : Valuation τ sig (Elt F)) :
    StableHlo.after (hostOps0_4 (F := F)) W (Proc.devRef .tc main_v107) = W (Proc.devRef .tc main_v107) :=
  StableHlo.after_of_forall_not_mem _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Stretch 3 leaves in `main_v107` the narrowing of `main_v106`. -/
theorem s3_v107 (W : Valuation τ sig (Elt F)) :
    (StableHlo.after (hostOps0_3 (F := F)) W (Proc.devRef .tc main_v107) : FVec F S4096x4096 .bf16)
      = truncf .bf16 (W (Proc.devRef .tc main_v106) : FVec F S4096x4096 .f32) bitsLt_bf16_f32 := by
  simp only [hostOps0_3]
  after_results
  all_goals (try simp only [StableHlo.TRef.ofBuf, StableHlo.TRef.toBuf, cast_eq])
  all_goals rfl

/-- The stretch `hostOps0_3` does not write `main_v105`. -/
theorem s3_keeps_v105 (W : Valuation τ sig (Elt F)) :
    StableHlo.after (hostOps0_3 (F := F)) W (Proc.devRef .tc main_v105) = W (Proc.devRef .tc main_v105) :=
  StableHlo.after_of_forall_not_mem _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The stretch `hostOps0_3` does not write `main_v103`. -/
theorem s3_keeps_v103 (W : Valuation τ sig (Elt F)) :
    StableHlo.after (hostOps0_3 (F := F)) W (Proc.devRef .tc main_v103) = W (Proc.devRef .tc main_v103) :=
  StableHlo.after_of_forall_not_mem _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### The take of stretch `hostOps0_2`, in three parts: the positions as a column, the in-range test, the gather and the select -/

set_option maxHeartbeats 1000000 in
/-- The first eight operations leave in `main_call1_v5` the positions, the negative ones counted from the end, as a [4096, 4096, 1] column. -/
theorem t2A_col (W : Valuation τ sig (Elt F)) :
    (StableHlo.after ((hostOps0_2 (F := F)).take 8) W (Proc.devRef .tc main_call1_v5) : IVec S4096x4096x1 32)
      = shapeCast S4096x4096x1
          (select (cmpi .slt (W (Proc.devRef .tc main_v101) : IVec S4096x4096 32) (broadcastInDim S4096x4096 ![] bcast_S_S4096x4096 (constantI S_ 32 0#32)))
            (addi (W (Proc.devRef .tc main_v101) : IVec S4096x4096 32) (broadcastInDim S4096x4096 ![] bcast_S_S4096x4096 (constantI S_ 32 256#32)))
            (W (Proc.devRef .tc main_v101) : IVec S4096x4096 32))
          shapeCasts_S4096x4096_S4096x4096x1 := by
  simp only [hostOps0_2, List.take, List.drop]
  after_results
  all_goals (try simp only [StableHlo.TRef.ofBuf, StableHlo.TRef.toBuf, cast_eq])
  all_goals rfl

/-- They do not write the table. -/
theorem t2A_keeps_tab (W : Valuation τ sig (Elt F)) :
    StableHlo.after ((hostOps0_2 (F := F)).take 8) W (Proc.devRef .tc main_v104) = W (Proc.devRef .tc main_v104) :=
  StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The next ten operations leave in `main_call1_v12` the in-range test of the column. -/
theorem t2B_test (W : Valuation τ sig (Elt F)) :
    (StableHlo.after (((hostOps0_2 (F := F)).drop 8).take 10) W (Proc.devRef .tc main_call1_v12) : IVec S4096x4096 1)
      = Host.reduce IntOp.andi
          (andi
            (cmpi .sge (W (Proc.devRef .tc main_call1_v5) : IVec S4096x4096x1 32)
              (broadcastInDim S4096x4096x1 ![] bcast_S_S4096x4096x1 (constantI S_ 32 0#32)))
            (cmpi .sle (W (Proc.devRef .tc main_call1_v5) : IVec S4096x4096x1 32)
              (broadcastInDim S4096x4096x1 ![0, 1, 2] bcast_S1x1x1_S4096x4096x1_0_1_2
                (broadcastInDim S1x1x1 ![2] bcast_S1_S1x1x1_2 (constantI S1 32 255#32)))))
          (constantI S_ 1 1#1) reducesTo_S4096x4096x1_S4096x4096_d2 h_S_ := by
  simp only [hostOps0_2, List.take, List.drop]
  after_results
  all_goals (try simp only [StableHlo.TRef.ofBuf, StableHlo.TRef.toBuf, cast_eq])
  all_goals rfl

/-- They write neither the column nor the table. -/
theorem t2B_keeps_col (W : Valuation τ sig (Elt F)) :
    StableHlo.after (((hostOps0_2 (F := F)).drop 8).take 10) W (Proc.devRef .tc main_call1_v5) = W (Proc.devRef .tc main_call1_v5) :=
  StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem t2B_keeps_tab (W : Valuation τ sig (Elt F)) :
    StableHlo.after (((hostOps0_2 (F := F)).drop 8).take 10) W (Proc.devRef .tc main_v104) = W (Proc.devRef .tc main_v104) :=
  StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The last four operations leave in `main_v106` the gather where the test holds, a quiet not-a-number elsewhere. -/
theorem t2C_out (W : Valuation τ sig (Elt F)) :
    (StableHlo.after (((hostOps0_2 (F := F)).drop 8).drop 10) W (Proc.devRef .tc main_v106) : FVec F S4096x4096 .f32)
      = select (W (Proc.devRef .tc main_call1_v12) : IVec S4096x4096 1)
          (Host.gather gather_S256x4096_S4096x4096x1_S4096x4096_n_0_1_1_0_2_11 (W (Proc.devRef .tc main_v104) : FVec F S256x4096 .f32) (W (Proc.devRef .tc main_call1_v5) : IVec S4096x4096x1 32))
          (broadcastInDim S4096x4096 ![] bcast_S_S4096x4096 (constant S_ .f32 0x7FC00000#32)) := by
  simp only [hostOps0_2, List.take, List.drop]
  after_results
  all_goals (try simp only [StableHlo.TRef.ofBuf, StableHlo.TRef.toBuf, cast_eq])
  all_goals rfl

/-- The whole stretch: the take of the table `main_v104` at the positions `main_v101`. -/
theorem t2_take (W : Valuation τ sig (Elt F)) :
    (StableHlo.after (hostOps0_2 (F := F)) W (Proc.devRef .tc main_v106) : FVec F S4096x4096 .f32)
      = takeAlong 256#32 255#32 gather_S256x4096_S4096x4096x1_S4096x4096_n_0_1_1_0_2_11
          (W (Proc.devRef .tc main_v104) : FVec F S256x4096 .f32) (W (Proc.devRef .tc main_v101) : IVec S4096x4096 32) := by
  have hs : (hostOps0_2 (F := F)) = ((hostOps0_2 (F := F)).take 8) ++ ((((hostOps0_2 (F := F)).drop 8).take 10) ++ (((hostOps0_2 (F := F)).drop 8).drop 10)) := by rw [List.take_append_drop, List.take_append_drop]
  rw [hs, StableHlo.after_append, StableHlo.after_append, t2C_out, t2B_test, t2B_keeps_col, t2B_keeps_tab, t2A_col, t2A_keeps_tab]
  rfl

/-- The stretch `hostOps0_2` does not write `main_v105`. -/
theorem s2_keeps_v105 (W : Valuation τ sig (Elt F)) :
    StableHlo.after (hostOps0_2 (F := F)) W (Proc.devRef .tc main_v105) = W (Proc.devRef .tc main_v105) :=
  StableHlo.after_of_forall_not_mem _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch `hostOps0_2` does not write `main_v103`. -/
theorem s2_keeps_v103 (W : Valuation τ sig (Elt F)) :
    StableHlo.after (hostOps0_2 (F := F)) W (Proc.devRef .tc main_v103) = W (Proc.devRef .tc main_v103) :=
  StableHlo.after_of_forall_not_mem _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The stretch `hostOps0` does not write `main_arg1`. -/
theorem s0_keeps_arg1 (W : Valuation τ sig (Elt F)) :
    StableHlo.after (hostOps0 (F := F)) W (Proc.devRef .tc main_arg1) = W (Proc.devRef .tc main_arg1) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The stretch `hostOps0` does not write `main_arg2`. -/
theorem s0_keeps_arg2 (W : Valuation τ sig (Elt F)) :
    StableHlo.after (hostOps0 (F := F)) W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The stretch `hostOps0` does not write `main_arg3`. -/
theorem s0_keeps_arg3 (W : Valuation τ sig (Elt F)) :
    StableHlo.after (hostOps0 (F := F)) W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The region-entry contents, stretch by stretch -/

variable (m : (ℓ : Loc nD τ sig) → Buf (Elt F) ℓ)

/-- The contents after a list of stretches: the later stretches run from what the first leaves. -/
theorem after_flatten_cons {τ : Topo} {sig : RefSig} {Val : EltTy → Type} (l : List (HloOp τ sig Val))
    (L : List (List (HloOp τ sig Val))) (M : Valuation τ sig Val) :
    StableHlo.after (List.flatten (l :: L)) M = StableHlo.after (List.flatten L) (StableHlo.after l M) := by
  rw [List.flatten_cons, StableHlo.after_append]

/-- The region-entry contents as the first six stretches run one after the other from the launch contents, then the rest. -/
theorem V0_split (c : Dev nD) :
    V0 m c = StableHlo.after (List.flatten postL) (StableHlo.after hostOps0_5 (StableHlo.after hostOps0_4 (StableHlo.after hostOps0_3
      (StableHlo.after hostOps0_2 (StableHlo.after hostOps0_1 (StableHlo.after hostOps0 (fun b => m (c, b)))))))) :=
  (after_flatten_cons hostOps0 _ _).trans ((after_flatten_cons hostOps0_1 _ _).trans ((after_flatten_cons hostOps0_2 _ _).trans
    ((after_flatten_cons hostOps0_3 _ _).trans ((after_flatten_cons hostOps0_4 _ _).trans (after_flatten_cons hostOps0_5 _ _)))))

/-- The low-precision matrix as the first stacked piece. -/
theorem V_v110 (c : Dev nD) : (V m c main_v110 : FVec F S1x4096x4096 .bf16) = broadcastInDim S1x4096x4096 ![1, 2] bcast_S4096x4096_S1x4096x4096_1_2 (wLowT (V m c main_arg1) (V m c main_arg2)) := by
  have a1 : V m c main_arg1 = m ((c : Thread nD τ).loc main_arg1) := V_main_arg1 m c
  have a2 : V m c main_arg2 = m ((c : Thread nD τ).loc main_arg2) := V_main_arg2 m c
  rw [a1, a2]
  show V0 m c (Proc.devRef .tc main_v110) = _
  rw [V0_split m c, StableHlo.after_of_forall_not_mem _ _ post_keeps_main_v110, s5_v110, t4_take,
    s3_keeps_v105, s2_keeps_v105, s1_lut4t, s0_keeps_arg2, s3_keeps_v103, s2_keeps_v103, s1_codes4, s0_keeps_arg1]
  rfl

/-- The high-precision matrix as the second stacked piece. -/
theorem V_v111 (c : Dev nD) : (V m c main_v111 : FVec F S1x4096x4096 .bf16) = broadcastInDim S1x4096x4096 ![1, 2] bcast_S4096x4096_S1x4096x4096_1_2 (wHighT (V m c main_arg1) (V m c main_arg3)) := by
  have a1 : V m c main_arg1 = m ((c : Thread nD τ).loc main_arg1) := V_main_arg1 m c
  have a3 : V m c main_arg3 = m ((c : Thread nD τ).loc main_arg3) := V_main_arg3 m c
  rw [a1, a3]
  show V0 m c (Proc.devRef .tc main_v111) = _
  rw [V0_split m c, StableHlo.after_of_forall_not_mem _ _ post_keeps_main_v111, s5_v111, s4_keeps_v107, s3_v107, t2_take,
    s1_lut8t, s0_keeps_arg3, s1_codes8, s0_keeps_arg1]
  rfl

/-- The stacked weights the region finds are the stack of the two dequantized matrices. -/
theorem V_wst (c : Dev nD) : (V m c main_v112 : FVec F S2x4096x4096 .bf16) = wStack (V m c main_arg1) (V m c main_arg2) (V m c main_arg3) :=
  (V_wst_join m c).trans (congrArg₂
    (fun a b => concatenate S2x4096x4096 0 [⟨S1x4096x4096, a⟩, ⟨S1x4096x4096, b⟩] concatenates_S1x4096x4096_S1x4096x4096_S2x4096x4096_d0)
    (V_v110 m c) (V_v111 m c))

end Cert.KernelIdeal.Bridge

end
-- ==== Proof.KTail.lean ====
/-
  After the region: the program's result buffer is the gathered, reshaped result of the region, as the host function
  of the region's result array, the sorted order and the slots.
-/
import proofs.«415461_j65850438582285_3_alg».proof.Proof.FrameKernelIdeal
import proofs.«415461_j65850438582285_3_alg».proof.Proof.KHost
import Idealize.ShloMosaic.Lib.StableHlo.Run

noncomputable section

namespace Cert.KernelIdeal.Bridge

open Idealize.ShloMosaic Idealize.SL.Sem Idealize.ShloMosaic.TcCoe
open Cert.KernelIdeal Cert.KernelIdeal.Gen Cert.KernelIdeal.GenP Cert.KernelIdeal.Host

variable {F : FTy → Type} [FloatOps F] (m : (ℓ : Loc nD τ sig) → Buf (Elt F) ℓ)

set_option maxHeartbeats 16000000 in
/-- The lines after the region leave, in the result buffer, each token's row of the region's result at the token's slot. -/
theorem tail_out (hO : Ok m) (c : Dev nD) :
    (Pipeline.afterTail pcfgs (fun _ => adm m hO) (dats m hO) 0 (V0 m) [hostOps1, hostOps1_1, hostOps1_2] c main_v158 : FVec F S4x2048x4096 .f32)
      = outFn ((dats m hO 0 c).arrAt 3 (cfgM m hO).N) (V m c main_v113) (V m c main_v129) := by
  unfold Pipeline.afterTail
  simp only [hostOps1, hostOps1_1, hostOps1_2, List.flatten_cons, List.flatten_nil, List.append_nil, List.cons_append, List.nil_append]
  after_results_simp
  try simp only [StableHlo.TRef.ofBuf, StableHlo.TRef.toBuf, cast_eq]
  -- the sorted order and the slots are not arrays of the region: they are as at its entry
  have h113 : Pipeline.withArrays (Pipeline.pin pcfgs (fun _ => adm m hO) 0).spec c (V0 m c)
      (fun w => (dats m hO 0 c).arrAt w (Pipeline.pin pcfgs (fun _ => adm m hO) 0).N) (Proc.devRef .tc main_v113)
        = V m c main_v113 :=
    Pipeline.withArrays_of_ne _ c (V0 m c) _ main_v113 (by exact (by decide : ∀ w, Pipeline.arrRef spec0 w ≠ main_v113))
  have h129 : Pipeline.withArrays (Pipeline.pin pcfgs (fun _ => adm m hO) 0).spec c (V0 m c)
      (fun w => (dats m hO 0 c).arrAt w (Pipeline.pin pcfgs (fun _ => adm m hO) 0).N) (Proc.devRef .tc main_v129)
        = V m c main_v129 :=
    Pipeline.withArrays_of_ne _ c (V0 m c) _ main_v129 (by exact (by decide : ∀ w, Pipeline.arrRef spec0 w ≠ main_v129))
  -- the region's result is its fourth array
  have h148 : Pipeline.withArrays (Pipeline.pin pcfgs (fun _ => adm m hO) 0).spec c (V0 m c)
      (fun w => (dats m hO 0 c).arrAt w (Pipeline.pin pcfgs (fun _ => adm m hO) 0).N) (Proc.devRef .tc main_v148)
        = (dats m hO 0 c).arrAt 3 (Pipeline.pin pcfgs (fun _ => adm m hO) 0).N :=
    Pipeline.withArrays_arr spec0 (launch0 (F := F)).win.arr_inj c _ _ 3
  rw [h113, h129, h148]
  rfl

end Cert.KernelIdeal.Bridge

end
-- ==== Proof.Region.lean ====
/-
  The region's value. One grouped matrix product on a grid of 10 row tiles, 4 column tiles and 4 contraction tiles of
  1024: at the first contraction tile a scratch accumulator is zeroed, at every contraction tile the product of the
  token block and the weight block the row tile's table word selects is added to it, and at the last contraction tile
  the accumulator plus the bias row is written to the output block. Read off the generated run of the region: what each control case
  leaves is the payload of its covering store; by induction on the point the accumulator holds the partial inner
  product over the contraction tiles met so far; the four tiles' partial sums regroup to the sum over all 4096
  positions (sums of extended reals regroup freely); the last points' blocks tile the result array.
-/
import proofs.«415461_j65850438582285_3_alg».proof.Proof.KArr
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Bridge

open Idealize.ShloMosaic Idealize.SL.Sem Idealize.ShloMosaic.TcCoe
open Cert.KernelIdeal Cert.KernelIdeal.Gen Cert.KernelIdeal.GenP
open Idealize.ShloMosaic.ValueIdx
open Idealize.ShloMosaic.Tactic
open Idealize.ShloMosaic.Pipeline (Dat)

/-! ## What each control case leaves, as the payloads of its covering stores -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first contraction tile the accumulator is zeroed, read back, and left at zero plus the tile's product. -/
theorem sout_A (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1x1024x1024 .bf16) (x2 : Vec F S1x1024 .f32) (xt0 : TbBuf0 (F := F) c tbM0_0) :
    sout0_A_0 c i arg4 harg4 arg5 harg5 arg6 harg6 arg7 harg7 arg8 harg8 hc0 hc1 x0 x1 x2 xt0 = k0_pay2 (k0_pay1 (F := F)) x0 x1 := by
  unfold sout0_A_0
  rw [View.read_writes_eq_canon _ _ _ (scover0_A_0 c i arg4 harg4 arg5 harg5 arg6 harg6 arg7 harg7 arg8 harg8 hc0 hc1 x0 x1 x2 xt0)]
  unfold kernelRun0_A
  dsimp only
  sl_unfold_words
  rw [View.canon_cons_unit_zero (S := S1024x1024) hz2, View.readCov_unit_zero (S := S1024x1024) _ hz2]
  simp only [View.readAt_eq_ld, harg4.read_unread, harg5.read_unread, View.ld_unit_zero (S := S1024x1024) hz2, View.ld_unit_zero (S := S1x1024x1024) hz3]

/-- At a middle contraction tile the accumulator is left at what it held plus the tile's product. -/
theorem sout_B (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1x1024x1024 .bf16) (x2 : Vec F S1x1024 .f32) (xt0 : TbBuf0 (F := F) c tbM0_0) (xs0 : Vec F S1024x1024 .f32) :
    sout0_B_0 c i arg4 harg4 arg5 harg5 arg6 harg6 arg7 harg7 arg8 harg8 hc0 hc1 x0 x1 x2 xt0 xs0 = k0_pay2 xs0 x0 x1 := by
  unfold sout0_B_0
  rw [View.read_writes_eq_canon _ _ _ (scover0_B_0 c i arg4 harg4 arg5 harg5 arg6 harg6 arg7 harg7 arg8 harg8 hc0 hc1 x0 x1 x2 xt0 xs0)]
  unfold kernelRun0_B
  dsimp only
  sl_unfold_words
  rw [View.canon_unit_zero (S := S1024x1024) hz2]
  simp only [View.readAt_eq_ld, harg4.read_unread, harg5.read_unread, harg8.read_unread, View.ld_unit_zero (S := S1024x1024) hz2, View.ld_unit_zero (S := S1x1024x1024) hz3]

/-- At a last contraction tile the accumulator is again left at what it held plus the tile's product, -/
theorem sout_C (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1x1024x1024 .bf16) (x2 : Vec F S1x1024 .f32) (xt0 : TbBuf0 (F := F) c tbM0_0) (xs0 : Vec F S1024x1024 .f32) :
    sout0_C_0 c i arg4 harg4 arg5 harg5 arg6 harg6 arg7 harg7 arg8 harg8 hc0 hc1 x0 x1 x2 xt0 xs0 = k0_pay2 xs0 x0 x1 := by
  unfold sout0_C_0
  rw [View.read_writes_eq_canon _ _ _ (scover0_C_0 c i arg4 harg4 arg5 harg5 arg6 harg6 arg7 harg7 arg8 harg8 hc0 hc1 x0 x1 x2 xt0 xs0)]
  unfold kernelRun0_C
  dsimp only
  sl_unfold_words
  rw [View.canon_unit_zero (S := S1024x1024) hz2]
  simp only [View.readAt_eq_ld, harg4.read_unread, harg5.read_unread, harg8.read_unread, View.ld_unit_zero (S := S1024x1024) hz2, View.ld_unit_zero (S := S1x1024x1024) hz3]

/-- and the output block is that accumulator, read back, plus the bias row. -/
theorem out_C (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1x1024x1024 .bf16) (x2 : Vec F S1x1024 .f32) (xt0 : TbBuf0 (F := F) c tbM0_0) (xs0 : Vec F S1024x1024 .f32) :
    out0_C_3 c i arg4 harg4 arg5 harg5 arg6 harg6 arg7 harg7 arg8 harg8 hc0 hc1 x0 x1 x2 xt0 xs0 = k0_pay3 (k0_pay2 xs0 x0 x1) x2 := by
  unfold out0_C_3
  rw [View.read_writes_eq_canon _ _ _ (cover0_C_3 c i arg4 harg4 arg5 harg5 arg6 harg6 arg7 harg7 arg8 harg8 hc0 hc1 x0 x1 x2 xt0 xs0)]
  unfold kernelRun0_C
  dsimp only
  sl_unfold_words
  rw [View.canon_unit_zero (S := S1024x1024) hz2, View.readCov_unit_zero (S := S1024x1024) _ hz2]
  simp only [View.readAt_eq_ld, harg4.read_unread, harg5.read_unread, harg6.read_unread, harg8.read_unread, View.ld_unit_zero (S := S1024x1024) hz2, View.ld_unit_zero (S := S1x1024x1024) hz3, View.ld_unit_zero (S := S1x1024) hz2]

end Pieces

/-! ## The payloads at an index, over the extended reals -/

section Payloads

/-- The contraction tile's one axis, as a record name. -/
abbrev dotT : DotDims S1024x1024 S1024x1024 S1024x1024 := dot_S1024x1024_S1024x1024_S1024x1024_1_0_0_1_n_n

theorem lhs_dotT_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dotT_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_dotT_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_dotT_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A tile product into the zero accumulator, at row p and column q: the inner product of row p and column q. -/
theorem tile_matmul_apply (L R : FVec Ideal S1024x1024 .bf16) (p q : Fin 1024) :
    matmul (F := Ideal) dot_S1024x1024_S1024x1024_S1024x1024_1_0_0_1_n_n none L R (constant (F := Ideal) S1024x1024 .f32 0x00000000#32) (ix2 p q)
      = ∑ l : Fin 1024, L (ix2 p l) * R (ix2 l q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun l _ => ?_
  have hk := contrEquiv1_symm_val dot_S1024x1024_S1024x1024_S1024x1024_1_0_0_1_n_n 1024 rfl rfl l
  have el : dot_S1024x1024_S1024x1024_S1024x1024_1_0_0_1_n_n.lhsIdx (ix2 p q) ((contrEquiv1 dot_S1024x1024_S1024x1024_S1024x1024_1_0_0_1_n_n 1024 rfl rfl).symm l) = ix2 p l := funext fun a => Fin.ext (by
    match a with
    | ⟨0, _⟩ => exact lhs_dotT_0 _ _
    | ⟨1, _⟩ => exact (lhs_dotT_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm l) = ix2 l q := funext fun a => Fin.ext (by
    match a with
    | ⟨0, _⟩ => exact (rhs_dotT_0 _ _).trans hk
    | ⟨1, _⟩ => exact rhs_dotT_1 _ _)
  rw [el, er]

/-- The reset block is zero everywhere. -/
theorem pay1_apply (j : S1024x1024.Idx) : k0_pay1 (F := Ideal) j = 0 := by
  unfold k0_pay1
  refine (congrFun (shapeCast_self _ _) j).trans ?_
  exact Ideal.ofBits_zero_f32

/-- A weight block's leading unit axis dropped. -/
theorem dropUnit_w (w : Vec Ideal S1x1024x1024 .bf16) (l q : Fin 1024) :
    shapeCast S1024x1024 w shapeCasts_S1x1024x1024_S1024x1024 (ix2 l q) = w (ix3 (0 : Fin 1) l q) := by
  refine (shapeCast_dropUnit_apply ![1024, 1024] w shapeCasts_S1x1024x1024_S1024x1024 (ix2 l q)).trans ?_
  refine congrArg w (funext fun a => ?_)
  match a with
  | ⟨0, _⟩ => rfl
  | ⟨1, _⟩ => rfl
  | ⟨2, _⟩ => rfl

/-- The update: what the accumulator held plus the tile's inner product. -/
theorem pay2_apply (acc : Vec Ideal S1024x1024 .f32) (x : Vec Ideal S1024x1024 .bf16) (w : Vec Ideal S1x1024x1024 .bf16) (p q : Fin 1024) :
    k0_pay2 (F := Ideal) acc x w (ix2 p q) = acc (ix2 p q) + ∑ l : Fin 1024, x (ix2 p l) * w (ix3 (0 : Fin 1) l q) := by
  unfold k0_pay2
  refine (congrFun (shapeCast_self _ _) (ix2 p q)).trans ?_
  refine (addf_apply _ _ _).trans ?_
  refine congrArg (acc (ix2 p q) + ·) ?_
  refine (tile_matmul_apply _ _ p q).trans ?_
  refine Finset.sum_congr rfl fun l _ => ?_
  refine congrArg₂ (· * ·) ?_ ?_
  · exact congrFun (shapeCast_self x _) (ix2 p l)
  · exact dropUnit_w w l q

/-- The last step: the accumulator plus the bias row, broadcast down the rows. -/
theorem pay3_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  refine (addf_apply _ _ _).trans ?_
  refine congrArg (acc (ix2 p q) + ·) ?_
  refine (broadcastTo_apply _ broadcasts_S1x1024_S1024x1024 (ix2 p q) (ix2 (0 : Fin 1) q) (fun a => ?_)).trans ?_
  · match a with
    | ⟨0, _⟩ => rfl
    | ⟨1, _⟩ => rfl
  · exact congrFun (shapeCast_self b _) (ix2 (0 : Fin 1) q)

end Payloads

/-! ## A sum over 4096 positions, tile by tile -/

section Tiles

/-- A sum over 4096 positions is the sum over the four tiles of the sums over each tile's 1024 positions. -/
theorem sum_four_tiles {M : Type*} [AddCommMonoid M] (f : Fin 4096 → M) :
    ∑ i : Fin 4096, f i
      = ∑ k : Fin 4, ∑ l : Fin 1024, f ⟨k.val * 1024 + l.val, by have := k.isLt; have := l.isLt; omega⟩ := by
  let e : Fin 4 × Fin 1024 ≃ Fin 4096 := finProdFinEquiv
  rw [← e.sum_comp f, Fintype.sum_prod_type]
  refine Finset.sum_congr rfl fun k _ => Finset.sum_congr rfl fun l _ => congrArg f (Fin.ext ?_)
  show l.val + 1024 * k.val = k.val * 1024 + l.val
  omega

end Tiles

/-! ## Where the blocks sit in their arrays -/

section Blocks
variable (m : (ℓ : Loc nD τ sig) → Buf (Elt Ideal) ℓ)

/-- The row of the token array under row p of the row tile of point n. -/
abbrev rowOf (n : ℕ) (p : Fin 1024) : Fin 10240 := ⟨(n / 16 % 10) * 1024 + p.val, by have := p.isLt; omega⟩
/-- The output column under column q of the column tile of point n. -/
abbrev colOf (n : ℕ) (q : Fin 1024) : Fin 4096 := ⟨(n / 4 % 4) * 1024 + q.val, by have := q.isLt; omega⟩
/-- The contraction position under position l of contraction tile k. -/
abbrev conOf (k : ℕ) (l : Fin 1024) : Fin 4096 := ⟨(k % 4) * 1024 + l.val, by have := l.isLt; omega⟩
/-- The row tile of point n. -/
abbrev tileOf (n : ℕ) : Fin 10 := ⟨n / 16 % 10, Nat.mod_lt _ (by decide)⟩
/-- The weight matrix a row tile's table word names (the word itself when it is 0 or 1). -/
abbrev wsel (i : Fin 10) : Fin 2 := ⟨min (gid m (ix1 i)).toNat 1, by omega⟩

/-- The block indices the index maps give at a point, and the table offset read there. -/
theorem idx_facts : ∀ t : Fin grid0.N,
    cc0_transform_0 (grid0.coords t) 0 = t.val / 16 ∧ cc0_transform_0 (grid0.coords t) 1 = t.val % 4
    ∧ cc0_transform_2 (grid0.coords t) 0 = 0 ∧ cc0_transform_2 (grid0.coords t) 1 = t.val / 4 % 4
    ∧ cc0_transform_3 (grid0.coords t) 0 = t.val / 16 ∧ cc0_transform_3 (grid0.coords t) 1 = t.val / 4 % 4
    ∧ k0_off1 (grid0.coords t) 0 = t.val / 16 := by decide +kernel

/-- The four windows' blocks at a point, as memrefs of their literal shapes. -/
abbrev B0 (hO : Ok m) (t : Fin (cfgM m hO).N) : Memref sig .tc .hbm S1024x1024 .bf16 := ((cfgM m hO).win 0).blk t
abbrev B1 (hO : Ok m) (t : Fin (cfgM m hO).N) : Memref sig .tc .hbm S1x1024x1024 .bf16 := ((cfgM m hO).win 1).blk t
abbrev B2 (hO : Ok m) (t : Fin (cfgM m hO).N) : Memref sig .tc .hbm S1x1024 .f32 := ((cfgM m hO).win 2).blk t
abbrev B3 (hO : Ok m) (t : Fin (cfgM m hO).N) : Memref sig .tc .hbm S1024x1024 .f32 := ((cfgM m hO).win 3).blk t

/-- The token block of a point reads the rows of its row tile and the columns of its contraction tile. -/
theorem read_B0 (hO : Ok m) (t : Fin (cfgM m hO).N) (A : Vec Ideal S10240x4096 .bf16) (j : S1024x1024.Idx) :
    (B0 m hO t).view.read (Elt Ideal) A j = A (ix2 (rowOf t.val (j 0)) (conOf t.val (j 1))) := by
  have hN : t.val < 160 := lt_of_lt_of_eq t.isLt (show (cfgM m hO).N = 160 from N_0)
  have hi := idx_facts t
  refine (View.read_apply (v := (B0 m hO t).view) A j).trans ?_
  show A _ = A _
  refine congrArg A (funext fun a => Fin.ext ?_)
  match a with
  | ⟨0, _⟩ =>
    show cc0_transform_0 (grid0.coords t) 0 * 1024 + 1 * (j 0).val = (t.val / 16 % 10) * 1024 + (j 0).val
    rw [hi.1]; omega
  | ⟨1, _⟩ =>
    show cc0_transform_0 (grid0.coords t) 1 * 1024 + 1 * (j 1).val = (t.val % 4) * 1024 + (j 1).val
    rw [hi.2.1]; omega

theorem xblk_apply (hO : Ok m) (c : Dev nD) (t : Fin (cfgM m hO).N) (j : S1024x1024.Idx) :
    (iblk m hO c 0 t : Vec Ideal S1024x1024 .bf16) j = xpad m c (ix2 (rowOf t.val (j 0)) (conOf t.val (j 1))) :=
  read_B0 m hO t (V m c main_v140) j

/-- The word of the table the weight window's index map reads at a point: its row tile's. -/
theorem widx (t : Fin grid0.N) :
    cc0_transform_1 Facts₀.k0_off1_inb Facts₀.numel1_S1 (tbl m) (grid0.coords t) 0 = (gid m (ix1 (tileOf t.val))).toNat := by
  have hN : t.val < 160 := lt_of_lt_of_eq t.isLt N_0
  have hi := (idx_facts t).2.2.2.2.2.2
  show (tbl m 0 _).toNat = (tbl m 0 _).toNat
  refine congrArg (fun i => (tbl m 0 i).toNat) (funext fun a => Fin.ext ?_)
  match a with
  | ⟨0, _⟩ =>
    show k0_off1 (grid0.coords t) 0 + 1 * 0 = t.val / 16 % 10
    rw [hi]; omega

/-- Under the pipeline's side condition the word is 0 or 1. -/
theorem widx_le (hO : Ok m) (t : Fin grid0.N) : (gid m (ix1 (tileOf t.val))).toNat ≤ 1 := by
  obtain ⟨h, -⟩ := hO (grid0.coords t)
  have h0 := h 0
  rw [widx m t] at h0
  have e1 : S1x1024x1024.size 0 = 1 := rfl
  have e2 : S2x4096x4096.size 0 = 2 := rfl
  rw [e1, e2] at h0
  omega

/-- The weight block of a point reads the matrix its row tile's word names, the rows of its contraction tile and the
    columns of its column tile. -/
theorem read_B1 (hO : Ok m) (t : Fin (cfgM m hO).N) (A : Vec Ideal S2x4096x4096 .bf16) (j : S1x1024x1024.Idx) :
    (B1 m hO t).view.read (Elt Ideal) A j = A (ix3 (wsel m (tileOf t.val)) (conOf t.val (j 1)) (colOf t.val (j 2))) := by
  have hN : t.val < 160 := lt_of_lt_of_eq t.isLt (show (cfgM m hO).N = 160 from N_0)
  have hi := idx_facts t
  have hw := widx m t
  have hle := widx_le m hO t
  have hj0 : (j 0).val = 0 := by have h : (j 0).val < 1 := (j 0).isLt; omega
  refine (View.read_apply (v := (B1 m hO t).view) A j).trans ?_
  show A _ = A _
  refine congrArg A (funext fun a => Fin.ext ?_)
  match a with
  | ⟨0, _⟩ =>
    show cc0_transform_1 Facts₀.k0_off1_inb Facts₀.numel1_S1 (tbl m) (grid0.coords t) 0 * 1 + 1 * (j 0).val = min (gid m (ix1 (tileOf t.val))).toNat 1
    rw [hw, hj0]; omega
  | ⟨1, _⟩ =>
    show cc0_transform_0 (grid0.coords t) 1 * 1024 + 1 * (j 1).val = (t.val % 4) * 1024 + (j 1).val
    rw [hi.2.1]; omega
  | ⟨2, _⟩ =>
    show cc0_transform_3 (grid0.coords t) 1 * 1024 + 1 * (j 2).val = (t.val / 4 % 4) * 1024 + (j 2).val
    rw [hi.2.2.2.2.2.1]; omega

theorem wblk_apply (hO : Ok m) (c : Dev nD) (t : Fin (cfgM m hO).N) (j : S1x1024x1024.Idx) :
    (iblk m hO c 1 t : Vec Ideal S1x1024x1024 .bf16) j = wst m c (ix3 (wsel m (tileOf t.val)) (conOf t.val (j 1)) (colOf t.val (j 2))) :=
  read_B1 m hO t (V m c main_v112) j

/-- The bias block of a point reads the columns of its column tile. -/
theorem read_B2 (hO : Ok m) (t : Fin (cfgM m hO).N) (A : Vec Ideal S1x4096 .f32) (j : S1x1024.Idx) :
    (B2 m hO t).view.read (Elt Ideal) A j = A (ix2 (0 : Fin 1) (colOf t.val (j 1))) := by
  have hN : t.val < 160 := lt_of_lt_of_eq t.isLt (show (cfgM m hO).N = 160 from N_0)
  have hi := idx_facts t
  have hj0 : (j 0).val = 0 := by have h : (j 0).val < 1 := (j 0).isLt; omega
  refine (View.read_apply (v := (B2 m hO t).view) A j).trans ?_
  show A _ = A _
  refine congrArg A (funext fun a => Fin.ext ?_)
  match a with
  | ⟨0, _⟩ =>
    show cc0_transform_2 (grid0.coords t) 0 * 1 + 1 * (j 0).val = 0
    rw [hi.2.2.1, hj0]
  | ⟨1, _⟩ =>
    show cc0_transform_2 (grid0.coords t) 1 * 1024 + 1 * (j 1).val = (t.val / 4 % 4) * 1024 + (j 1).val
    rw [hi.2.2.2.1]; omega

theorem bblk_apply (hO : Ok m) (c : Dev nD) (t : Fin (cfgM m hO).N) (j : S1x1024.Idx) :
    (iblk m hO c 2 t : Vec Ideal S1x1024 .f32) j = b2d m c (ix2 (0 : Fin 1) (colOf t.val (j 1))) :=
  read_B2 m hO t (V m c main_v147) j

/-- The output block of a point reads the rows of its row tile and the columns of its column tile. -/
theorem read_B3 (hO : Ok m) (t : Fin (cfgM m hO).N) (A : Vec Ideal S10240x4096 .f32) (j : S1024x1024.Idx) :
    (B3 m hO t).view.read (Elt Ideal) A j = A (ix2 (rowOf t.val (j 0)) (colOf t.val (j 1))) := by
  have hN : t.val < 160 := lt_of_lt_of_eq t.isLt (show (cfgM m hO).N = 160 from N_0)
  have hi := idx_facts t
  refine (View.read_apply (v := (B3 m hO t).view) A j).trans ?_
  show A _ = A _
  refine congrArg A (funext fun a => Fin.ext ?_)
  match a with
  | ⟨0, _⟩ =>
    show cc0_transform_3 (grid0.coords t) 0 * 1024 + 1 * (j 0).val = (t.val / 16 % 10) * 1024 + (j 0).val
    rw [hi.2.2.2.2.1]; omega
  | ⟨1, _⟩ =>
    show cc0_transform_3 (grid0.coords t) 1 * 1024 + 1 * (j 1).val = (t.val / 4 % 4) * 1024 + (j 1).val
    rw [hi.2.2.2.2.2.1]; omega

end Blocks

/-! ## The accumulator point by point, and the region's result -/

section Invariant
variable (m : (ℓ : Loc nD τ sig) → Buf (Elt Ideal) ℓ)

/-- At a first contraction tile the accumulator ends at the update of the zero block by the point's blocks. -/
theorem scr_first (hO : Ok m) (c : Dev nD) (t : Fin (cfgM m hO).N) (h0 : t.val % 4 = 0) :
    (outsAt0 m hO c t.val t.isLt).2 = k0_pay2 (k0_pay1 (F := Ideal)) (iblk m hO c 0 t) (iblk m hO c 1 t) := by
  have hN : t.val < 160 := lt_of_lt_of_eq t.isLt (show (cfgM m hO).N = 160 from N_0)
  have h1 : ¬t.val % 4 = 3 := by omega
  rw [outsAt0_A m hO c t h0 h1]
  dsimp only
  exact sout_A (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) ((hcond0_0 t).mpr h0) (fun h => h1 ((hcond0_1 t).mp h)) (iblk m hO c 0 t) (iblk m hO c 1 t) (iblk m hO c 2 t) (tbl m 0)

/-- At a later contraction tile it ends at the update of what the point before left. -/
theorem scr_later (hO : Ok m) (c : Dev nD) (t : Fin (cfgM m hO).N) (h0 : ¬t.val % 4 = 0) :
    (outsAt0 m hO c t.val t.isLt).2 = k0_pay2 (outsAt0 m hO c (t.val - 1) (Nat.lt_of_le_of_lt (Nat.sub_le _ _) t.isLt)).2 (iblk m hO c 0 t) (iblk m hO c 1 t) := by
  by_cases h1 : t.val % 4 = 3
  · rw [outsAt0_C m hO c t h0 h1]
    dsimp only
    exact sout_C (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2
  · rw [outsAt0_B m hO c t h0 h1]
    dsimp only
    exact sout_B (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2

/-- At a last contraction tile the output block is the accumulator's final contents plus the bias block. -/
theorem out_last (hO : Ok m) (c : Dev nD) (t : Fin (cfgM m hO).N) (h3 : t.val % 4 = 3) :
    (outsAt0 m hO c t.val t.isLt).1 = k0_pay3 (outsAt0 m hO c t.val t.isLt).2 (iblk m hO c 2 t) := by
  have h0 : ¬t.val % 4 = 0 := by omega
  rw [outsAt0_C m hO c t h0 h3]
  dsimp only
  rw [out_C (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) ((hcond0_1 t).mpr h3) (iblk m hO c 0 t) (iblk m hO c 1 t) (iblk m hO c 2 t) (tbl m 0) (outsAt0 m hO c (t.val - 1) (Nat.lt_of_le_of_lt (Nat.sub_le _ _) t.isLt)).2,
    sout_C (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) ((hcond0_1 t).mpr h3) (iblk m hO c 0 t) (iblk m hO c 1 t) (iblk m hO c 2 t) (tbl m 0) (outsAt0 m hO c (t.val - 1) (Nat.lt_of_le_of_lt (Nat.sub_le _ _) t.isLt)).2]

/-- One contraction tile's share of the inner product of row r with column o of weight matrix g. -/
def term (c : Dev nD) (g : Fin 2) (r : Fin 10240) (o : Fin 4096) (k : ℕ) : EReal :=
  ∑ l : Fin 1024, xpad m c (ix2 r (conOf k l)) * wst m c (ix3 g (conOf k l) o)

/-- Only the tile's number modulo 4 matters. -/
theorem term_mod (c : Dev nD) (g : Fin 2) (r : Fin 10240) (o : Fin 4096) (k : ℕ) :
    term m c g r o k = term m c g r o (k % 4) := by
  unfold term
  have e : ∀ l : Fin 1024, conOf k l = conOf (k % 4) l := fun l => Fin.ext (by
    show (k % 4) * 1024 + l.val = (k % 4 % 4) * 1024 + l.val
    rw [Nat.mod_mod])
  refine Finset.sum_congr rfl fun l _ => ?_
  rw [e l]

/-- The four tiles' shares add up to the whole inner product. -/
theorem sum_terms (c : Dev nD) (g : Fin 2) (r : Fin 10240) (o : Fin 4096) :
    ∑ k ∈ Finset.range 4, term m c g r o k = ∑ i : Fin 4096, xpad m c (ix2 r i) * wst m c (ix3 g i o) := by
  rw [sum_four_tiles (fun i => xpad m c (ix2 r i) * wst m c (ix3 g i o)),
    ← Fin.sum_univ_eq_sum_range (fun k => term m c g r o k) 4]
  refine Finset.sum_congr rfl fun k _ => ?_
  unfold term
  refine Finset.sum_congr rfl fun l _ => ?_
  have e : conOf k.val l = ⟨k.val * 1024 + l.val, by have := k.isLt; have := l.isLt; omega⟩ := Fin.ext (by
    show (k.val % 4) * 1024 + l.val = k.val * 1024 + l.val
    have := k.isLt
    omega)
  rw [e]

/-- The update at a point, at row p and column q of the tile: the point's contraction tile's share is added. -/
theorem step_apply (hO : Ok m) (c : Dev nD) (t : Fin (cfgM m hO).N) (acc : Vec Ideal S1024x1024 .f32) (p q : Fin 1024)
    (g : Fin 2) (r : Fin 10240) (o : Fin 4096)
    (hg : g = wsel m (tileOf t.val)) (hr : r = rowOf t.val p) (ho : o = colOf t.val q) :
    k0_pay2 (F := Ideal) acc (iblk m hO c 0 t) (iblk m hO c 1 t) (ix2 p q) = acc (ix2 p q) + term m c g r o t.val := by
  subst hg hr ho
  refine (pay2_apply acc (iblk m hO c 0 t) (iblk m hO c 1 t) p q).trans ?_
  refine congrArg (acc (ix2 p q) + ·) ?_
  unfold term
  refine Finset.sum_congr rfl fun l _ => ?_
  exact congrArg₂ (· * ·) (xblk_apply m hO c t (ix2 p l)) (wblk_apply m hO c t (ix3 (0 : Fin 1) l q))

/-- THE INVARIANT. After point n the accumulator holds, at row p and column q of the point's tile, the shares of the
    contraction tiles up to the point's own. -/
theorem acc_inv (hO : Ok m) (c : Dev nD) : ∀ (n : ℕ) (hn : n < (cfgM m hO).N) (p q : Fin 1024)
    (g : Fin 2) (r : Fin 10240) (o : Fin 4096),
    g = wsel m (tileOf n) → r = rowOf n p → o = colOf n q →
    (outsAt0 m hO c n hn).2 (ix2 p q) = ∑ k ∈ Finset.range (n % 4 + 1), term m c g r o k
  | 0, hn, p, q, g, r, o, hg, hr, ho => by
    rw [scr_first m hO c ⟨0, hn⟩ rfl]
    refine (step_apply m hO c ⟨0, hn⟩ (k0_pay1 (F := Ideal)) p q g r o hg hr ho).trans ?_
    rw [pay1_apply, zero_add]
    exact (Finset.sum_range_one _).symm
  | n + 1, hn, p, q, g, r, o, hg, hr, ho => by
    have hN : n + 1 < 160 := lt_of_lt_of_eq hn (show (cfgM m hO).N = 160 from N_0)
    by_cases h0 : (n + 1) % 4 = 0
    · rw [scr_first m hO c ⟨n + 1, hn⟩ h0]
      refine (step_apply m hO c ⟨n + 1, hn⟩ (k0_pay1 (F := Ideal)) p q g r o hg hr ho).trans ?_
      rw [pay1_apply, zero_add]
      show term m c g r o (n + 1) = ∑ k ∈ Finset.range ((n + 1) % 4 + 1), term m c g r o k
      rw [term_mod m c g r o (n + 1), h0]
      exact (Finset.sum_range_one _).symm
    · rw [scr_later m hO c ⟨n + 1, hn⟩ h0]
      refine (step_apply m hO c ⟨n + 1, hn⟩ _ p q g r o hg hr ho).trans ?_
      show (outsAt0 m hO c n (Nat.lt_of_succ_lt hn)).2 (ix2 p q) + term m c g r o (n + 1)
        = ∑ k ∈ Finset.range ((n + 1) % 4 + 1), term m c g r o k
      rw [acc_inv hO c n (Nat.lt_of_succ_lt hn) p q g r o
          (hg.trans (congrArg (wsel m) (Fin.ext (by show (n + 1) / 16 % 10 = n / 16 % 10; omega))))
          (hr.trans (Fin.ext (by show ((n + 1) / 16 % 10) * 1024 + p.val = (n / 16 % 10) * 1024 + p.val; omega)))
          (ho.trans (Fin.ext (by show ((n + 1) / 4 % 4) * 1024 + q.val = (n / 4 % 4) * 1024 + q.val; omega))),
        term_mod m c g r o (n + 1), show (n + 1) % 4 = n % 4 + 1 from by omega]
      exact (Finset.sum_range_succ (fun k => term m c g r o k) (n % 4 + 1)).symm

/-- The region's result at row r and column o. -/
def H (c : Dev nD) (r : Fin 10240) (o : Fin 4096) : EReal :=
  (∑ i : Fin 4096, xpad m c (ix2 r i)
      * wst m c (ix3 (wsel m (⟨r.val / 1024, by have := r.isLt; omega⟩ : Fin 10)) i o))
    + b2d m c (ix2 (0 : Fin 1) o)

/-- The region's result as an array. -/
def G (c : Dev nD) : Vec Ideal S10240x4096 .f32 := fun i => H m c (i 0) (i 1)

/-- The result under a tile's row p and column q: the four shares and the bias. -/
theorem H_at (c : Dev nD) (n : ℕ) (p q : Fin 1024) :
    H m c (rowOf n p) (colOf n q)
      = (∑ k ∈ Finset.range 4, term m c (wsel m (tileOf n)) (rowOf n p) (colOf n q) k)
        + b2d m c (ix2 (0 : Fin 1) (colOf n q)) := by
  have e : (⟨(rowOf n p).val / 1024, by have := (rowOf n p).isLt; omega⟩ : Fin 10) = tileOf n := Fin.ext (by
    show ((n / 16 % 10) * 1024 + p.val) / 1024 = n / 16 % 10
    have := p.isLt
    omega)
  unfold H
  rw [e, sum_terms]

/-- What a last-contraction-tile point leaves in the output's staging buffer is its block of the result. -/
theorem out_apply (hO : Ok m) (c : Dev nD) (t : Fin (cfgM m hO).N) (h3 : t.val % 4 = 3) (p q : Fin 1024) :
    (outsAt0 m hO c t.val t.isLt).1 (ix2 p q) = H m c (rowOf t.val p) (colOf t.val q) := by
  rw [out_last m hO c t h3]
  refine (pay3_apply (outsAt0 m hO c t.val t.isLt).2 (iblk m hO c 2 t) p q).trans ?_
  rw [acc_inv m hO c t.val t.isLt p q (wsel m (tileOf t.val)) (rowOf t.val p) (colOf t.val q) rfl rfl rfl,
    bblk_apply m hO c t (ix2 (0 : Fin 1) q), H_at m c t.val p q, h3]

/-- The write-back at a point writes the point's block of the result. -/
theorem flushed_eq (hO : Ok m) (c : Dev nD) (t : Fin (cfgM m hO).N) (hf : ((cfgM m hO).win 3).flush t = true) :
    (dats m hO 0 c).flushed 3 t = (((cfgM m hO).win 3).blk t).view.read (Elt Ideal) (G m c) := by
  have h3 : t.val % 4 = 3 := (flush0_3 (adm m hO) t).mp hf
  show ((cfgM m hO).win 3).cut (grid0.coords t) ((dats m hO 0 c).after 3 t) = _
  rw [after0_3]
  show ((outsAt0 m hO c t.val t.isLt).1 : Vec Ideal S1024x1024 .f32) = (B3 m hO t).view.read (Elt Ideal) (G m c)
  funext j
  obtain ⟨p, q, rfl⟩ : ∃ (p q : Fin 1024), j = ix2 p q := ⟨j 0, j 1, eq_ix2 j⟩
  rw [read_B3 m hO t (G m c) (ix2 p q)]
  exact out_apply m hO c t h3 p q

/-- Every element of the result array is in the block some last-contraction-tile point writes back. -/
theorem cover (hO : Ok m) (i : S10240x4096.Idx) :
    ∃ t : Fin (cfgM m hO).N, ((cfgM m hO).win 3).flush t = true ∧ i ∈ (((cfgM m hO).win 3).blk t).view.set := by
  have h0 : (i 0).val < 10240 := (i 0).isLt
  have h1 : (i 1).val < 4096 := (i 1).isLt
  have hN : (cfgM m hO).N = 160 := N_0
  obtain ⟨n, hn⟩ : ∃ n : ℕ, n = ((i 0).val / 1024 * 4 + (i 1).val / 1024) * 4 + 3 := ⟨_, rfl⟩
  have hlt : n < (cfgM m hO).N := by rw [hN]; omega
  have hi : cc0_transform_3 (grid0.coords ⟨n, hlt⟩) 0 = n / 16 ∧ cc0_transform_3 (grid0.coords ⟨n, hlt⟩) 1 = n / 4 % 4 :=
    ⟨(idx_facts ⟨n, hlt⟩).2.2.2.2.1, (idx_facts ⟨n, hlt⟩).2.2.2.2.2.1⟩
  refine ⟨⟨n, hlt⟩, (flush0_3 (adm m hO) ⟨n, hlt⟩).mpr (by show n % 4 = 3; omega), ?_⟩
  show i ∈ ((View.whole main_v148).slice (((cfgM m hO).win 3).rect ⟨n, hlt⟩)).set
  refine (Finset.ext_iff.mp (View.set_slice_whole main_v148 (((cfgM m hO).win 3).rect ⟨n, hlt⟩)) i).mpr ?_
  refine Rect.mem_set_unit.mpr ?_
  intro a
  match a with
  | ⟨0, _⟩ =>
    show cc0_transform_3 (grid0.coords ⟨n, hlt⟩) 0 * 1024 ≤ (i 0).val
      ∧ (i 0).val < cc0_transform_3 (grid0.coords ⟨n, hlt⟩) 0 * 1024 + 1024
    rw [hi.1]; omega
  | ⟨1, _⟩ =>
    show cc0_transform_3 (grid0.coords ⟨n, hlt⟩) 1 * 1024 ≤ (i 1).val
      ∧ (i 1).val < cc0_transform_3 (grid0.coords ⟨n, hlt⟩) 1 * 1024 + 1024
    rw [hi.2]; omega

/-- So the region's result array ends holding the result. -/
theorem ypad_eq (hO : Ok m) (c : Dev nD) : ypad m hO c = G m c :=
  (dats m hO 0 c).arrAt_eq_of_cover 3 (G m c) (fun t hf => flushed_eq m hO c t hf) (fun i => cover m hO i)

/-- After the run, the region's result at row r and column o is the row's inner product with column o of the weight matrix its row tile's table word names, plus bias o. -/
theorem ypad_apply (hO : Ok m) (c : Dev nD) (r : Fin 10240) (o : Fin 4096) :
    ypad m hO c (ix2 r o)
      = (∑ i : Fin 4096, xpad m c (ix2 r i)
            * wst m c (ix3 (⟨min (gid m (ix1 (⟨r.val / 1024, by have := r.isLt; omega⟩ : Fin 10))).toNat 1, by omega⟩ : Fin 2) i o))
        + b2d m c (ix2 (0 : Fin 1) o) :=
  congrFun (ypad_eq m hO c) (ix2 r o)

end Invariant

end Cert.KernelIdeal.Bridge

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.LibScatterSet.lean ====
import Idealize.ShloMosaic.PureOps
import Idealize.ShloMosaic.Lib.ValueIdx
import Idealize.ShloMosaic.Lib.StableHlo.Predicate
import proofs.«415461_j65850438582285_3_alg».proof.Proof.LibScatterRows

/-!
# A scatter that sets, read at one element

A scatter whose body returns the update replaces operand elements by update elements: the update
indices are taken in row-major order, and each one that lands inside the operand overwrites the
element it lands on. Read at one operand element this is a left fold whose value there is the LAST
update that lands on it, or the operand's own element when none does. When exactly one update index
lands on the element, the result there is that update, whatever the order.

For scatter indices given as an [n × 1] column of positions (read signed; a position outside the
operand drops its update) update entry p lands on operand entry (or row) number idx p. So when the
positions equal to idx p are those of p alone, operand entry idx p ends as update entry p
(vec_hit, and row by row rows_hit), and an entry no position names keeps its
old value (vec_miss, rows_miss).
-/

open Idealize.ShloMosaic Idealize.ShloMosaic.ValueIdx Idealize.ShloMosaic.StableHlo.Predicate

namespace Cert.ScatterSet

/-- Row p of an [n x 1] column of positions. -/
abbrev col {n : Nat} (p : Fin n) : (⟨2, ![n, 1]⟩ : Shape).Idx := ix2 p (0 : Fin 1)

/-- The two spellings of row p of a column are the same index. -/
theorem ixP_eq_col {n : Nat} (p : Fin n) : ixP p = col p := by
  funext a
  match a with
  | ⟨0, _⟩ => rfl
  | ⟨1, _⟩ => rfl

/-- A column of positions read at row p, in either spelling of the index. -/
theorem toInt_ixP {n w : Nat} (idx : IVec ⟨2, ![n, 1]⟩ w) (p : Fin n) :
    (idx (ixP p)).toInt = (idx (col p)).toInt := by
  rw [ixP_eq_col]

section Fold
variable {s u : Shape} {α : Type}

/-- One step of the fold read at i0, when the update index lands there: the update. -/
theorem step_hit (g : u.Idx → Option s.Idx) (upd : u.Idx → α) (r : s.Idx → α) (j : u.Idx) (i0 : s.Idx)
    (h : g j = some i0) :
    (match g j with
      | some i => fun i' => if i' = i then (fun (_ b : α) => b) (r i) (upd j) else r i'
      | none => r) i0 = upd j := by
  rw [h]
  show (if i0 = i0 then upd j else r i0) = upd j
  rw [if_pos rfl]

/-- One step of the fold read at i0, when the update index lands elsewhere or nowhere: unchanged. -/
theorem step_miss (g : u.Idx → Option s.Idx) (upd : u.Idx → α) (r : s.Idx → α) (j : u.Idx) (i0 : s.Idx)
    (h : g j ≠ some i0) :
    (match g j with
      | some i => fun i' => if i' = i then (fun (_ b : α) => b) (r i) (upd j) else r i'
      | none => r) i0 = r i0 := by
  cases hg : g j with
  | none => rfl
  | some i =>
    have e : i0 ≠ i := fun e => h (by rw [hg, e])
    show (if i0 = i then upd j else r i0) = r i0
    rw [if_neg e]

/-- Folding over update indices none of which lands on i0 leaves the element at i0 as it was. -/
theorem foldl_miss (g : u.Idx → Option s.Idx) (upd : u.Idx → α) (i0 : s.Idx) :
    ∀ (l : List u.Idx) (x : s.Idx → α), (∀ j ∈ l, g j ≠ some i0) →
      (l.foldl (fun r j => match g j with
          | some i => fun i' => if i' = i then (fun (_ b : α) => b) (r i) (upd j) else r i'
          | none => r) x) i0 = x i0
  | [], _, _ => rfl
  | a :: l, x, h => by
    rw [List.foldl_cons, foldl_miss g upd i0 l _ (fun j hj => h j (List.mem_cons_of_mem _ hj))]
    exact step_miss g upd x a i0 (h a (List.mem_cons_self ..))

/-- Folding over update indices of which j0, and no other, lands on i0 leaves update j0 there. -/
theorem foldl_hit (g : u.Idx → Option s.Idx) (upd : u.Idx → α) (i0 : s.Idx) (j0 : u.Idx)
    (h0 : g j0 = some i0) :
    ∀ (l : List u.Idx) (x : s.Idx → α), j0 ∈ l → (∀ j ∈ l, g j = some i0 → j = j0) →
      (l.foldl (fun r j => match g j with
          | some i => fun i' => if i' = i then (fun (_ b : α) => b) (r i) (upd j) else r i'
          | none => r) x) i0 = upd j0
  | [], _, hm, _ => absurd hm (List.not_mem_nil)
  | a :: l, x, hm, hu => by
    rw [List.foldl_cons]
    by_cases hl : j0 ∈ l
    · exact foldl_hit g upd i0 j0 h0 l _ hl (fun j hj => hu j (List.mem_cons_of_mem _ hj))
    · have ha : a = j0 := by
        rcases List.mem_cons.1 hm with e | e
        · exact e.symm
        · exact absurd e hl
      subst ha
      rw [foldl_miss g upd i0 l _ (fun j hj e => hl (by rw [← hu j (List.mem_cons_of_mem _ hj) e]; exact hj))]
      exact step_hit g upd x a i0 h0

end Fold

section General
variable {s si u : Shape} {α : Type} {w : Nat}

/-- The scatter as a fold over the list of all update indices in row-major order. -/
theorem scatter_eq_foldl (d : ScatterDims s si u) (x : s.Idx → α) (idx : IVec si w) (upd : u.Idx → α) :
    Host.scatter d (fun _ b => b) x idx upd
      = (((List.finRange u.numel).map u.rowMajor.symm).foldl (fun r j => match d.resultIdx? j idx with
          | some i => fun i' => if i' = i then (fun (_ b : α) => b) (r i) (upd j) else r i'
          | none => r) x) := by
  rw [List.foldl_map]
  rfl

/-- Every update index is in the row-major list. -/
theorem mem_rowMajor_list (j : u.Idx) : j ∈ (List.finRange u.numel).map u.rowMajor.symm :=
  List.mem_map.2 ⟨u.rowMajor j, List.mem_finRange _, u.rowMajor.symm_apply_apply j⟩

/-- An operand element on which no update index lands keeps its value. -/
theorem scatter_set_miss (d : ScatterDims s si u) (x : s.Idx → α) (idx : IVec si w) (upd : u.Idx → α)
    (i0 : s.Idx) (h : ∀ j, d.resultIdx? j idx ≠ some i0) :
    Host.scatter d (fun _ b => b) x idx upd i0 = x i0 := by
  rw [scatter_eq_foldl]
  exact foldl_miss (fun j => d.resultIdx? j idx) upd i0 _ x (fun j _ => h j)

/-- An operand element on which exactly one update index lands ends as that update. -/
theorem scatter_set_hit (d : ScatterDims s si u) (x : s.Idx → α) (idx : IVec si w) (upd : u.Idx → α)
    (i0 : s.Idx) (j0 : u.Idx) (h0 : d.resultIdx? j0 idx = some i0)
    (hu : ∀ j, d.resultIdx? j idx = some i0 → j = j0) :
    Host.scatter d (fun _ b => b) x idx upd i0 = upd j0 := by
  rw [scatter_eq_foldl]
  exact foldl_hit (fun j => d.resultIdx? j idx) upd i0 j0 h0 _ x (mem_rowMajor_list j0) (fun j _ => hu j)

end General

theorem vec_hit {α : Type} {N n w : Nat} (d : ScatterDims ⟨1, ![N]⟩ ⟨2, ![n, 1]⟩ ⟨1, ![n]⟩)
    (huw : d.updateWindowDims = []) (hiw : d.insertedWindowDims = [0]) (hsd : d.scatterDimsToOperandDims = [0]) (hiv : d.indexVectorDim = 1)
    (x : (⟨1, ![N]⟩ : Shape).Idx → α) (idx : IVec ⟨2, ![n, 1]⟩ w) (upd : (⟨1, ![n]⟩ : Shape).Idx → α)
    (p : Fin n) (i : Fin N) (hp : (idx (col p)).toInt = (i.val : Int))
    (hinj : ∀ p' : Fin n, (idx (col p')).toInt = (idx (col p)).toInt → p' = p) :
    Host.scatter d (fun _ b => b) x idx upd (ix1 i) = upd (ix1 p) := by
  refine scatter_set_hit d x idx upd (ix1 i) (ix1 p) ?_ ?_
  · exact (Cert.ScatterRows.vec_resultIdx d hiw hsd hiv (ix1 p) idx i).2 ((toInt_ixP idx p).trans hp)
  · intro j hj
    have h1 := (Cert.ScatterRows.vec_resultIdx d hiw hsd hiv j idx i).1 hj
    have h2 : (idx (col (j 0))).toInt = (idx (col p)).toInt :=
      ((toInt_ixP idx (j 0)).symm.trans h1).trans hp.symm
    exact (eq_ix1 j).trans (congrArg ix1 (hinj (j 0) h2))

theorem vec_miss {α : Type} {N n w : Nat} (d : ScatterDims ⟨1, ![N]⟩ ⟨2, ![n, 1]⟩ ⟨1, ![n]⟩)
    (huw : d.updateWindowDims = []) (hiw : d.insertedWindowDims = [0]) (hsd : d.scatterDimsToOperandDims = [0]) (hiv : d.indexVectorDim = 1)
    (x : (⟨1, ![N]⟩ : Shape).Idx → α) (idx : IVec ⟨2, ![n, 1]⟩ w) (upd : (⟨1, ![n]⟩ : Shape).Idx → α)
    (i : Fin N) (hmiss : ∀ p' : Fin n, (idx (col p')).toInt ≠ (i.val : Int)) :
    Host.scatter d (fun _ b => b) x idx upd (ix1 i) = x (ix1 i) := by
  refine scatter_set_miss d x idx upd (ix1 i) fun j hj => ?_
  have h1 := (Cert.ScatterRows.vec_resultIdx d hiw hsd hiv j idx i).1 hj
  exact hmiss (j 0) ((toInt_ixP idx (j 0)).symm.trans h1)

theorem rows_hit {α : Type} {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0]) (hiv : d.indexVectorDim = 1)
    (x : (⟨2, ![N, D]⟩ : Shape).Idx → α) (idx : IVec ⟨2, ![n, 1]⟩ w) (upd : (⟨2, ![n, D]⟩ : Shape).Idx → α)
    (p : Fin n) (i : Fin N) (j : Fin D) (hp : (idx (col p)).toInt = (i.val : Int))
    (hinj : ∀ p' : Fin n, (idx (col p')).toInt = (idx (col p)).toInt → p' = p) :
    Host.scatter d (fun _ b => b) x idx upd (ix2 i j) = upd (ix2 p j) := by
  refine scatter_set_hit d x idx upd (ix2 i j) (ix2 p j) ?_ ?_
  · exact (Cert.ScatterRows.rows_resultIdx d huw hiw hsd hiv (ix2 p j) idx i j).2
      ⟨(toInt_ixP idx p).trans hp, rfl⟩
  · intro k hk
    have h1 := (Cert.ScatterRows.rows_resultIdx d huw hiw hsd hiv k idx i j).1 hk
    have h2 : (idx (col (k 0))).toInt = (idx (col p)).toInt :=
      ((toInt_ixP idx (k 0)).symm.trans h1.1).trans hp.symm
    exact (eq_ix2 k).trans (congrArg₂ ix2 (hinj (k 0) h2) (Fin.ext h1.2))

theorem rows_miss {α : Type} {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0]) (hiv : d.indexVectorDim = 1)
    (x : (⟨2, ![N, D]⟩ : Shape).Idx → α) (idx : IVec ⟨2, ![n, 1]⟩ w) (upd : (⟨2, ![n, D]⟩ : Shape).Idx → α)
    (i : Fin N) (j : Fin D) (hmiss : ∀ p' : Fin n, (idx (col p')).toInt ≠ (i.val : Int)) :
    Host.scatter d (fun _ b => b) x idx upd (ix2 i j) = x (ix2 i j) := by
  refine scatter_set_miss d x idx upd (ix2 i j) fun k hk => ?_
  have h1 := (Cert.ScatterRows.rows_resultIdx d huw hiw hsd hiv k idx i j).1 hk
  exact hmiss (k 0) ((toInt_ixP idx (k 0)).symm.trans h1.1)

end Cert.ScatterSet
-- ==== Proof.RouteReads.lean ====
import proofs.«415461_j65850438582285_3_alg».proof.Proof.KHost
import proofs.«415461_j65850438582285_3_alg».proof.Proof.LibScatterSet
import Idealize.ShloMosaic.PureOps.Ideal
import Idealize.ShloMosaic.PureOps.Reduce
import Idealize.ShloMosaic.Lib.ValueIdx
import Idealize.ShloMosaic.Lib.StableHlo.Predicate
import Idealize.ShloMosaic.Lib.Pipeline.Value

/-!
# The routing's scatters and takes read at one element

The sorted table holds, at position p, the number σ p of the token sorted there, and the slot table the slot sl p of
that position; both hold small non-negative words. A take by such a table wraps nothing (no position is negative), its
range test passes at every row, and its clamp is the identity, so it reads the table's row at the position. The slots
being pairwise distinct, the scatter that builds the padded tokens writes row sl p exactly once, with the row of token
σ p; σ being injective, the second scatter writes the word of sl p at position σ p, once; and the final take reads the
region's result at each token's slot. Narrowing a float to 16 bits is the identity on the extended reals.
-/

noncomputable section

namespace Cert.KernelIdeal.Host
open Idealize.ShloMosaic Idealize.ShloMosaic.ValueIdx Cert.KernelIdeal Cert.KernelIdeal.Gen
open Idealize.ShloMosaic.StableHlo.Predicate Cert.ScatterSet

/-- Token t as (batch, position): t = 2048·b + s. -/
abbrev tokB (t : Fin 8192) : Fin 4 := ⟨t.val / 2048, by have := t.isLt; omega⟩
abbrev tokS (t : Fin 8192) : Fin 2048 := ⟨t.val % 2048, Nat.mod_lt _ (by decide)⟩

/-! ## Words -/

/-- A splat reads its word everywhere. -/
theorem splat8192_apply (k : BitVec 32) (i : S8192.Idx) : splat8192 k i = k := rfl

/-- A table of small non-negative words has no negative position to wrap. -/
theorem wrapIdx_small (n : BitVec 32) (idx : IVec S8192 32) (q : Fin 8192) (h : (idx (ix1 q)).toNat < 2 ^ 31) :
    wrapIdx n idx (ix1 q) = idx (ix1 q) := by
  unfold wrapIdx
  rw [select_apply]
  have hc : cmpi .slt idx (splat8192 0#32) (ix1 q) = 0#1 := by
    show IntOp.cmpi .slt (idx (ix1 q)) 0#32 = 0#1
    refine eq_zero_of_ne_one fun h1 => ?_
    have := (slt_iff_toNat h (by decide)).1 h1
    simp at this
  rw [hc, select_zero]

/-- The column of positions at row q is the wrapped table at q. -/
theorem colIdx_col (n : BitVec 32) (idx : IVec S8192 32) (q : Fin 8192) :
    colIdx n idx (col q) = wrapIdx n idx (ix1 q) := by
  unfold colIdx
  simp only [broadcastInDim]
  congr 1
  funext a
  match a with
  | ⟨0, _⟩ => rfl

/-- Every index of an [8192 × 1] column is a row of it. -/
theorem eq_col (i : S8192x1.Idx) : i = col (n := 8192) (i 0) := by
  funext a
  match a with
  | ⟨0, _⟩ => rfl
  | ⟨1, h1⟩ =>
    apply Fin.ext
    have h : (i ⟨1, h1⟩).val < 1 := (i ⟨1, h1⟩).isLt
    show (i ⟨1, h1⟩).val = 0
    omega

/-- The column of positions of a table of small words reads, signed, as the words' values. -/
theorem colIdx_toInt (n : BitVec 32) (idx : IVec S8192 32) (q : Fin 8192) (h : (idx (ix1 q)).toNat < 2 ^ 31) :
    (colIdx n idx (col q)).toInt = ((idx (ix1 q)).toNat : Int) := by
  rw [colIdx_col, wrapIdx_small n idx q h, toInt_eq_toNat_of_lt h]

/-! ## The range test of a take -/

/-- A left fold by and over one-bit words that are all 1, from 1, is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_one f hf l

/-- A reduction by and, from 1, of an array of ones is 1 at every index. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x hx _

/-- A select whose condition is 1 at an index reads its first operand there. -/
theorem select_eq_left {s : Shape} {α : Type} (c : IVec s 1) (a b : s.Idx → α) (j : s.Idx) (h : c j = 1#1) :
    select c a b j = a j := by
  rw [select_apply, h, select_one]

variable {F : FTy → Type} [FloatOps F]

/-- A take of rows by a table of positions that all lie inside the table reads the gathered rows: no position is
    negative, so none is wrapped, and the range test passes at every row. -/
theorem takeRows_apply {St : Shape} (n nm1 : BitVec 32) (gd : GatherDims St S8192x1 S8192x4096) (tab : FVec F St .f32)
    (idx : IVec S8192 32) (hm : nm1.toNat < 2 ^ 31) (hidx : ∀ q : Fin 8192, (idx (ix1 q)).toNat ≤ nm1.toNat)
    (j : S8192x4096.Idx) :
    takeRows n nm1 gd tab idx j = Host.gather gd tab (colIdx n idx) j := by
  unfold takeRows
  refine select_eq_left _ _ _ j ?_
  simp only [broadcastInDim]
  refine reduce_andi_of_all _ _ _ _ _ rfl fun i => ?_
  let q : Fin 8192 := i 0
  have hq : (idx (ix1 q)).toNat < 2 ^ 31 := lt_of_le_of_lt (hidx q) hm
  have hw : colIdx n idx i = idx (ix1 q) :=
    (congrArg (colIdx n idx) (eq_col i)).trans ((colIdx_col n idx q).trans (wrapIdx_small n idx q hq))
  show IntOp.andi (IntOp.cmpi .sge (colIdx n idx i) 0#32) (IntOp.cmpi .sle (colIdx n idx i) nm1) = 1#1
  rw [hw, (sge_iff_toNat hq (by decide)).2 (Nat.zero_le _), (sle_iff_toNat hq hm).2 (hidx q)]
  rfl

/-- The word of a number below 2³² has that number as its value. -/
theorem toNat_ofNat_lt (k : Nat) (hk : k < 2 ^ 32) : (BitVec.ofNat 32 k).toNat = k := by
  rw [BitVec.toNat_ofNat]; exact Nat.mod_eq_of_lt hk

/-- The gather of rows along a column of in-range positions reads the table's row at the position. -/
theorem gatherRows_apply {N : Nat} (gd : GatherDims ⟨2, ![N, 4096]⟩ S8192x1 S8192x4096)
    (hoff : gd.offsetDims = [1]) (hcoll : gd.collapsedSliceDims = [0]) (hob : gd.operandBatchingDims = [])
    (hsim : gd.startIndexMap = [0]) (hivd : gd.indexVectorDim = 1) (hss : gd.sliceSizes = ![1, 4096])
    (tab : FVec F ⟨2, ![N, 4096]⟩ .f32) (n : BitVec 32) (idx : IVec S8192 32) (p : Fin 8192) (t : Fin N) (i : Fin 4096)
    (ht : idx (ix1 p) = BitVec.ofNat 32 t.val) (hN : N < 2 ^ 31) :
    Host.gather gd tab (colIdx n idx) (ix2 p i) = tab (ix2 t i) := by
  have htl := t.isLt
  have hk : (idx (ix1 p)).toNat = t.val := by rw [ht]; exact toNat_ofNat_lt _ (by omega)
  have hq : (idx (ix1 p)).toNat < 2 ^ 31 := by rw [hk]; omega
  have hz : (colIdx n idx (ixP p)).toInt = (t.val : Int) := by
    rw [Cert.ScatterSet.toInt_ixP, colIdx_toInt n idx p hq, hk]
  rw [Cert.ScatterRows.gather_rows gd hoff hcoll hob hsim hivd hss tab (colIdx n idx) p i (by omega)]
  refine congrArg (fun r : Fin N => tab (ix2 r i)) (Fin.ext ?_)
  show min (colIdx n idx (ixP p)).toInt.toNat (N - 1) = t.val
  rw [hz]
  omega

/-! ## The two reshapes -/

/-- Row t of the tokens as 8192 rows is token (t / 2048, t % 2048). -/
theorem rowsFn_apply (x : FVec F S4x2048x4096 .f32) (t : Fin 8192) (i : Fin 4096) :
    rowsFn x (ix2 t i) = x (ix3 (tokB t) (tokS t) i) := by
  unfold rowsFn
  refine shapeCast_apply x _ _ _ ?_
  rw [Shape.rowMajor_val_three, Shape.rowMajor_val_two]
  show ((t.val / 2048) * 2048 + t.val % 2048) * 4096 + i.val = t.val * 4096 + i.val
  omega

/-- The result at token (t / 2048, t % 2048) is row t of the take. -/
theorem outFn_apply (yp : FVec F S10240x4096 .f32) (order dest : IVec S8192 32) (t : Fin 8192) (o : Fin 4096) :
    outFn yp order dest (ix3 (tokB t) (tokS t) o)
      = takeRows 10240#32 10239#32 gather_S10240x4096_S8192x1_S8192x4096_1_0_n_n_0_1_14096 yp (finalIdxFn order dest) (ix2 t o) := by
  unfold outFn
  refine shapeCast_apply _ _ _ _ ?_
  rw [Shape.rowMajor_val_three, Shape.rowMajor_val_two]
  show t.val * 4096 + o.val = ((t.val / 2048) * 2048 + t.val % 2048) * 4096 + o.val
  omega

/-! ## The routing read at one element -/

section
variable (order dest : IVec S8192 32) (σ : Fin 8192 → Fin 8192) (sl : Fin 8192 → Fin 10240)
  (hord : ∀ p : Fin 8192, order (ix1 p) = BitVec.ofNat 32 (σ p).val)
  (hdst : ∀ p : Fin 8192, dest (ix1 p) = BitVec.ofNat 32 (sl p).val)

include hord in
/-- The sorted table's words are the tokens' numbers. -/
theorem order_toNat (q : Fin 8192) : (order (ix1 q)).toNat = (σ q).val := by
  rw [hord q]; exact toNat_ofNat_lt _ (by have := (σ q).isLt; omega)

include hdst in
/-- The slot table's words are the slots' numbers. -/
theorem dest_toNat (q : Fin 8192) : (dest (ix1 q)).toNat = (sl q).val := by
  rw [hdst q]; exact toNat_ofNat_lt _ (by have := (sl q).isLt; omega)

include hord in
/-- The column of sorted tokens at row q reads, signed, as the token's number. -/
theorem colOrder_toInt (n : BitVec 32) (q : Fin 8192) : (colIdx n order (col q)).toInt = ((σ q).val : Int) := by
  have h := order_toNat order σ hord q
  rw [colIdx_toInt n order q (by rw [h]; have := (σ q).isLt; omega), h]

include hdst in
/-- The column of slots at row q reads, signed, as the slot's number. -/
theorem colDest_toInt (n : BitVec 32) (q : Fin 8192) : (colIdx n dest (col q)).toInt = ((sl q).val : Int) := by
  have h := dest_toNat dest sl hdst q
  rw [colIdx_toInt n dest q (by rw [h]; have := (sl q).isLt; omega), h]

include hord hdst

/-- The padded tokens at the slot of sorted position p hold the row of the token sorted there. -/
theorem xpadFn_slot (x : FVec Ideal S4x2048x4096 .f32) (hsl : Function.Injective sl) (p : Fin 8192) (i : Fin 4096) :
    xpadFn x order dest (ix2 (sl p) i) = x (ix3 (tokB (σ p)) (tokS (σ p)) i) := by
  have hinj : ∀ p' : Fin 8192, (colIdx 10240#32 dest (col p')).toInt = (colIdx 10240#32 dest (col p)).toInt → p' = p := by
    intro p' h
    rw [colDest_toInt dest sl hdst, colDest_toInt dest sl hdst] at h
    exact hsl (Fin.ext (by exact_mod_cast h))
  unfold xpadFn
  refine (Cert.ScatterSet.rows_hit (N := 10240) (D := 4096) (n := 8192) scatter_S10240x4096_S8192x1_S8192x4096_1_0_0_1
    rfl rfl rfl rfl _ (colIdx 10240#32 dest) _ p (sl p) i (colDest_toInt dest sl hdst _ p) hinj).trans ?_
  show takeRows 8192#32 8191#32 gather_S8192x4096_S8192x1_S8192x4096_1_0_n_n_0_1_14096 (rowsFn x) order (ix2 p i) = _
  rw [takeRows_apply _ _ _ _ _ (by decide) (fun q => by
      rw [order_toNat order σ hord q]; show (σ q).val ≤ 8191; have := (σ q).isLt; omega),
    gatherRows_apply (N := 8192) gather_S8192x4096_S8192x1_S8192x4096_1_0_n_n_0_1_14096 rfl rfl rfl rfl rfl rfl
      (rowsFn x) 8192#32 order p (σ p) i (hord p) (by decide),
    rowsFn_apply]

/-- Each token's recorded slot. -/
theorem finalIdxFn_tok (hσ : Function.Injective σ) (p : Fin 8192) :
    finalIdxFn order dest (ix1 (σ p)) = BitVec.ofNat 32 (sl p).val := by
  have hinj : ∀ p' : Fin 8192, (colIdx 8192#32 order (col p')).toInt = (colIdx 8192#32 order (col p)).toInt → p' = p := by
    intro p' h
    rw [colOrder_toInt order σ hord, colOrder_toInt order σ hord] at h
    exact hσ (Fin.ext (by exact_mod_cast h))
  unfold finalIdxFn
  rw [Cert.ScatterSet.vec_hit (N := 8192) (n := 8192) scatter_S8192_S8192x1_S8192_n_0_0_1 rfl rfl rfl rfl _
    (colIdx 8192#32 order) dest p (σ p) (colOrder_toInt order σ hord _ p) hinj]
  exact hdst p

/-- Every token's recorded slot is a word at most 10239: a slot where the token is sorted somewhere, else the
    zero the table starts from. -/
theorem finalIdxFn_le (hσ : Function.Injective σ) (q : Fin 8192) :
    (finalIdxFn order dest (ix1 q)).toNat ≤ 10239 := by
  by_cases h : ∃ p, σ p = q
  · obtain ⟨p, rfl⟩ := h
    rw [finalIdxFn_tok order dest σ sl hord hdst hσ p, toNat_ofNat_lt _ (by have := (sl p).isLt; omega)]
    have := (sl p).isLt; omega
  · have hmiss : ∀ p' : Fin 8192, (colIdx 8192#32 order (col p')).toInt ≠ (q.val : Int) := by
      intro p' e
      rw [colOrder_toInt order σ hord] at e
      exact h ⟨p', Fin.ext (by exact_mod_cast e)⟩
    unfold finalIdxFn
    rw [Cert.ScatterSet.vec_miss (N := 8192) (n := 8192) scatter_S8192_S8192x1_S8192_n_0_0_1 rfl rfl rfl rfl _
      (colIdx 8192#32 order) dest q hmiss]
    show (0#32).toNat ≤ 10239
    decide

/-- The result at the token sorted to p is the region's result at that position's slot. -/
theorem outFn_tok (yp : FVec Ideal S10240x4096 .f32) (hσ : Function.Injective σ) (p : Fin 8192) (o : Fin 4096) :
    outFn yp order dest (ix3 (tokB (σ p)) (tokS (σ p)) o) = yp (ix2 (sl p) o) := by
  rw [outFn_apply,
    takeRows_apply _ _ _ _ _ (by decide) (fun q => finalIdxFn_le order dest σ sl hord hdst hσ q),
    gatherRows_apply (N := 10240) gather_S10240x4096_S8192x1_S8192x4096_1_0_n_n_0_1_14096 rfl rfl rfl rfl rfl rfl
      yp 10240#32 (finalIdxFn order dest) (σ p) (sl p) o (finalIdxFn_tok order dest σ sl hord hdst hσ p) (by decide)]

end

end Cert.KernelIdeal.Host
end
-- ==== Proof.LibSortCount.lean ====
/-
  The stable argsort of a table of words that are all 0 or 1 lists exactly the zeros first.

  Let `key : Fin n → BitVec 32` and let `perm key` be the stable sort's map of positions under the signed
  order: entry `p` is the source position of the `p`-th smallest key. The map is a bijection of `Fin n`
  (the sort permutes), and it has no inversion: for `i < j` the key at `perm key j` is not signed-less than the
  key at `perm key i` (the signed order is a strict weak order, being the pull-back of `<` on the integers).
  When every key is 0 or 1, "no inversion" says: if position `j` of the sorted order holds a zero key then so
  does every earlier position. So the set `Z` of sorted positions holding a zero key is an initial segment of
  `Fin n`; a bijection carries it onto the set of zero keys, so it has `zeros key` elements; and an initial
  segment of `Fin n` with `k` elements is `{p | p < k}`. Hence `key (perm key p) = 0 ↔ p < zeros key`.

  Last, the two-operand sort that carries an iota (an argsort) on a rank-1 table: its second result at `p` is the
  carried operand at the source position `perm p`, so for an iota it is the word of that position.
-/
import Idealize.ShloMosaic.Lib.SortFacts
import Idealize.ShloMosaic.Lib.ValueIdx
import Mathlib.Order.Interval.Finset.Fin
import Mathlib.Data.Finset.Card

namespace Cert.SortCount
open Idealize.ShloMosaic Idealize.ShloMosaic.ValueIdx

/-- The stable argsort's map of positions for keys compared by signed less-than: entry p is the source position of the p-th smallest key. -/
def perm {n : Nat} (key : Fin n → BitVec 32) : Fin n → Fin n :=
  sortedFrom (fun k k' => IntOp.cmpi .slt (key k) (key k') == 1#1)

theorem perm_bijective {n : Nat} (key : Fin n → BitVec 32) : Function.Bijective (perm key) :=
  ⟨sortedFrom_injective _, sortedFrom_surjective _⟩

/-- The number of zero keys. -/
def zeros {n : Nat} (key : Fin n → BitVec 32) : Nat := (Finset.univ.filter fun t : Fin n => key t = 0#32).card

/-- The comparator "signed less-than is 1" is the Boolean "the integer of `a` is below the integer of `b`". -/
private theorem slt_beq (a b : BitVec 32) : (IntOp.cmpi .slt a b == 1#1) = decide (a.toInt < b.toInt) := by
  unfold IntOp.cmpi
  rw [← BitVec.slt_eq_decide]
  cases a.slt b <;> rfl

/-- No inversion: a later sorted position's key is not signed-less than an earlier one's. -/
private theorem perm_noInversion {n : Nat} (key : Fin n → BitVec 32) (i j : Fin n) (hij : i < j) :
    ¬ (key (perm key j)).toInt < (key (perm key i)).toInt := by
  have h := sortedFrom_noInversion (fun k k' => IntOp.cmpi .slt (key k) (key k') == 1#1)
    (fun k k' => IntOp.cmpi .slt (key k) (key k') == 1#1) ?_ ?_ ?_ i j hij
  · unfold perm
    simpa only [slt_beq, decide_eq_false_iff_not] using h
  · intro a b hab
    simp only [slt_beq, decide_eq_true_eq, decide_eq_false_iff_not] at hab ⊢
    omega
  · intro a b hab
    exact hab
  · intro a b c hab hbc
    simp only [slt_beq, decide_eq_false_iff_not] at hab hbc ⊢
    omega

/-- The sorted positions holding a zero key are closed downward, when every key is 0 or 1. -/
private theorem zero_down {n : Nat} (key : Fin n → BitVec 32) (h01 : ∀ t, key t = 0#32 ∨ key t = 1#32)
    (i j : Fin n) (hij : i < j) (hj : key (perm key j) = 0#32) : key (perm key i) = 0#32 := by
  have h := perm_noInversion key i j hij
  rcases h01 (perm key i) with h0 | h1
  · exact h0
  · exfalso
    apply h
    rw [hj, h1]
    decide

/-- The sorted positions holding a zero key are as many as the zero keys: `perm key` is a bijection between them. -/
private theorem card_zero_positions {n : Nat} (key : Fin n → BitVec 32) :
    (Finset.univ.filter fun p : Fin n => key (perm key p) = 0#32).card = zeros key := by
  unfold zeros
  refine Finset.card_bij (fun p _ => perm key p) ?_ ?_ ?_
  · intro p hp
    simpa only [Finset.mem_filter, Finset.mem_univ, true_and] using hp
  · intro p _ q _ hpq
    exact (perm_bijective key).1 hpq
  · intro t ht
    obtain ⟨p, rfl⟩ := (perm_bijective key).2 t
    exact ⟨p, by simpa only [Finset.mem_filter, Finset.mem_univ, true_and] using ht, rfl⟩

/-- A downward-closed set of positions is the initial segment of its cardinality. -/
private theorem mem_iff_lt_card_of_down {n : Nat} (Z : Finset (Fin n))
    (hdown : ∀ i j : Fin n, i < j → j ∈ Z → i ∈ Z) (p : Fin n) : p ∈ Z ↔ p.val < Z.card := by
  constructor
  · intro hp
    have hsub : Finset.Iic p ⊆ Z := by
      intro q hq
      rcases lt_or_eq_of_le (Finset.mem_Iic.mp hq) with hlt | heq
      · exact hdown q p hlt hp
      · exact heq ▸ hp
    have := Finset.card_le_card hsub
    rw [Fin.card_Iic] at this
    omega
  · intro hlt
    by_contra hp
    have hsub : Z ⊆ Finset.Iio p := by
      intro q hq
      rw [Finset.mem_Iio]
      by_contra hqp
      rcases lt_or_eq_of_le (not_lt.mp hqp) with hlt' | heq
      · exact hp (hdown p q hlt' hq)
      · exact hp (heq ▸ hq)
    have := Finset.card_le_card hsub
    rw [Fin.card_Iio] at this
    omega

/-- For keys that are all 0 or 1, the sorted order lists exactly the zero keys first. -/
theorem key_perm_eq_zero_iff {n : Nat} (key : Fin n → BitVec 32) (h01 : ∀ t, key t = 0#32 ∨ key t = 1#32) (p : Fin n) :
    key (perm key p) = 0#32 ↔ p.val < zeros key := by
  have h := mem_iff_lt_card_of_down (Finset.univ.filter fun p : Fin n => key (perm key p) = 0#32)
    (fun i j hij hj => by
      simp only [Finset.mem_filter, Finset.mem_univ, true_and] at hj ⊢
      exact zero_down key h01 i j hij hj) p
  rw [card_zero_positions] at h
  simpa only [Finset.mem_filter, Finset.mem_univ, true_and] using h

/-- The two spellings of the rank-1 index at `p` agree. -/
private theorem ofFin_eq_ix1 {n : Nat} (p : Fin n) : Shape.Idx.ofFin p = ix1 p := by
  funext d
  match d with
  | ⟨0, _⟩ => exact Fin.ext rfl

/-- jax's argsort (a two-operand sort carrying an iota) on a rank-1 table: the second result at p is the iota at the source position. Generic in the comparator on pairs. -/
theorem sort2_snd_rank1 {n : Nat} {α β : Type} (cmp : α × β → α × β → BitVec 1) (x : (⟨1, ![n]⟩ : Shape).Idx → α) (y : (⟨1, ![n]⟩ : Shape).Idx → β) (p : Fin n) :
    (Host.sort2 ⟨1, ![n]⟩ 0 cmp x y).2 (ix1 p)
      = y (ix1 (sortedFrom (fun k k' => cmp (x (ix1 k), y (ix1 k)) (x (ix1 k'), y (ix1 k')) == 1#1) p)) := by
  unfold Host.sort2
  simp [ofFin_eq_ix1]

/-- The argsort of a rank-1 table of words by their signed order (the comparator looks at the keys only), read at p: the word of the source position. -/
theorem argsort_apply {n : Nat} (hn : n ≤ 2 ^ 31) (x : IVec ⟨1, ![n]⟩ 32) (p : Fin n) :
    (Host.sort2 ⟨1, ![n]⟩ 0 (fun l r : BitVec 32 × BitVec 32 => IntOp.cmpi .slt l.1 r.1) x (iotaInDim ⟨1, ![n]⟩ 32 0)).2 (ix1 p)
      = BitVec.ofNat 32 (perm (fun k => x (ix1 k)) p).val := by
  have _ := hn
  rw [sort2_snd_rank1]
  rfl

end Cert.SortCount
-- ==== Proof.RouteWords.lean ====
/-
  The routing's words as natural numbers.

  The mask `mk` is a table of 8192 words; `z` is the number of its zero words. Everything the routing computes from
  the mask on 32-bit words is a small natural number (`z ≤ 8192`), so no word operation wraps and no signed
  division meets a corner:

  * the sum over the table of the widened bits "word = 0" is `z` (a sum of 0/1 words below 2³² is the count);
  * the floor division of `z + 1024 − 1` by `1024`, spelt as the truncated quotient less one where the signs differ
    and the remainder is not zero, is the natural quotient, both operands being positive; times `1024` it is
    `hiStart z = 1024 · ⌈z / 1024⌉`, the first slot of the high group;
  * sorted position `p` goes to slot `p` when `p < z` and to `hiStart z + (p − z)` otherwise (`slot z p`);
  * row tile `i` of ten takes weight number 1 exactly when `hiStart z ≤ 1024 · i`.

  On the natural numbers: `slot z` is injective (the low positions keep their place below `z ≤ hiStart z`, the high
  ones are shifted by `hiStart z − z`), stays below `10240` for `z ≤ 8192` and `p < 8192`
  (`hiStart z < z + 1024`), and a slot's tile starts at or past `hiStart z` exactly when its position is not low
  (`hiStart z` is a multiple of `1024`).
-/
import proofs.«415461_j65850438582285_3_alg».proof.Proof.KHost
import proofs.«415461_j65850438582285_3_alg».proof.Proof.LibSortCount
import Idealize.ShloMosaic.Lib.ValueIdx
import Idealize.ShloMosaic.Lib.StableHlo.Predicate

namespace Cert.Route
/-- The first slot of the high-precision group when z tokens are low-precision: z rounded up to a multiple of 1024. -/
def hiStart (z : Nat) : Nat := 1024 * ((z + 1023) / 1024)
/-- The slot of sorted position p. -/
def slot (z p : Nat) : Nat := if p < z then p else hiStart z + (p - z)

theorem slot_lt {z p : Nat} (hz : z ≤ 8192) (hp : p < 8192) : slot z p < 10240 := by
  unfold slot hiStart
  split <;> omega

theorem slot_inj {z p p' : Nat} (h : slot z p = slot z p') : p = p' := by
  unfold slot hiStart at h
  split at h <;> split at h <;> omega

/-- A slot lies in a tile of the high group exactly when its position is past the low tokens. -/
theorem slot_tile {z p : Nat} : hiStart z ≤ slot z p / 1024 * 1024 ↔ z ≤ p := by
  unfold slot hiStart
  split <;> omega
end Cert.Route

namespace Cert.KernelIdeal.Host
open Idealize.ShloMosaic Idealize.ShloMosaic.ValueIdx Cert.KernelIdeal Cert.KernelIdeal.Gen

/-- The number of zero words of the mask. -/
abbrev zerosOf (mk : IVec S8192 32) : Nat := Cert.SortCount.zeros (fun k : Fin 8192 => mk (ix1 k))

theorem zerosOf_le (mk : IVec S8192 32) : zerosOf mk ≤ 8192 := by
  unfold zerosOf Cert.SortCount.zeros
  exact (Finset.card_filter_le _ _).trans (by rw [Finset.card_univ, Fintype.card_fin])

/-! ## Small natural numbers as words -/

private theorem toNat_ofNat_lt (m : Nat) (hm : m < 2 ^ 31) : (BitVec.ofNat 32 m).toNat = m := by
  rw [BitVec.toNat_ofNat]; exact Nat.mod_eq_of_lt (by omega)

/-- Signed division of a small natural number by 1024 is the natural quotient: no corner, both signs positive. -/
private theorem divsi_1024 (u : ArithUnit) (m : Nat) (hm : m < 2 ^ 31) :
    IntOp.divsi u (BitVec.ofNat 32 m) 1024#32 = BitVec.ofNat 32 (m / 1024) := by
  have hcorner : ¬ IntOp.SDivCorner (BitVec.ofNat 32 m) 1024#32 := by
    intro hc; rcases hc with hc | ⟨_, hc⟩ <;> exact absurd hc (by decide)
  have htn := toNat_ofNat_lt m hm
  have hmsb : (BitVec.ofNat 32 m).msb = false := BitVec.msb_eq_false_iff_two_mul_lt.mpr (by rw [htn]; omega)
  apply BitVec.eq_of_toNat_eq
  rw [toNat_ofNat_lt (m / 1024) (by omega)]
  simp only [IntOp.divsi, if_neg hcorner, BitVec.sdiv_eq, hmsb, show (1024#32 : BitVec 32).msb = false from by decide,
    BitVec.udiv_eq, BitVec.toNat_udiv, htn]
  rfl

/-- The floor division by 1024 of a positive small natural number, read at an index. -/
private theorem floorDivFn_apply (a b : IVec S_ 32) (j : S_.Idx) (m : Nat) (hm0 : 0 < m) (hm : m < 2 ^ 31)
    (ha : a j = BitVec.ofNat 32 m) (hb : b j = 1024#32) : floorDivFn a b j = BitVec.ofNat 32 (m / 1024) := by
  show Scalar.select (IntOp.andi (IntOp.cmpi .ne (signi a j) (signi b j)) (IntOp.cmpi .ne (IntOp.remsi .host (a j) (b j)) 0#32))
    (IntOp.subi (IntOp.divsi .host (a j) (b j)) 1#32) (IntOp.divsi .host (a j) (b j)) = _
  have htn := toNat_ofNat_lt m hm
  have hsa : signi a j = 1#32 := by
    show (if a j = 0 then 0 else if (a j).msb then -1 else 1) = 1#32
    rw [ha]
    have h0 : BitVec.ofNat 32 m ≠ 0 := by
      intro h; have := congrArg BitVec.toNat h; rw [htn] at this; simp at this; omega
    have hmsb : (BitVec.ofNat 32 m).msb = false := BitVec.msb_eq_false_iff_two_mul_lt.mpr (by rw [htn]; omega)
    rw [if_neg h0, hmsb]; rfl
  have hsb : signi b j = 1#32 := by
    show (if b j = 0 then 0 else if (b j).msb then -1 else 1) = 1#32
    rw [hb]; decide
  rw [hsa, hsb, ha, hb, divsi_1024 _ m hm]
  have hne : IntOp.cmpi .ne (1#32 : BitVec 32) 1#32 = 0#1 := by decide
  rw [hne]
  unfold IntOp.andi Scalar.select
  rw [BitVec.zero_and, if_neg (by decide)]

/-! ## The count -/

theorem nlowFn_eq (mk : IVec S8192 32) : nlowFn mk = fun _ => BitVec.ofNat 32 (zerosOf mk) := by
  classical
  funext j
  have hz := zerosOf_le mk
  unfold nlowFn
  rw [Host.reduce_eq_fold]
  have hall : (Finset.univ.filter fun i : S8192.Idx => reducesTo_S8192_S_d0.drop i = j) = Finset.univ :=
    Finset.filter_true_of_mem fun i _ => funext fun a => a.elim0
  rw [hall]
  -- each summand is the indicator of "the word is zero"
  have hval : ∀ i : S8192.Idx, (extui 32 (cmpi .eq mk (splat8192 0#32)) natLt_1_32 i).toNat = if mk i = 0#32 then 1 else 0 := by
    intro i
    show ((IntOp.cmpi .eq (mk i) 0#32).setWidth 32).toNat = _
    rw [StableHlo.Predicate.toNat_setWidth_bit]
    simp only [StableHlo.Predicate.cmpi_eq_iff]
  have hsum : ∑ i : S8192.Idx, (extui 32 (cmpi .eq mk (splat8192 0#32)) natLt_1_32 i).toNat = zerosOf mk := by
    simp only [hval]
    rw [← Finset.card_filter]
    unfold zerosOf Cert.SortCount.zeros
    symm
    refine Finset.card_bij (fun k _ => ix1 k) ?_ ?_ ?_
    · intro k hk
      simpa only [Finset.mem_filter, Finset.mem_univ, true_and] using hk
    · intro k _ k' _ hkk
      exact congrFun hkk 0
    · intro i hi
      have hi' : mk i = 0#32 := (Finset.mem_filter.mp hi).2
      exact ⟨(i 0 : Fin 8192), Finset.mem_filter.mpr ⟨Finset.mem_univ _, (congrArg mk (eq_ix1 i)).symm.trans hi'⟩,
        (eq_ix1 i).symm⟩
  apply BitVec.eq_of_toNat_eq
  show (Finset.fold IntOp.addi 0#32 (extui 32 (cmpi .eq mk (splat8192 0#32)) natLt_1_32) Finset.univ).toNat = _
  rw [StableHlo.Predicate.toNat_fold_addi _ _ (by rw [hsum]; omega), hsum, BitVec.toNat_ofNat]
  exact (Nat.mod_eq_of_lt (by omega)).symm

theorem lowpadFn_eq (mk : IVec S8192 32) : lowpadFn mk = fun _ => BitVec.ofNat 32 (Cert.Route.hiStart (zerosOf mk)) := by
  funext j
  have hz := zerosOf_le mk
  have hfd : floorDivFn (subi (addi (nlowFn mk) (constantI S_ 32 1024#32)) (constantI S_ 32 1#32)) (id (constantI S_ 32 1024#32)) j
      = BitVec.ofNat 32 ((zerosOf mk + 1023) / 1024) := by
    refine floorDivFn_apply _ _ j (zerosOf mk + 1023) (by omega) (by omega) ?_ rfl
    show IntOp.subi (IntOp.addi (nlowFn mk j) 1024#32) 1#32 = _
    rw [nlowFn_eq]
    show BitVec.ofNat 32 (zerosOf mk) + 1024#32 - 1#32 = _
    apply BitVec.eq_of_toNat_eq
    rw [BitVec.toNat_sub_of_le, BitVec.toNat_add, toNat_ofNat_lt _ (show zerosOf mk < 2 ^ 31 by omega),
      toNat_ofNat_lt _ (show zerosOf mk + 1023 < 2 ^ 31 by omega)]
    · show (zerosOf mk + 1024) % 2 ^ 32 - 1 = _
      omega
    · rw [BitVec.le_def, BitVec.toNat_add, toNat_ofNat_lt _ (show zerosOf mk < 2 ^ 31 by omega)]
      show 1 ≤ (zerosOf mk + 1024) % 2 ^ 32
      omega
  show IntOp.muli 1024#32 (floorDivFn (subi (addi (nlowFn mk) (constantI S_ 32 1024#32)) (constantI S_ 32 1#32)) (id (constantI S_ 32 1024#32)) j) = _
  rw [hfd]
  unfold Cert.Route.hiStart
  apply BitVec.eq_of_toNat_eq
  show (1024#32 * BitVec.ofNat 32 ((zerosOf mk + 1023) / 1024)).toNat = _
  rw [BitVec.toNat_mul, toNat_ofNat_lt _ (show (zerosOf mk + 1023) / 1024 < 2 ^ 31 by omega),
    toNat_ofNat_lt _ (show 1024 * ((zerosOf mk + 1023) / 1024) < 2 ^ 31 by omega)]
  show 1024 * ((zerosOf mk + 1023) / 1024) % 2 ^ 32 = _
  omega

theorem destFn_apply (mk : IVec S8192 32) (p : Fin 8192) : destFn mk (ix1 p) = BitVec.ofNat 32 (Cert.Route.slot (zerosOf mk) p.val) := by
  have hz := zerosOf_le mk
  have hp := p.isLt
  have hhs : Cert.Route.hiStart (zerosOf mk) ≤ 9216 := by unfold Cert.Route.hiStart; omega
  have tp := toNat_ofNat_lt p.val (by omega)
  have tz := toNat_ofNat_lt (zerosOf mk) (by omega)
  have ths := toNat_ofNat_lt (Cert.Route.hiStart (zerosOf mk)) (by omega)
  unfold destFn
  rw [nlowFn_eq, lowpadFn_eq]
  show Scalar.select (IntOp.cmpi .slt (BitVec.ofNat 32 p.val) (BitVec.ofNat 32 (zerosOf mk))) (BitVec.ofNat 32 p.val)
    (IntOp.addi (BitVec.ofNat 32 (Cert.Route.hiStart (zerosOf mk)))
      (IntOp.subi (BitVec.ofNat 32 p.val) (BitVec.ofNat 32 (zerosOf mk)))) = _
  have hslt := StableHlo.Predicate.slt_iff_toNat (a := BitVec.ofNat 32 p.val) (b := BitVec.ofNat 32 (zerosOf mk))
    (by rw [tp]; omega) (by rw [tz]; omega)
  rw [tp, tz] at hslt
  unfold Cert.Route.slot
  by_cases hpz : p.val < zerosOf mk
  · rw [if_pos hpz, hslt.mpr hpz, select_one]
  · rw [if_neg hpz, eq_zero_of_ne_one (fun h => hpz (hslt.mp h)), select_zero]
    show BitVec.ofNat 32 (Cert.Route.hiStart (zerosOf mk)) + (BitVec.ofNat 32 p.val - BitVec.ofNat 32 (zerosOf mk)) = _
    apply BitVec.eq_of_toNat_eq
    rw [BitVec.toNat_add, BitVec.toNat_sub_of_le (by rw [BitVec.le_def, tp, tz]; omega), tp, tz, ths,
      toNat_ofNat_lt _ (show Cert.Route.hiStart (zerosOf mk) + (p.val - zerosOf mk) < 2 ^ 31 by omega)]
    omega

theorem gidFn_apply (mk : IVec S8192 32) (i : Fin 10) :
    gidFn mk (ix1 i) = if Cert.Route.hiStart (zerosOf mk) ≤ i.val * 1024 then 1#32 else 0#32 := by
  have hz := zerosOf_le mk
  have hi := i.isLt
  have hhs : Cert.Route.hiStart (zerosOf mk) ≤ 9216 := by unfold Cert.Route.hiStart; omega
  have ti := toNat_ofNat_lt i.val (by omega)
  have ths := toNat_ofNat_lt (Cert.Route.hiStart (zerosOf mk)) (by omega)
  unfold gidFn
  rw [lowpadFn_eq]
  show (IntOp.cmpi .sge (IntOp.muli (BitVec.ofNat 32 i.val) 1024#32) (BitVec.ofNat 32 (Cert.Route.hiStart (zerosOf mk)))).setWidth 32 = _
  have hmul : IntOp.muli (BitVec.ofNat 32 i.val) 1024#32 = BitVec.ofNat 32 (i.val * 1024) := by
    apply BitVec.eq_of_toNat_eq
    show (BitVec.ofNat 32 i.val * 1024#32).toNat = _
    rw [BitVec.toNat_mul, ti, toNat_ofNat_lt _ (show i.val * 1024 < 2 ^ 31 by omega)]
    show i.val * 1024 % 2 ^ 32 = _
    omega
  rw [hmul]
  have tm := toNat_ofNat_lt (i.val * 1024) (by omega)
  have hsge := StableHlo.Predicate.sge_iff_toNat (a := BitVec.ofNat 32 (i.val * 1024))
    (b := BitVec.ofNat 32 (Cert.Route.hiStart (zerosOf mk))) (by rw [tm]; omega) (by rw [ths]; omega)
  rw [tm, ths] at hsge
  by_cases hle : Cert.Route.hiStart (zerosOf mk) ≤ i.val * 1024
  · rw [if_pos hle, hsge.mpr hle]; rfl
  · rw [if_neg hle, eq_zero_of_ne_one (fun h => hle (hsge.mp h))]; rfl

/-- For a mask of 0/1 words, the row tile holding the slot of sorted position p has weight number = the mask word of the token sorted to p. -/
theorem gid_at_slot (mk : IVec S8192 32) (h01 : ∀ t : Fin 8192, mk (ix1 t) = 0#32 ∨ mk (ix1 t) = 1#32) (p : Fin 8192) :
    gidFn mk (ix1 (⟨Cert.Route.slot (zerosOf mk) p.val / 1024,
        by have := Cert.Route.slot_lt (zerosOf_le mk) p.isLt; omega⟩ : Fin 10))
      = mk (ix1 (Cert.SortCount.perm (fun k : Fin 8192 => mk (ix1 k)) p)) := by
  rw [gidFn_apply]
  show (if Cert.Route.hiStart (zerosOf mk) ≤ Cert.Route.slot (zerosOf mk) p.val / 1024 * 1024 then 1#32 else 0#32) = _
  have hk : mk (ix1 (Cert.SortCount.perm (fun k : Fin 8192 => mk (ix1 k)) p)) = 0#32 ↔ p.val < zerosOf mk :=
    Cert.SortCount.key_perm_eq_zero_iff (fun k : Fin 8192 => mk (ix1 k)) h01 p
  by_cases hpz : p.val < zerosOf mk
  · rw [hk.mpr hpz, if_neg (fun h => absurd (Cert.Route.slot_tile.mp h) (by omega))]
  · have h1 := (h01 (Cert.SortCount.perm (fun k : Fin 8192 => mk (ix1 k)) p)).resolve_left (fun h => hpz (hk.mp h))
    rw [h1, if_pos (Cert.Route.slot_tile.mpr (by omega))]

end Cert.KernelIdeal.Host
-- ==== Proof.Spec.lean ====
/-
  The mathematics both programs compute, stated once over literal shapes and importing no program.

  A token is row (b, s) of x : [4, 2048, 4096]. Its FLAG is whether the Euclidean norm of the row, times 1 plus 0,
  exceeds 64 (one host term, the same in both programs). A weight (o, i) has an 8-bit CODE whose bit p is bit
  (i mod 32) of word (p, o, i / 32) of the packed planes; the low four bits of that code are the 4-bit code. The
  dequantized weight is a table entry: row o of the 256-entry table at the 8-bit code (high precision) or row o of the
  16-entry table at the 4-bit code (low precision). The result at (b, s, o) is the inner product of the token with
  row o of the high-precision weights if the token's flag is set, else of the low-precision weights, plus bias o.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 4096]⟩
abbrev SQ : Shape := ⟨3, ![8, 4096, 128]⟩
abbrev SL4 : Shape := ⟨2, ![4096, 16]⟩
abbrev SL8 : Shape := ⟨2, ![4096, 256]⟩
abbrev SB : Shape := ⟨1, ![4096]⟩
abbrev SM : Shape := ⟨2, ![4, 2048]⟩
abbrev S0 : Shape := ⟨0, ![]⟩

/-- The token flags: `‖x[b, s, :]‖ · 1 + 0 > 64`, as the host computes it (the two programs print this one term). -/
def flag (x : Vec Ideal SX .f32) (hr : SX.ReducesTo [2] SM) (h0 : 0 < S0.numel)
    (hb : S0.BroadcastsInDim SM (![] : Fin 0 → Fin SM.rank)) : IVec SM 1 :=
  cmpf .ogt
    (addf
      (mulf (Host.sqrt (Host.reduceAdd (mulf x x) (constant (F := Ideal) S0 .f32 0x00000000#32) hr h0))
        (broadcastInDim SM ![] hb (constant (F := Ideal) S0 .f32 0x3F800000#32)))
      (broadcastInDim SM ![] hb (constant (F := Ideal) S0 .f32 0x00000000#32)))
    (broadcastInDim SM ![] hb (constant (F := Ideal) S0 .f32 0x42800000#32))

/-- Word (p, o, i / 32) of the packed planes. -/
def word (q : IVec SQ 32) (p : Fin 8) (o i : Fin 4096) : BitVec 32 :=
  q (ix3 p o (⟨i.val / 32, by have := i.isLt; omega⟩ : Fin 128))

/-- Bit p of the code of weight (o, i): bit (i mod 32) of its word, by an arithmetic shift and a mask. -/
def bit (q : IVec SQ 32) (p : Fin 8) (o i : Fin 4096) : BitVec 32 :=
  IntOp.andi (IntOp.shrsi .host (word q p o i) (BitVec.ofNat 32 (i.val % 32))) 1#32

/-- The 4-bit code of weight (o, i): bits 0 to 3, each shifted to its place, or-ed from zero in order. -/
def code4 (q : IVec SQ 32) (o i : Fin 4096) : BitVec 32 :=
  IntOp.ori (IntOp.ori (IntOp.ori (IntOp.ori 0#32
    (IntOp.shli .host (bit q 0 o i) 0#32)) (IntOp.shli .host (bit q 1 o i) 1#32))
    (IntOp.shli .host (bit q 2 o i) 2#32)) (IntOp.shli .host (bit q 3 o i) 3#32)

/-- The 8-bit code of weight (o, i): bits 0 to 7. -/
def code8 (q : IVec SQ 32) (o i : Fin 4096) : BitVec 32 :=
  IntOp.ori (IntOp.ori (IntOp.ori (IntOp.ori (code4 q o i)
    (IntOp.shli .host (bit q 4 o i) 4#32)) (IntOp.shli .host (bit q 5 o i) 5#32))
    (IntOp.shli .host (bit q 6 o i) 6#32)) (IntOp.shli .host (bit q 7 o i) 7#32)

/-- The low-precision weight (o, i): row o of the 16-entry table at the 4-bit code (read signed, kept inside the row). -/
def wLow (lut4 : Vec Ideal SL4 .f32) (q : IVec SQ 32) (o i : Fin 4096) : EReal :=
  lut4 (ix2 o (⟨min (code4 q o i).toInt.toNat 15, by omega⟩ : Fin 16))

/-- The high-precision weight (o, i): row o of the 256-entry table at the 8-bit code. -/
def wHigh (lut8 : Vec Ideal SL8 .f32) (q : IVec SQ 32) (o i : Fin 4096) : EReal :=
  lut8 (ix2 o (⟨min (code8 q o i).toInt.toNat 255, by omega⟩ : Fin 256))

/-- The weight a token of flag `g` meets. -/
def wSel (lut4 : Vec Ideal SL4 .f32) (lut8 : Vec Ideal SL8 .f32) (q : IVec SQ 32) (g : BitVec 1) (o i : Fin 4096) : EReal :=
  if g = 1#1 then wHigh lut8 q o i else wLow lut4 q o i

/-- THE RESULT: at (b, s, o) the token's inner product with row o of the weights its flag selects, plus bias o. -/
def Y (μ : IVec SM 1) (x : Vec Ideal SX .f32) (q : IVec SQ 32) (lut4 : Vec Ideal SL4 .f32) (lut8 : Vec Ideal SL8 .f32)
    (bias : Vec Ideal SB .f32) : Vec Ideal SX .f32 := fun j =>
  (∑ i : Fin 4096, x (ix3 (j 0) (j 1) i) * wSel lut4 lut8 q (μ (ix2 (j 0) (j 1))) (j 2) i) + bias (ix1 (j 2))

end Cert.Spec

end
-- ==== Proof.MaskFacts.lean ====
/-
  The mask words and the bias row, read at an index.

  The mask is the table of the token flags widened to 32-bit words and laid out row-major: token `t = 2048 · b + s`
  is row `(b, s)` of the `[4, 2048]` flags, since a reshape keeps the row-major position and
  `(t / 2048) · 2048 + t mod 2048 = t`. A widened one-bit word is 0 or 1, and it is 1 exactly when the bit is. At the
  idealized instance the flags are the specification's flags: the two are one host term over the same shapes. The bias
  laid out as a `[1, 4096]` row reads, at column `o`, the bias at `o`.
-/
import proofs.«415461_j65850438582285_3_alg».proof.Proof.KHost
import proofs.«415461_j65850438582285_3_alg».proof.Proof.Spec
import Idealize.ShloMosaic.PureOps.Ideal
import Idealize.ShloMosaic.Lib.ValueIdx
import Idealize.ShloMosaic.Lib.Pipeline.Value

namespace Cert.KernelIdeal.Host
open Idealize.ShloMosaic Idealize.ShloMosaic.ValueIdx Cert.KernelIdeal Cert.KernelIdeal.Gen
variable {F : FTy → Type} [FloatOps F]

/-- The mask word of token t = 2048·b + s is the flag of (b, s), widened. -/
theorem maskFn_apply (x : FVec F S4x2048x4096 .f32) (t : Fin 8192) :
    maskFn x (ix1 t)
      = (flagFn x (ix2 (⟨t.val / 2048, by have := t.isLt; omega⟩ : Fin 4) (⟨t.val % 2048, Nat.mod_lt _ (by decide)⟩ : Fin 2048))).setWidth 32 := by
  unfold maskFn
  rw [shapeCast_apply _ shapeCasts_S4x2048_S8192 (ix1 t)
    (ix2 (⟨t.val / 2048, by have := t.isLt; omega⟩ : Fin 4) (⟨t.val % 2048, Nat.mod_lt _ (by decide)⟩ : Fin 2048)) (by
      rw [Shape.rowMajor_val_two, Shape.rowMajor_val_one]
      show t.val / 2048 * 2048 + t.val % 2048 = t.val
      omega)]
  rfl

/-- Every mask word is 0 or 1. -/
theorem maskFn_zero_or_one (x : FVec F S4x2048x4096 .f32) (t : Fin 8192) : maskFn x (ix1 t) = 0#32 ∨ maskFn x (ix1 t) = 1#32 := by
  rw [maskFn_apply]
  rcases BitVec.eq_zero_or_eq_one (flagFn x (ix2 (⟨t.val / 2048, by have := t.isLt; omega⟩ : Fin 4)
    (⟨t.val % 2048, Nat.mod_lt _ (by decide)⟩ : Fin 2048))) with h | h
  · left; rw [h]; rfl
  · right; rw [h]; rfl

/-- A mask word is 1 exactly when the token's flag is set. -/
theorem maskFn_eq_one_iff (x : FVec F S4x2048x4096 .f32) (t : Fin 8192) :
    maskFn x (ix1 t) = 1#32 ↔ flagFn x (ix2 (⟨t.val / 2048, by have := t.isLt; omega⟩ : Fin 4) (⟨t.val % 2048, Nat.mod_lt _ (by decide)⟩ : Fin 2048)) = 1#1 := by
  rw [maskFn_apply]
  rcases BitVec.eq_zero_or_eq_one (flagFn x (ix2 (⟨t.val / 2048, by have := t.isLt; omega⟩ : Fin 4)
    (⟨t.val % 2048, Nat.mod_lt _ (by decide)⟩ : Fin 2048))) with h | h
  · rw [h]; decide
  · rw [h]; decide

/-- At the idealized instance the flags are the specification's (one host term). -/
theorem flagFn_eq_spec (x : FVec Ideal S4x2048x4096 .f32) :
    flagFn x = Cert.Spec.flag x reducesTo_S4x2048x4096_S4x2048_d2 h_S_ bcast_S_S4x2048 := rfl

/-- The bias row read at a column. -/
theorem biasRow_apply (b : FVec F S4096 .f32) (o : Fin 4096) : biasRow b (ix2 (0 : Fin 1) o) = b (ix1 o) := by
  unfold biasRow
  exact shapeCast_apply b shapeCasts_S4096_S1x4096 _ _ (by
    rw [Shape.rowMajor_val_two, Shape.rowMajor_val_one]
    show o.val = 0 * 4096 + o.val
    omega)

end Cert.KernelIdeal.Host
-- ==== Proof.CodeFacts.lean ====
/-
  Facts about the codes of the weights, free of any program. A bit of a code is a word masked with 1, so it is 0 or 1.
  Eight such bits moved to places 0 to 7 and or-ed from zero make a word below 256 whose low four places are the
  or of the first four: masking the 8-bit code with 15 gives the 4-bit code, which is therefore below 16.
-/
import proofs.«415461_j65850438582285_3_alg».proof.Proof.Spec

noncomputable section

namespace Cert.Spec

open Idealize.ShloMosaic Idealize.ShloMosaic.ValueIdx

/-- A word masked with 1 is 0 or 1: the mask keeps the word's value modulo 2. -/
theorem and_one_zero_or_one (x : BitVec 32) : IntOp.andi x 1#32 = 0#32 ∨ IntOp.andi x 1#32 = 1#32 := by
  unfold IntOp.andi
  have h : (x &&& 1#32).toNat = x.toNat % 2 := by
    rw [BitVec.toNat_and]; exact Nat.and_one_is_mod _
  rcases Nat.mod_two_eq_zero_or_one x.toNat with h2 | h2
  · left; apply BitVec.eq_of_toNat_eq; rw [h, h2]; rfl
  · right; apply BitVec.eq_of_toNat_eq; rw [h, h2]; rfl

/-- Each bit of a code is 0 or 1. -/
theorem bit_zero_or_one (q : IVec SQ 32) (p : Fin 8) (o i : Fin 4096) : bit q p o i = 0#32 ∨ bit q p o i = 1#32 :=
  and_one_zero_or_one _

/-- Eight words each 0 or 1, moved to places 0 to 7 and or-ed from zero in order: masking with 15 keeps places 0 to 3,
    and the whole is below 256. Decided over the 256 choices of the eight words. -/
theorem places_aux (b0 b1 b2 b3 b4 b5 b6 b7 : BitVec 32)
    (h0 : b0 = 0#32 ∨ b0 = 1#32) (h1 : b1 = 0#32 ∨ b1 = 1#32) (h2 : b2 = 0#32 ∨ b2 = 1#32) (h3 : b3 = 0#32 ∨ b3 = 1#32)
    (h4 : b4 = 0#32 ∨ b4 = 1#32) (h5 : b5 = 0#32 ∨ b5 = 1#32) (h6 : b6 = 0#32 ∨ b6 = 1#32) (h7 : b7 = 0#32 ∨ b7 = 1#32) :
    IntOp.andi
      (IntOp.ori (IntOp.ori (IntOp.ori (IntOp.ori
        (IntOp.ori (IntOp.ori (IntOp.ori (IntOp.ori 0#32
          (IntOp.shli .host b0 0#32)) (IntOp.shli .host b1 1#32)) (IntOp.shli .host b2 2#32)) (IntOp.shli .host b3 3#32))
        (IntOp.shli .host b4 4#32)) (IntOp.shli .host b5 5#32)) (IntOp.shli .host b6 6#32)) (IntOp.shli .host b7 7#32)) 15#32
      = IntOp.ori (IntOp.ori (IntOp.ori (IntOp.ori 0#32
          (IntOp.shli .host b0 0#32)) (IntOp.shli .host b1 1#32)) (IntOp.shli .host b2 2#32)) (IntOp.shli .host b3 3#32)
    ∧ (IntOp.ori (IntOp.ori (IntOp.ori (IntOp.ori
        (IntOp.ori (IntOp.ori (IntOp.ori (IntOp.ori 0#32
          (IntOp.shli .host b0 0#32)) (IntOp.shli .host b1 1#32)) (IntOp.shli .host b2 2#32)) (IntOp.shli .host b3 3#32))
        (IntOp.shli .host b4 4#32)) (IntOp.shli .host b5 5#32)) (IntOp.shli .host b6 6#32)) (IntOp.shli .host b7 7#32)).toNat < 256 := by
  rcases h0 with rfl | rfl <;> rcases h1 with rfl | rfl <;> rcases h2 with rfl | rfl <;> rcases h3 with rfl | rfl <;>
  rcases h4 with rfl | rfl <;> rcases h5 with rfl | rfl <;> rcases h6 with rfl | rfl <;> rcases h7 with rfl | rfl <;>
  decide

/-- The low four bits of the 8-bit code are the 4-bit code. -/
theorem code8_and_15 (q : IVec SQ 32) (o i : Fin 4096) : IntOp.andi (code8 q o i) 15#32 = code4 q o i := by
  unfold code8 code4
  exact (places_aux _ _ _ _ _ _ _ _ (bit_zero_or_one q 0 o i) (bit_zero_or_one q 1 o i) (bit_zero_or_one q 2 o i)
    (bit_zero_or_one q 3 o i) (bit_zero_or_one q 4 o i) (bit_zero_or_one q 5 o i) (bit_zero_or_one q 6 o i)
    (bit_zero_or_one q 7 o i)).1

/-- The 8-bit code is below 256. -/
theorem code8_lt (q : IVec SQ 32) (o i : Fin 4096) : (code8 q o i).toNat < 256 := by
  unfold code8 code4
  exact (places_aux _ _ _ _ _ _ _ _ (bit_zero_or_one q 0 o i) (bit_zero_or_one q 1 o i) (bit_zero_or_one q 2 o i)
    (bit_zero_or_one q 3 o i) (bit_zero_or_one q 4 o i) (bit_zero_or_one q 5 o i) (bit_zero_or_one q 6 o i)
    (bit_zero_or_one q 7 o i)).2

/-- The 4-bit code is below 16: it is a word masked with 15. -/
theorem code4_lt (q : IVec SQ 32) (o i : Fin 4096) : (code4 q o i).toNat < 16 := by
  rw [← code8_and_15]
  unfold IntOp.andi
  rw [BitVec.toNat_and]
  have : (code8 q o i).toNat &&& (15#32).toNat ≤ (15#32).toNat := Nat.and_le_right
  have h15 : (15#32).toNat = 15 := rfl
  omega

end Cert.Spec

end
-- ==== Proof.Weights.lean ====
/-
  The kernel program's stacked, dequantized weights read at one element are the specification's weights.

  The codes are laid out input-major. The planes are transposed to [8, 128, 4096]; plane p is broadcast along a middle axis of
  32 bit positions, shifted right by the position, masked with 1 and moved to place p; the eight terms are or-ed from zero in
  order and the [128, 32, 4096] array is merged row-major to [4096, 4096], so entry (i, o) of the merged array is entry
  (i / 32, i % 32, o), where plane p's term is bit (i % 32) of word (p, o, i / 32) at place p: the 8-bit code of weight (o, i).
  The 4-bit codes are those masked with 15. A code is below 256 (below 16), so in the take along the table's first axis no
  position is counted from the end, the in-range test (an `and` along a unit axis of two signed comparisons) is one
  everywhere, and the select takes the gather. The gather is batched over the output axis: at (i, o) it reads the transposed
  table at (code kept inside the table, o), that is row o of the table at the code. Narrowing to bf16 is the identity on the
  ideal values. The stack's matrix 0 is the low-precision matrix, matrix 1 the high-precision one.
-/
import proofs.«415461_j65850438582285_3_alg».proof.Proof.KHost
import proofs.«415461_j65850438582285_3_alg».proof.Proof.Spec
import proofs.«415461_j65850438582285_3_alg».proof.Proof.CodeFacts
import Idealize.ShloMosaic.PureOps.Ideal
import Idealize.ShloMosaic.PureOps.Reduce
import Idealize.ShloMosaic.Lib.ValueIdx
import Idealize.ShloMosaic.Lib.Pipeline.Value
import Idealize.ShloMosaic.Lib.StableHlo.Predicate

set_option maxRecDepth 16384

noncomputable section

namespace Cert.KernelIdeal.Host

open Idealize.ShloMosaic Idealize.ShloMosaic.ValueIdx Cert.KernelIdeal Cert.KernelIdeal.Gen

/-! ## Auxiliary facts -/

namespace Weights

/-- The word index and the bit position of input `i`: the merged axis puts input `i` at word `i / 32`, bit `i % 32`. -/
abbrev wi (i : Fin 4096) : Fin 128 := ⟨i.val / 32, by have := i.isLt; omega⟩
abbrev bi (i : Fin 4096) : Fin 32 := ⟨i.val % 32, Nat.mod_lt _ (by decide)⟩

section Gather
variable {α : Type}

theorem f0_notin_1 : (⟨0, by decide⟩ : Fin 2) ∉ ([1] : List (Fin 2)) := by decide
theorem f0_in_0 : (⟨0, by decide⟩ : Fin 2) ∈ ([0] : List (Fin 2)) := by decide
theorem f1_in_1 : (⟨1, by decide⟩ : Fin 2) ∈ ([1] : List (Fin 2)) := by decide

/-- The dimension numbers of a take along the first axis of a [N, 4096] table by a [4096, 4096] table of positions, column by
    column: operand axis 0 is collapsed and start-indexed, operand axis 1 is a batching axis paired with the positions' axis 1,
    the index vector lies on the positions' unit axis 2. -/
abbrev colDims (N : Nat)
    (wf : GatherDims.WF ⟨2, ![N, 4096]⟩ ⟨3, ![4096, 4096, 1]⟩ ⟨2, ![4096, 4096]⟩ [] [0] [1] [0] [1] 2 ![1, 1]) :
    GatherDims ⟨2, ![N, 4096]⟩ ⟨3, ![4096, 4096, 1]⟩ ⟨2, ![4096, 4096]⟩ where
  offsetDims := []
  collapsedSliceDims := [0]
  operandBatchingDims := [1]
  startIndicesBatchingDims := [1]
  startIndexMap := [0]
  indexVectorDim := 2
  sliceSizes := ![1, 1]
  wf := wf

/-- THE GATHER READ AT (i, o): column o of the table at the position `idx[i, o, 0]`, read signed and kept inside [0, N − 1]. -/
theorem gather_col_apply {N w : Nat} (hN : 0 < N)
    (wf : GatherDims.WF ⟨2, ![N, 4096]⟩ ⟨3, ![4096, 4096, 1]⟩ ⟨2, ![4096, 4096]⟩ [] [0] [1] [0] [1] 2 ![1, 1])
    (x : (⟨2, ![N, 4096]⟩ : Shape).Idx → α) (idx : IVec ⟨3, ![4096, 4096, 1]⟩ w) (i o : Fin 4096) :
    Host.gather (colDims N wf) x idx (ix2 i o)
      = x (ix2 (⟨min (idx (ix3 i o (0 : Fin 1))).toInt.toNat (N - 1), by omega⟩ : Fin N) o) := by
  unfold Host.gather
  congr 1
  funext a
  refine Fin.ext ?_
  show (colDims N wf).start (ix2 i o) idx a + (colDims N wf).batchCoord (ix2 i o) a + (colDims N wf).offCoord (ix2 i o) a = _
  match a with
  | ⟨0, _⟩ =>
    rw [GatherDims.batchCoord_eq_zero _ _ _ f0_notin_1,
      GatherDims.offCoord_eq_zero _ _ _ (fun h => ((GatherDims.mem_sKept _ _).mp h).1 f0_in_0)]
    simp only [Nat.add_zero]
    unfold GatherDims.start
    rw [dif_pos (show (⟨0, by decide⟩ : Fin 2) ∈ (colDims N wf).startIndexMap from f0_in_0)]
    have hsi : (colDims N wf).siIdx (ix2 i o) ⟨List.idxOf (⟨0, by decide⟩ : Fin 2) (colDims N wf).startIndexMap,
        List.idxOf_lt_length_iff.2 f0_in_0⟩ = ix3 i o (0 : Fin 1) := by
      funext b; refine Fin.ext ?_
      match b with
      | ⟨0, _⟩ => rfl
      | ⟨1, _⟩ => rfl
      | ⟨2, _⟩ => rfl
    rw [hsi]
    rfl
  | ⟨1, _⟩ =>
    rw [GatherDims.start_batching _ _ _ _ f1_in_1,
      GatherDims.offCoord_eq_zero _ _ _ (fun h => ((GatherDims.mem_sKept _ _).mp h).2 f1_in_1)]
    simp only [Nat.add_zero, Nat.zero_add]
    unfold GatherDims.batchCoord
    rw [dif_pos f1_in_1]
    rfl

end Gather

open Idealize.ShloMosaic.StableHlo.Predicate in
/-- A word below 2³¹ is not below zero, read signed. -/
theorem slt_zero_ne_one {c : BitVec 32} (h : c.toNat < 2 ^ 31) : IntOp.cmpi .slt c 0#32 ≠ 1#1 := by
  intro e
  have h0 : c.toNat < (0#32 : BitVec 32).toNat := (slt_iff_toNat h (by decide)).mp e
  have hz : (0#32 : BitVec 32).toNat = 0 := rfl
  omega

/-- Positions that are all small and non-negative are their own wrapped positions: none is counted from the end. -/
theorem wrap_eq (n : BitVec 32) (idx : IVec S4096x4096 32) (h : ∀ j, (idx j).toNat < 2 ^ 31) :
    select (cmpi .slt idx (broadcastInDim S4096x4096 ![] bcast_S_S4096x4096 (constantI S_ 32 0#32)))
      (addi idx (broadcastInDim S4096x4096 ![] bcast_S_S4096x4096 (constantI S_ 32 n))) idx = idx := by
  funext j
  show Scalar.select (IntOp.cmpi .slt (idx j) 0#32) _ _ = idx j
  exact if_neg (slt_zero_ne_one (h j))

/-- An `and` of ones from one is one, over any set. -/
theorem fold_andi_ones {ι : Type} [DecidableEq ι] (S : Finset ι) :
    S.fold IntOp.andi (1#1) (fun _ => (1#1 : BitVec 1)) = 1#1 := by
  induction S using Finset.induction_on with
  | empty => rfl
  | insert a s ha ih => rw [Finset.fold_insert ha, ih]; rfl

/-- The `and` along the unit axis of an array of ones is one. -/
theorem reduce_andi_ones (X : IVec S4096x4096x1 1) (hX : ∀ k, X k = 1#1) (j : S4096x4096.Idx) :
    Host.reduce IntOp.andi X (constantI S_ 1 1#1) reducesTo_S4096x4096x1_S4096x4096_d2 h_S_ j = 1#1 := by
  obtain rfl : X = fun _ => 1#1 := funext hX
  rw [Host.reduce_eq_fold]
  exact fold_andi_ones _

theorem toNat_255 : (255#32 : BitVec 32).toNat = 255 := rfl
theorem toNat_15 : (15#32 : BitVec 32).toNat = 15 := rfl

/-- The positions as a [4096, 4096, 1] column read at (i, o, 0) are the positions at (i, o). -/
theorem col_apply (idx : IVec S4096x4096 32) (i o : Fin 4096) :
    shapeCast S4096x4096x1 idx shapeCasts_S4096x4096_S4096x4096x1 (ix3 i o (0 : Fin 1)) = idx (ix2 i o) :=
  shapeCast_apply _ _ _ (ix2 i o) (by
    rw [Shape.rowMajor_val_two, Shape.rowMajor_val_three]
    show i.val * 4096 + o.val = (i.val * 4096 + o.val) * 1 + 0
    omega)

end Weights

open Weights

/-! ## The codes, input-major -/

/-- One plane's term at (i / 32, i % 32, o): bit p of the code of weight (o, i), moved to place `sh`. -/
theorem planeTerm_apply (p : Fin 8) (off : Fin 3 → Nat) (h0 : off 0 = p.val) (h1 : off 1 = 0) (h2 : off 2 = 0)
    (hs : S8x128x4096.Slices off S1x128x4096) (sh : BitVec 32) (q : IVec S8x4096x128 32) (i o : Fin 4096) :
    planeTerm off hs sh (planesT q) (ix3 (wi i) (bi i) o) = IntOp.shli .host (Cert.Spec.bit q p o i) sh := by
  unfold planeTerm Cert.Spec.bit
  show IntOp.shli .host (IntOp.andi (IntOp.shrsi .host _ _) 1#32) sh = _
  congr 3
  · -- the word
    refine (broadcastInDim_apply _ _ _ _ (ix3 (wi i) (0 : Fin 1) o) (fun a => match a with | ⟨0, _⟩ => rfl | ⟨1, _⟩ => rfl | ⟨2, _⟩ => rfl)).trans ?_
    refine (broadcastInDim_apply _ _ _ _ (ix2 (wi i) o) (fun a => match a with | ⟨0, _⟩ => rfl | ⟨1, _⟩ => rfl)).trans ?_
    refine (shapeCast_apply _ _ _ (ix3 (0 : Fin 1) (wi i) o) (by
      rw [Shape.rowMajor_val_two, Shape.rowMajor_val_three]
      show ((0 : Nat) * 128 + i.val / 32) * 4096 + o.val = (i.val / 32) * 4096 + o.val
      omega)).trans ?_
    refine (extractStridedSlice_apply _ _ _ _ (ix3 p (wi i) o) (fun a => match a with
      | ⟨0, _⟩ => by show p.val = off 0 + 0; omega
      | ⟨1, _⟩ => by show i.val / 32 = off 1 + i.val / 32; omega
      | ⟨2, _⟩ => by show o.val = off 2 + o.val; omega)).trans ?_
    unfold planesT
    refine (transpose_apply _ _ _ _ (ix3 p o (wi i)) (fun b => match b with | ⟨0, _⟩ => rfl | ⟨1, _⟩ => rfl | ⟨2, _⟩ => rfl)).trans ?_
    rfl
  · -- the bit position
    refine (broadcastInDim_apply _ _ _ _ (ix3 (0 : Fin 1) (bi i) (0 : Fin 1)) (fun a => match a with | ⟨0, _⟩ => rfl | ⟨1, _⟩ => rfl | ⟨2, _⟩ => rfl)).trans ?_
    unfold shifts
    refine (shapeCast_apply _ _ _ (ix1 (bi i)) (by
      rw [Shape.rowMajor_val_one, Shape.rowMajor_val_three]
      show i.val % 32 = ((0 : Nat) * 32 + i.val % 32) * 1 + 0
      omega)).trans ?_
    rfl

/-- The 8-bit codes laid out [input, output]: entry (i, o) is the code of weight (o, i). The merged axis puts input `i` at word
    `i / 32`, bit `i % 32`. -/
theorem codes8T_apply (q : IVec S8x4096x128 32) (i o : Fin 4096) : codes8T q (ix2 i o) = Cert.Spec.code8 q o i := by
  unfold codes8T
  refine (shapeCast_apply _ _ _ (ix3 (wi i) (bi i) o) (by
    rw [Shape.rowMajor_val_three, Shape.rowMajor_val_two]
    show (i.val / 32 * 32 + i.val % 32) * 4096 + o.val = i.val * 4096 + o.val
    omega)).trans ?_
  simp only [ori]
  rw [planeTerm_apply 0 ![0, 0, 0] rfl rfl rfl, planeTerm_apply 1 ![1, 0, 0] rfl rfl rfl, planeTerm_apply 2 ![2, 0, 0] rfl rfl rfl,
    planeTerm_apply 3 ![3, 0, 0] rfl rfl rfl, planeTerm_apply 4 ![4, 0, 0] rfl rfl rfl, planeTerm_apply 5 ![5, 0, 0] rfl rfl rfl,
    planeTerm_apply 6 ![6, 0, 0] rfl rfl rfl, planeTerm_apply 7 ![7, 0, 0] rfl rfl rfl]
  rfl

/-- The 4-bit codes laid out [input, output]. -/
theorem codes4T_apply (q : IVec S8x4096x128 32) (i o : Fin 4096) : codes4T q (ix2 i o) = Cert.Spec.code4 q o i := by
  unfold codes4T
  show IntOp.andi (codes8T q (ix2 i o)) 15#32 = _
  rw [codes8T_apply]
  exact Cert.Spec.code8_and_15 q o i

/-! ## The take along the table's first axis -/

section Take
variable {F : FTy → Type} [FloatOps F]

open Idealize.ShloMosaic.StableHlo.Predicate in
/-- Where every position is between 0 and `nm1`, the take is the gather: nothing is wrapped, the in-range test holds. -/
theorem takeAlong_apply {St : Shape} (n nm1 : BitVec 32) (gd : GatherDims St S4096x4096x1 S4096x4096) (tab : FVec F St .f32)
    (idx : IVec S4096x4096 32) (hnm1 : nm1.toNat < 2 ^ 31) (hidx : ∀ j, (idx j).toNat ≤ nm1.toNat) (j : S4096x4096.Idx) :
    takeAlong n nm1 gd tab idx j
      = Host.gather gd tab (shapeCast S4096x4096x1 idx shapeCasts_S4096x4096_S4096x4096x1) j := by
  unfold takeAlong
  rw [wrap_eq n idx (fun j => by have := hidx j; omega)]
  show Scalar.select (Host.reduce IntOp.andi _ _ _ _ j) _ _ = _
  rw [reduce_andi_ones _ (fun k => by
    show IntOp.andi (IntOp.cmpi .sge (shapeCast S4096x4096x1 idx shapeCasts_S4096x4096_S4096x4096x1 k) 0#32)
      (IntOp.cmpi .sle (shapeCast S4096x4096x1 idx shapeCasts_S4096x4096_S4096x4096x1 k) nm1) = 1#1
    obtain ⟨k', hk'⟩ : ∃ k', shapeCast S4096x4096x1 idx shapeCasts_S4096x4096_S4096x4096x1 k = idx k' := ⟨_, rfl⟩
    have hk := hidx k'
    rw [hk', (sge_iff_toNat (by omega) (by decide)).mpr (Nat.zero_le _), (sle_iff_toNat (by omega) hnm1).mpr hk]
    rfl) j]
  exact select_one _ _

end Take

/-! ## The dequantized matrices and their stack -/

/-- The high-precision weights, [input, output], at (i, o): row o of the 256-entry table at the 8-bit code of weight (o, i). -/
theorem wHighT_apply (q : IVec S8x4096x128 32) (lut8 : FVec Ideal S4096x256 .f32) (i o : Fin 4096) :
    wHighT q lut8 (ix2 i o) = Cert.Spec.wHigh lut8 q o i := by
  unfold wHighT
  refine Eq.trans (truncf_apply (φ := FTy.f32) (ψ := FTy.bf16) _ bitsLt_bf16_f32 (ix2 i o)) ?_
  rw [takeAlong_apply 256#32 255#32 _ _ _ (by decide) (fun j => by
    have e : codes8T q j = Cert.Spec.code8 q (j 1) (j 0) :=
      (congrArg (codes8T q) (eq_ix2 (n0 := 4096) (n1 := 4096) j)).trans (codes8T_apply q (j 0) (j 1))
    rw [e, toNat_255]; have := Cert.Spec.code8_lt q (j 1) (j 0); omega) (ix2 i o)]
  refine (gather_col_apply (N := 256) (by decide) _ _ _ i o).trans ?_
  have hw : shapeCast S4096x4096x1 (codes8T q) shapeCasts_S4096x4096_S4096x4096x1 (ix3 i o (0 : Fin 1)) = Cert.Spec.code8 q o i :=
    (col_apply _ i o).trans (codes8T_apply q i o)
  refine (transpose_apply _ _ _ _ (ix2 o (⟨min (Cert.Spec.code8 q o i).toInt.toNat 255, by omega⟩ : Fin 256)) (fun b => match b with
    | ⟨0, _⟩ => by
      show min (Cert.Spec.code8 q o i).toInt.toNat 255 = min (_ : BitVec 32).toInt.toNat (256 - 1)
      rw [hw]
    | ⟨1, _⟩ => rfl)).trans ?_
  rfl

/-- The low-precision weights, [input, output], at (i, o): row o of the 16-entry table at the 4-bit code of weight (o, i). -/
theorem wLowT_apply (q : IVec S8x4096x128 32) (lut4 : FVec Ideal S4096x16 .f32) (i o : Fin 4096) :
    wLowT q lut4 (ix2 i o) = Cert.Spec.wLow lut4 q o i := by
  unfold wLowT
  refine Eq.trans (truncf_apply (φ := FTy.f32) (ψ := FTy.bf16) _ bitsLt_bf16_f32 (ix2 i o)) ?_
  rw [takeAlong_apply 16#32 15#32 _ _ _ (by decide) (fun j => by
    have e : codes4T q j = Cert.Spec.code4 q (j 1) (j 0) :=
      (congrArg (codes4T q) (eq_ix2 (n0 := 4096) (n1 := 4096) j)).trans (codes4T_apply q (j 0) (j 1))
    rw [e, toNat_15]; have := Cert.Spec.code4_lt q (j 1) (j 0); omega) (ix2 i o)]
  refine (gather_col_apply (N := 16) (by decide) _ _ _ i o).trans ?_
  have hw : shapeCast S4096x4096x1 (codes4T q) shapeCasts_S4096x4096_S4096x4096x1 (ix3 i o (0 : Fin 1)) = Cert.Spec.code4 q o i :=
    (col_apply _ i o).trans (codes4T_apply q i o)
  refine (transpose_apply _ _ _ _ (ix2 o (⟨min (Cert.Spec.code4 q o i).toInt.toNat 15, by omega⟩ : Fin 16)) (fun b => match b with
    | ⟨0, _⟩ => by
      show min (Cert.Spec.code4 q o i).toInt.toNat 15 = min (_ : BitVec 32).toInt.toNat (16 - 1)
      rw [hw]
    | ⟨1, _⟩ => rfl)).trans ?_
  rfl

/-- The stacked weights: matrix 0 is the low-precision one, matrix 1 the high-precision one, each [input, output]. -/
theorem wStack_apply (q : IVec S8x4096x128 32) (lut4 : FVec Ideal S4096x16 .f32) (lut8 : FVec Ideal S4096x256 .f32)
    (g : Fin 2) (i o : Fin 4096) :
    wStack q lut4 lut8 (ix3 g i o) = if g.val = 0 then Cert.Spec.wLow lut4 q o i else Cert.Spec.wHigh lut8 q o i := by
  unfold wStack
  by_cases hg : g.val = 0
  · rw [if_pos hg]
    refine (concatenate_pair_apply_left (s₁ := S1x4096x4096) (s₂ := S1x4096x4096) 0 _ _ _ (ix3 g i o) rfl (ix3 (0 : Fin 1) i o) (fun b => match b with
      | ⟨0, _⟩ => hg.symm
      | ⟨1, _⟩ => rfl
      | ⟨2, _⟩ => rfl)).trans ?_
    refine (broadcastInDim_apply _ _ _ _ (ix2 i o) (fun a => match a with | ⟨0, _⟩ => rfl | ⟨1, _⟩ => rfl)).trans ?_
    exact wLowT_apply q lut4 i o
  · rw [if_neg hg]
    have hg1 : g.val = 1 := by have := g.isLt; omega
    refine (concatenate_pair_apply_right (s₁ := S1x4096x4096) (s₂ := S1x4096x4096) 0 _ _ _ (ix3 g i o) rfl rfl (ix3 (0 : Fin 1) i o) (fun b hb => match b, hb with
      | ⟨0, _⟩, hb => absurd rfl hb
      | ⟨1, _⟩, _ => rfl
      | ⟨2, _⟩, _ => rfl) (by show 0 + 1 = g.val; omega)).trans ?_
    refine (broadcastInDim_apply _ _ _ _ (ix2 i o) (fun a => match a with | ⟨0, _⟩ => rfl | ⟨1, _⟩ => rfl)).trans ?_
    exact wHighT_apply q lut8 i o

end Cert.KernelIdeal.Host

end
-- ==== Proof.HostValue.lean ====
import proofs.«415461_j65850438582285_3_alg».proof.Proof.RouteReads
import proofs.«415461_j65850438582285_3_alg».proof.Proof.RouteWords
import proofs.«415461_j65850438582285_3_alg».proof.Proof.MaskFacts
import proofs.«415461_j65850438582285_3_alg».proof.Proof.Weights
import proofs.«415461_j65850438582285_3_alg».proof.Proof.Spec
import proofs.«415461_j65850438582285_3_alg».proof.Proof.LibSortCount
import Idealize.ShloMosaic.PureOps.Ideal
import Idealize.ShloMosaic.Lib.ValueIdx
import Mathlib.Algebra.BigOperators.Group.Finset.Basic

/-!
# The routing closed

The sorted table is a bijection σ of the tokens (position p holds token σ p), and position p's slot sl p is injective in
p. Token t is sorted to exactly one position p. The gathered result at t is the region's result at row sl p; that row is,
by hypothesis, the inner product of padded-token row sl p, which is token t's row, with the weight matrix the row's tile
names, plus the bias; the tile's weight number is the mask word of token t, which is the token's flag. So the result at t is
the token's inner product with the weights its flag selects, plus the bias: the specification.
-/

open scoped BigOperators

noncomputable section

namespace Cert.KernelIdeal.Host
open Idealize.ShloMosaic Idealize.ShloMosaic.ValueIdx Cert.KernelIdeal Cert.KernelIdeal.Gen

/-! ## The sorted order and the slots, as functions of the mask -/

/-- The token sorted to position p. -/
def sigmaOf (mk : IVec S8192 32) : Fin 8192 → Fin 8192 := Cert.SortCount.perm (fun k : Fin 8192 => mk (ix1 k))

/-- The slot of sorted position p. -/
def slotOf (mk : IVec S8192 32) (p : Fin 8192) : Fin 10240 :=
  ⟨Cert.Route.slot (zerosOf mk) p.val, Cert.Route.slot_lt (zerosOf_le mk) p.isLt⟩

theorem sigmaOf_bijective (mk : IVec S8192 32) : Function.Bijective (sigmaOf mk) :=
  Cert.SortCount.perm_bijective _

theorem slotOf_injective (mk : IVec S8192 32) : Function.Injective (slotOf mk) :=
  fun _ _ h => Fin.ext (Cert.Route.slot_inj (congrArg Fin.val h))

/-- The printed comparator of the sort: signed less-than on the keys. -/
theorem comparator_eq :
    comparator_i32_i32_d0 = fun l r : BitVec 32 × BitVec 32 => IntOp.cmpi .slt l.1 r.1 := rfl

/-- The sorted table at position p is the word of the token the stable argsort of the mask puts there. -/
theorem orderFn_apply (mk : IVec S8192 32) (p : Fin 8192) :
    orderFn mk (ix1 p) = BitVec.ofNat 32 (sigmaOf mk p).val := by
  unfold orderFn sigmaOf
  rw [comparator_eq]
  exact Cert.SortCount.argsort_apply (by norm_num) mk p

/-- The slot table at position p is the word of the position's slot. -/
theorem destFn_slotOf (mk : IVec S8192 32) (p : Fin 8192) :
    destFn mk (ix1 p) = BitVec.ofNat 32 (slotOf mk p).val :=
  destFn_apply mk p

/-- The tile of position p's slot has, as its weight number, the mask word of the token sorted to p. -/
theorem gid_at_slotOf (mk : IVec S8192 32) (h01 : ∀ t : Fin 8192, mk (ix1 t) = 0#32 ∨ mk (ix1 t) = 1#32) (p : Fin 8192)
    (h : (slotOf mk p).val / 1024 < 10) :
    gidFn mk (ix1 (⟨(slotOf mk p).val / 1024, h⟩ : Fin 10)) = mk (ix1 (sigmaOf mk p)) :=
  gid_at_slot mk h01 p

/-- The stacked weights at the matrix a 0/1 word names: the high-precision weight when the word is 1, else the low. -/
theorem wStack_word (q : IVec S8x4096x128 32) (lut4 : FVec Ideal S4096x16 .f32) (lut8 : FVec Ideal S4096x256 .f32)
    (w : BitVec 32) (hw : w = 0#32 ∨ w = 1#32) (h : min w.toNat 1 < 2) (i o : Fin 4096) :
    wStack q lut4 lut8 (ix3 (⟨min w.toNat 1, h⟩ : Fin 2) i o)
      = if w = 1#32 then Cert.Spec.wHigh lut8 q o i else Cert.Spec.wLow lut4 q o i := by
  rw [wStack_apply]
  rcases hw with rfl | rfl
  · have hc : (⟨min (0#32).toNat 1, h⟩ : Fin 2).val = 0 := rfl
    rw [if_pos hc, if_neg (by decide)]
  · have hc : ¬ (⟨min (1#32).toNat 1, h⟩ : Fin 2).val = 0 :=
      fun e => absurd (show min (1#32).toNat 1 = 0 from e) (by decide)
    rw [if_neg hc, if_pos rfl]

/-- The specification at one token and one output column. -/
theorem specY_apply (μ : IVec Cert.Spec.SM 1) (x : FVec Ideal S4x2048x4096 .f32) (q : IVec S8x4096x128 32)
    (lut4 : FVec Ideal S4096x16 .f32) (lut8 : FVec Ideal S4096x256 .f32) (b : FVec Ideal S4096 .f32)
    (b' : Fin 4) (s : Fin 2048) (o : Fin 4096) :
    Cert.Spec.Y μ x q lut4 lut8 b (ix3 b' s o)
      = (∑ i : Fin 4096, x (ix3 b' s i) * Cert.Spec.wSel lut4 lut8 q (μ (ix2 b' s)) o i) + b (ix1 o) := rfl

/-- The mask word of token t = 2048·b' + s is 1 exactly when the token's flag is. -/
theorem mask_one_iff_flag (x : FVec Ideal S4x2048x4096 .f32) (t : Fin 8192) (b' : Fin 4) (s : Fin 2048)
    (hb : tokB t = b') (hs : tokS t = s) :
    maskFn x (ix1 t) = 1#32 ↔
      Cert.Spec.flag x reducesTo_S4x2048x4096_S4x2048_d2 h_S_ bcast_S_S4x2048 (ix2 b' s) = 1#1 := by
  subst hb hs
  rw [maskFn_eq_one_iff x t, flagFn_eq_spec x]

/-- One term of the inner product: the padded token's entry times the stacked weight the tile names is the token's entry
    times the weight its flag selects. -/
theorem term_eq (x : FVec Ideal S4x2048x4096 .f32) (q : IVec S8x4096x128 32) (lut4 : FVec Ideal S4096x16 .f32)
    (lut8 : FVec Ideal S4096x256 .f32) (p : Fin 8192) (b' : Fin 4) (s : Fin 2048) (o i : Fin 4096)
    (hb : tokB (sigmaOf (maskFn x) p) = b') (hs : tokS (sigmaOf (maskFn x) p) = s)
    (h10 : (slotOf (maskFn x) p).val / 1024 < 10)
    (h2 : min (gidFn (maskFn x) (ix1 (⟨(slotOf (maskFn x) p).val / 1024, h10⟩ : Fin 10))).toNat 1 < 2) :
    xpadFn x (orderFn (maskFn x)) (destFn (maskFn x)) (ix2 (slotOf (maskFn x) p) i)
        * wStack q lut4 lut8 (ix3 (⟨min (gidFn (maskFn x) (ix1 (⟨(slotOf (maskFn x) p).val / 1024, h10⟩ : Fin 10))).toNat 1, h2⟩ : Fin 2) i o)
      = x (ix3 b' s i) * Cert.Spec.wSel lut4 lut8 q
          (Cert.Spec.flag x reducesTo_S4x2048x4096_S4x2048_d2 h_S_ bcast_S_S4x2048 (ix2 b' s)) o i := by
  have h01 : ∀ k : Fin 8192, maskFn x (ix1 k) = 0#32 ∨ maskFn x (ix1 k) = 1#32 := maskFn_zero_or_one x
  have hg := gid_at_slotOf (maskFn x) h01 p h10
  have hflag := mask_one_iff_flag x (sigmaOf (maskFn x) p) b' s hb hs
  have ex := xpadFn_slot (orderFn (maskFn x)) (destFn (maskFn x)) (sigmaOf (maskFn x)) (slotOf (maskFn x))
    (orderFn_apply (maskFn x)) (destFn_slotOf (maskFn x)) x (slotOf_injective (maskFn x)) p i
  rw [hb, hs] at ex
  rw [ex, wStack_word q lut4 lut8 _ (by rw [hg]; exact h01 _) h2, hg]
  unfold Cert.Spec.wSel
  by_cases hm : maskFn x (ix1 (sigmaOf (maskFn x) p)) = 1#32
  · rw [if_pos hm, if_pos (hflag.1 hm)]
  · rw [if_neg hm, if_neg (fun h => hm (hflag.2 h))]

/-- The routing closed at one token (b', s) and one output column o. -/
theorem host_value_at (x : FVec Ideal S4x2048x4096 .f32) (q : IVec S8x4096x128 32) (lut4 : FVec Ideal S4096x16 .f32)
    (lut8 : FVec Ideal S4096x256 .f32) (b : FVec Ideal S4096 .f32) (yp : FVec Ideal S10240x4096 .f32)
    (hyp : ∀ (r : Fin 10240) (o : Fin 4096),
      yp (ix2 r o)
        = (∑ i : Fin 4096, xpadFn x (orderFn (maskFn x)) (destFn (maskFn x)) (ix2 r i)
              * wStack q lut4 lut8 (ix3 (⟨min (gidFn (maskFn x) (ix1 (⟨r.val / 1024, by have := r.isLt; omega⟩ : Fin 10))).toNat 1, by omega⟩ : Fin 2) i o))
          + biasRow b (ix2 (0 : Fin 1) o))
    (j : S4x2048x4096.Idx) {b' : Fin 4} {s : Fin 2048} {o : Fin 4096} (hj : j = ix3 b' s o) :
    outFn yp (orderFn (maskFn x)) (destFn (maskFn x)) j
      = Cert.Spec.Y (Cert.Spec.flag x reducesTo_S4x2048x4096_S4x2048_d2 h_S_ bcast_S_S4x2048) x q lut4 lut8 b j := by
  subst hj
  -- the token, its sorted position and that position's slot
  have hbl := b'.isLt
  have hsl' := s.isLt
  obtain ⟨p, hp⟩ := (sigmaOf_bijective (maskFn x)).2 (⟨2048 * b'.val + s.val, by omega⟩ : Fin 8192)
  have hb : tokB (sigmaOf (maskFn x) p) = b' := by
    rw [hp]; exact Fin.ext (by show (2048 * b'.val + s.val) / 2048 = b'.val; omega)
  have hs : tokS (sigmaOf (maskFn x) p) = s := by
    rw [hp]; exact Fin.ext (by show (2048 * b'.val + s.val) % 2048 = s.val; omega)
  -- the gathered result at the token is the region's result at its slot
  have e1 := outFn_tok (orderFn (maskFn x)) (destFn (maskFn x)) (sigmaOf (maskFn x)) (slotOf (maskFn x))
    (orderFn_apply (maskFn x)) (destFn_slotOf (maskFn x)) yp (sigmaOf_bijective (maskFn x)).1 p o
  rw [hb, hs] at e1
  rw [e1, hyp (slotOf (maskFn x) p) o, biasRow_apply, specY_apply]
  exact congrArg₂ (fun u v : EReal => u + v)
    (Finset.sum_congr rfl fun i _ => term_eq x q lut4 lut8 p b' s o i hb hs _ _) rfl

/-- The routing closed: a region result that is, row by row, the routed tokens' inner products with the weight matrix the row's tile names, plus the bias, gathers back to the specification. -/
theorem host_value (x : FVec Ideal S4x2048x4096 .f32) (q : IVec S8x4096x128 32) (lut4 : FVec Ideal S4096x16 .f32)
    (lut8 : FVec Ideal S4096x256 .f32) (b : FVec Ideal S4096 .f32) (yp : FVec Ideal S10240x4096 .f32)
    (hyp : ∀ (r : Fin 10240) (o : Fin 4096),
      yp (ix2 r o)
        = (∑ i : Fin 4096, xpadFn x (orderFn (maskFn x)) (destFn (maskFn x)) (ix2 r i)
              * wStack q lut4 lut8 (ix3 (⟨min (gidFn (maskFn x) (ix1 (⟨r.val / 1024, by have := r.isLt; omega⟩ : Fin 10))).toNat 1, by omega⟩ : Fin 2) i o))
          + biasRow b (ix2 (0 : Fin 1) o)) :
    outFn yp (orderFn (maskFn x)) (destFn (maskFn x))
      = Cert.Spec.Y (Cert.Spec.flag x reducesTo_S4x2048x4096_S4x2048_d2 h_S_ bcast_S_S4x2048) x q lut4 lut8 b := by
  funext j
  exact host_value_at x q lut4 lut8 b yp hyp j (eq_ix3 j)

end Cert.KernelIdeal.Host
end
-- ==== Proof.Bridge.lean ====
/-
  The idealized kernel program's run ends with its result at the specification: the frame run names the region's result
  array and the lines after it; the region's result is the routed inner products; the host functions around it route
  each token to a row tile whose weight number is the token's flag, and gather the rows back.
-/
import proofs.«415461_j65850438582285_3_alg».proof.Proof.FrameKernelIdeal
import proofs.«415461_j65850438582285_3_alg».proof.Proof.OkKernelIdeal
import proofs.«415461_j65850438582285_3_alg».proof.Proof.KArr
import proofs.«415461_j65850438582285_3_alg».proof.Proof.KPrefix
import proofs.«415461_j65850438582285_3_alg».proof.Proof.KPrefixW
import proofs.«415461_j65850438582285_3_alg».proof.Proof.KTail
import proofs.«415461_j65850438582285_3_alg».proof.Proof.Region
import proofs.«415461_j65850438582285_3_alg».proof.Proof.HostValue

noncomputable section

namespace Cert.KernelIdeal.Bridge

open Idealize.ShloMosaic Idealize.SL.Sem Idealize.ShloMosaic.TcCoe Idealize.ShloMosaic.ValueIdx
open Cert.KernelIdeal Cert.KernelIdeal.Gen Cert.KernelIdeal.GenP Cert.KernelIdeal.Host

variable (m : (ℓ : Loc nD τ sig) → Buf (Elt Ideal) ℓ)

/-- The specification at the arguments the program was launched with. -/
abbrev specOf (c : Dev nD) : FVec Ideal S4x2048x4096 .f32 :=
  Cert.Spec.Y
    (Cert.Spec.flag (m ((c : Thread nD τ).loc main_arg0)) reducesTo_S4x2048x4096_S4x2048_d2 h_S_ bcast_S_S4x2048)
    (m ((c : Thread nD τ).loc main_arg0)) (m ((c : Thread nD τ).loc main_arg1)) (m ((c : Thread nD τ).loc main_arg2))
    (m ((c : Thread nD τ).loc main_arg3)) (m ((c : Thread nD τ).loc main_arg4))

/-- What the lines after the region leave in the result buffer is the specification. -/
theorem kernel_value (hO : Ok m) (c : Dev nD) :
    (Pipeline.afterTail pcfgs (fun _ => adm m hO) (dats m hO) 0 (V0 m) [hostOps1, hostOps1_1, hostOps1_2] c main_v158 : FVec Ideal S4x2048x4096 .f32)
      = specOf m c := by
  obtain rfl : c = 0 := Subsingleton.elim _ _
  rw [tail_out, V_order, V_dest]
  unfold specOf
  rw [← V_main_arg0 m 0, ← V_main_arg1 m 0, ← V_main_arg2 m 0, ← V_main_arg3 m 0, ← V_main_arg4 m 0]
  refine host_value _ _ _ _ _ _ (fun r o => ?_)
  have h := ypad_apply m hO 0 r o
  have hg : tbl m 0 = _ := V_gid m 0
  -- the table under the tile's bounded index is replaced with the index as a whole, its bound with it
  have key : ∀ (T G : IVec S10 32), T = G → ∀ (j : S10.Idx) (p : min (T j).toNat 1 < 2) (p' : min (G j).toNat 1 < 2),
      (⟨min (T j).toNat 1, p⟩ : Fin 2) = ⟨min (G j).toNat 1, p'⟩ := by
    intro T G hTG j p p'; subst hTG; rfl
  simp only [ypad, xpad, wst, b2d, gid] at h
  rw [V_xpad, V_wst, V_b2d, key (tbl m 0) _ hg _ _ (Nat.lt_succ_of_le (Nat.min_le_right _ 1))] at h
  exact h

/-- Every weakly fair execution of the idealized kernel program terminates with its result at the specification and
    its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v158) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v158 (by decide : main_v158 ∈ Pipeline.restRefs sig spec0)).trans (kernel_value m (ok_all m) c),
      ((h c).2 main_arg0 (by decide : main_arg0 ∈ Pipeline.restRefs sig spec0)).trans (W_main_arg0 m (ok_all m) (dats m (ok_all m)) c),
      ((h c).2 main_arg1 (by decide : main_arg1 ∈ Pipeline.restRefs sig spec0)).trans (W_main_arg1 m (ok_all m) (dats m (ok_all m)) c),
      ((h c).2 main_arg2 (by decide : main_arg2 ∈ Pipeline.restRefs sig spec0)).trans (W_main_arg2 m (ok_all m) (dats m (ok_all m)) c),
      ((h c).2 main_arg3 (by decide : main_arg3 ∈ Pipeline.restRefs sig spec0)).trans (W_main_arg3 m (ok_all m) (dats m (ok_all m)) c),
      ((h c).2 main_arg4 (by decide : main_arg4 ∈ Pipeline.restRefs sig spec0)).trans (W_main_arg4 m (ok_all m) (dats m (ok_all m)) c)⟩)
    (run_main m ρ (ok_all m))

end Cert.KernelIdeal.Bridge

end
-- ==== Proof.RefFacts.lean ====
/-
  Program-free facts the reading of the reference needs: a bit of a code from a read of the packed planes, the
  arithmetic of the row-major merges, the positions of a take along an axis at a small non-negative code, a conjunction
  folded along an axis of extent one, a gather of one entry per row, one bit plane's stretch of operations read at an
  index, and a select between two sums.
-/
import proofs.«415461_j65850438582285_3_alg».proof.Proof.Spec
import Idealize.ShloMosaic.Lib.StableHlo.Predicate
import Idealize.ShloMosaic.PureOps.Reduce
import Idealize.ShloMosaic.Lib.ValueIdx
import Idealize.ShloMosaic.Lib.Pipeline.Value

noncomputable section

namespace Cert.ReferenceIdeal.Bridge

open Idealize.ShloMosaic Idealize.ShloMosaic.ValueIdx Idealize.ShloMosaic.StableHlo.Predicate

/-! ## A bit of a code -/

/-- The word of input position i. -/
theorem div32_lt (i : Fin 4096) : i.val / 32 < 128 := by have := i.isLt; omega

/-- The planes read at (p, o, i / 32), shifted right by i mod 32 and masked, is bit p of the code of weight (o, i). -/
theorem bit_of_read (q : IVec Cert.Spec.SQ 32) (p : Fin 8) (o i : Fin 4096) (j : Cert.Spec.SQ.Idx) (t : Nat)
    (h0 : (j 0).val = p.val) (h1 : (j 1).val = o.val) (h2 : (j 2).val = i.val / 32) (ht : t = i.val % 32) :
    IntOp.andi (IntOp.shrsi .host (q j) (BitVec.ofNat 32 t)) 1#32 = Cert.Spec.bit q p o i := by
  have hj : j = ix3 p o (⟨i.val / 32, div32_lt i⟩ : Fin 128) :=
    funext fun a => Fin.ext (by
      match a with
      | ⟨0, _⟩ => exact h0
      | ⟨1, _⟩ => exact h1
      | ⟨2, _⟩ => exact h2)
  subst ht
  rw [hj]
  rfl

/-! ## The positions of a take at a small non-negative code -/

/-- A non-negative position is not wrapped. -/
theorem wrap_small (c n : BitVec 32) (hc : c.toNat < 2 ^ 31) :
    Scalar.select (IntOp.cmpi .slt c 0#32) (IntOp.addi c n) c = c := by
  have h : ¬ IntOp.cmpi .slt c 0#32 = 1#1 := by
    rw [slt_iff_toNat hc (by decide)]
    simp
  rw [eq_zero_of_ne_one h, select_zero]

/-- A position between zero and the last one passes the range test. -/
theorem inrange_small (c : BitVec 32) (hi : Nat) (hc : c.toNat < 2 ^ 31) (hhi : hi < 2 ^ 31) (hle : c.toNat ≤ hi) :
    IntOp.andi (IntOp.cmpi .sge c 0#32) (IntOp.cmpi .sle c (BitVec.ofNat 32 hi)) = 1#1 := by
  have e : (BitVec.ofNat 32 hi).toNat = hi := by
    rw [BitVec.toNat_ofNat]
    exact Nat.mod_eq_of_lt (by omega)
  rw [(sge_iff_toNat hc (by decide)).mpr (Nat.zero_le _),
    (sle_iff_toNat hc (by rw [e]; exact hhi)).mpr (by rw [e]; exact hle)]
  rfl

/-! ## The arithmetic of the row-major merges

Entry (a, b) of a [4096, 4096] array is entry (a, b / 32, b mod 32) of the [4096, 128, 32] array it merges, and entry
(a, b / 32) of a [4096, 128] array is entry (0, a, b / 32) of the [1, 4096, 128] array it merges. -/

theorem merge_row (a b : Nat) (ha : a < 4096) (hb : b < 4096) :
    ((a * 4096 + b) / 4096 * 128 + (a * 4096 + b) / 32 % 128) / 128 % 4096 = a := by omega

theorem merge_word (a b : Nat) (ha : a < 4096) (hb : b < 4096) :
    ((a * 4096 + b) / 4096 * 128 + (a * 4096 + b) / 32 % 128) % 128 = b / 32 := by omega

theorem merge_pos (a b : Nat) : (a * 4096 + b) % 32 = b % 32 := by omega

theorem unit_row (a b : Nat) (hb : b < 4096) : ((a * 4096 + b) * 1 + 0) / 4096 = a := by omega

theorem unit_col (a b : Nat) (hb : b < 4096) : ((a * 4096 + b) * 1 + 0) % 4096 = b := by omega

/-! ## A conjunction folded along an axis of extent one -/

abbrev SI : Shape := ⟨3, ![4096, 4096, 1]⟩
abbrev SW : Shape := ⟨2, ![4096, 4096]⟩

theorem reduces_SI_SW : SI.Reduces [2] SW := by decide

/-- The one source index over (o, i). -/
theorem lift_SI (j : SW.Idx) (k : Fin (SI.size 2)) : reduces_SI_SW.lift j k = ix3 (j 0) (j 1) (0 : Fin 1) := by
  funext a
  refine Fin.ext ?_
  rw [Shape.Reduces.lift_val]
  match a with
  | ⟨0, _⟩ => rfl
  | ⟨1, _⟩ => rfl
  | ⟨2, _⟩ => exact Nat.lt_one_iff.mp k.isLt

/-- A fold over an index range of one entry is that entry and the initial value. -/
theorem fold_fin_one {β : Type} (n : Nat) (hn : n = 1) (op : β → β → β) [Std.Commutative op] [Std.Associative op] (b : β)
    (f : Fin n → β) : (Finset.univ : Finset (Fin n)).fold op b f = op (f ⟨0, by omega⟩) b := by
  subst hn
  rw [Finset.univ_unique, Finset.fold_singleton]
  rfl

/-- Folding a conjunction along the last axis, of extent one, from an initial bit: the one entry and the initial bit. -/
theorem reduce_and_unit (x : IVec SI 1) (init : IVec Cert.Spec.S0 1) (h' : SI.ReducesTo [2] SW) (hu : 0 < Cert.Spec.S0.numel)
    (j : SW.Idx) :
    Host.reduce IntOp.andi x init h' hu j = IntOp.andi (x (ix3 (j 0) (j 1) (0 : Fin 1))) (init (Shape.Idx.first hu)) := by
  rw [Host.reduce_eq_fold_single IntOp.andi x init h' reduces_SI_SW hu j]
  rw [fold_fin_one (SI.size 2) rfl]
  show IntOp.andi (x (reduces_SI_SW.lift j _)) _ = _
  rw [lift_SI]
  rfl

/-! ## A gather of one entry per row -/

/-- A table of 4096 rows of N entries. -/
abbrev ST (N : Nat) : Shape := ⟨2, ![4096, N]⟩

/-- The dimension numbers of a take along axis 1: row o of the table is read at the position (o, i) names, one entry. -/
abbrev rowTakeDims (N : Nat) (wf : GatherDims.WF (ST N) SI SW [] [1] [0] [1] [0] 2 ![1, 1]) : GatherDims (ST N) SI SW where
  offsetDims := []
  collapsedSliceDims := [1]
  operandBatchingDims := [0]
  startIndicesBatchingDims := [0]
  startIndexMap := [1]
  indexVectorDim := 2
  sliceSizes := ![1, 1]
  wf := wf

/-- On the batching axis the operand index is the result's row. -/
theorem rowTake_axis0 {N w : Nat} (wf : GatherDims.WF (ST N) SI SW [] [1] [0] [1] [0] 2 ![1, 1]) (idx : IVec SI w) (y : SW.Idx) :
    ((rowTakeDims N wf).operandIdx y idx 0).val = (y 0).val := by
  show (rowTakeDims N wf).start y idx 0 + (rowTakeDims N wf).batchCoord y 0 + (rowTakeDims N wf).offCoord y 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin (ST N).rank) ∈ (rowTakeDims N wf).operandBatchingDims from List.mem_singleton.mpr rfl)]
  rfl

/-- On the collapsed axis the operand index is the position, read signed and kept inside the row. -/
theorem rowTake_axis1 {N w : Nat} (wf : GatherDims.WF (ST N) SI SW [] [1] [0] [1] [0] 2 ![1, 1]) (idx : IVec SI w) (y : SW.Idx) :
    ((rowTakeDims N wf).operandIdx y idx 1).val = min (idx (ix3 (y 0) (y 1) (0 : Fin 1))).toInt.toNat (N - 1) := by
  show (rowTakeDims N wf).start y idx 1 + (rowTakeDims N wf).batchCoord y 1 + (rowTakeDims N wf).offCoord y 1 = _
  rw [GatherDims.batchCoord_eq_zero _ _ _ (fun h => absurd (List.mem_singleton.mp h) (show (1 : Fin 2) ≠ 0 by decide)),
    GatherDims.offCoord_eq_zero _ _ _ (fun h => ((GatherDims.mem_sKept _ _).mp h).1 (List.mem_singleton.mpr rfl))]
  simp only [Nat.add_zero]
  unfold GatherDims.start
  rw [dif_pos (show (1 : Fin (ST N).rank) ∈ (rowTakeDims N wf).startIndexMap from List.mem_singleton.mpr rfl)]
  have hsi : (rowTakeDims N wf).siIdx y ⟨List.idxOf (1 : Fin (ST N).rank) (rowTakeDims N wf).startIndexMap,
      List.idxOf_lt_length_iff.2 (List.mem_singleton.mpr rfl)⟩ = ix3 (y 0) (y 1) (0 : Fin 1) := by
    funext b; refine Fin.ext ?_
    match b with
    | ⟨0, _⟩ => rfl
    | ⟨1, _⟩ => rfl
    | ⟨2, _⟩ => rfl
  rw [hsi]
  rfl

/-- THE TAKE READ AT (o, i): row o of the table at the position, read signed and kept inside the row. -/
theorem gather_rowTake_apply {α : Type} {N w : Nat} (hN : 0 < N)
    (wf : GatherDims.WF (ST N) SI SW [] [1] [0] [1] [0] 2 ![1, 1]) (x : (ST N).Idx → α) (idx : IVec SI w) (y : SW.Idx) :
    Host.gather (rowTakeDims N wf) x idx y
      = x (ix2 (y 0) (⟨min (idx (ix3 (y 0) (y 1) (0 : Fin 1))).toInt.toNat (N - 1), by omega⟩ : Fin N)) := by
  unfold Host.gather
  congr 1
  funext a
  refine Fin.ext ?_
  match a with
  | ⟨0, _⟩ => exact rowTake_axis0 wf idx y
  | ⟨1, _⟩ => exact rowTake_axis1 wf idx y

/-! ## One plane's stretch, read at an index

The reference computes every bit plane of the codes by the same stretch of operations: the plane is sliced out of the
packed words, reshaped to [4096, 128], broadcast along a new last axis of the 32 positions inside a word, shifted right
(arithmetically) by the position, masked with 1, and merged row-major into [4096, 4096]. Stated once, for plane p, over
the shape facts a program supplies: at (o, i) the stretch holds bit p of the code of weight (o, i). -/

abbrev SP1 : Shape := ⟨3, ![1, 4096, 128]⟩
abbrev SP2 : Shape := ⟨2, ![4096, 128]⟩
abbrev SP3 : Shape := ⟨3, ![4096, 128, 1]⟩
abbrev SP4 : Shape := ⟨3, ![4096, 128, 32]⟩
abbrev SL32 : Shape := ⟨1, ![32]⟩
abbrev SR32 : Shape := ⟨3, ![1, 1, 32]⟩

/-- The position of input i inside its word. -/
theorem mod32_lt (i : Fin 4096) : i.val % 32 < 32 := Nat.mod_lt _ (by decide)

theorem plane_apply (p : Fin 8) (q : IVec Cert.Spec.SQ 32)
    (hs : Cert.Spec.SQ.Slices ![p.val, 0, 0] SP1) (hc1 : SP1.ShapeCasts SP2)
    (hb1 : SP2.BroadcastsInDim SP3 (![0, 1] : Fin 2 → Fin SP3.rank))
    (hb2 : SP3.BroadcastsInDim SP4 (![0, 1, 2] : Fin 3 → Fin SP4.rank))
    (hi1 : SL32.BroadcastsInDim SR32 (![2] : Fin 1 → Fin SR32.rank))
    (hi2 : SR32.BroadcastsInDim SP4 (![0, 1, 2] : Fin 3 → Fin SP4.rank))
    (ho : Cert.Spec.S0.BroadcastsInDim SP4 (![] : Fin 0 → Fin SP4.rank))
    (hc2 : SP4.ShapeCasts SW) (i : SW.Idx) :
    shapeCast SW
      (andi
        (Host.shrsi
          (broadcastInDim SP4 ![0, 1, 2] hb2
            (broadcastInDim SP3 ![0, 1] hb1 (shapeCast SP2 (extractStridedSlice SP1 ![p.val, 0, 0] q hs) hc1)))
          (broadcastInDim SP4 ![0, 1, 2] hi2 (broadcastInDim SR32 ![2] hi1 (iotaInDim SL32 32 0))))
        (broadcastInDim SP4 ![] ho (constantI Cert.Spec.S0 32 1#32))) hc2 i
      = Cert.Spec.bit q p (i 0) (i 1) := by
  -- entry (o, i) of the merged array is entry (o, i / 32, i mod 32) of the array of bits
  rw [shapeCast_apply _ hc2 i
    (ix3 (i 0) (⟨(i 1).val / 32, div32_lt (i 1)⟩ : Fin 128) (⟨(i 1).val % 32, mod32_lt (i 1)⟩ : Fin 32))
    (by
      rewrite [Shape.rowMajor_val_three, Shape.rowMajor_val_two]
      have hb : (i 1).val < 4096 := (i 1).isLt
      show ((i 0).val * 128 + (i 1).val / 32) * 32 + (i 1).val % 32 = (i 0).val * 4096 + (i 1).val
      omega)]
  -- there the broadcast word is word (p, o, i / 32) of the planes
  have e1 : broadcastInDim SP4 ![0, 1, 2] hb2
        (broadcastInDim SP3 ![0, 1] hb1 (shapeCast SP2 (extractStridedSlice SP1 ![p.val, 0, 0] q hs) hc1))
        (ix3 (i 0) (⟨(i 1).val / 32, div32_lt (i 1)⟩ : Fin 128) (⟨(i 1).val % 32, mod32_lt (i 1)⟩ : Fin 32))
      = q (ix3 p (i 0) (⟨(i 1).val / 32, div32_lt (i 1)⟩ : Fin 128)) := by
    rw [broadcastInDim_apply _ hb2 _ _ (ix3 (i 0) (⟨(i 1).val / 32, div32_lt (i 1)⟩ : Fin 128) (0 : Fin 1)) (fun a => match a with
        | ⟨0, _⟩ => by show (i 0).val = if (4096 : Nat) = 1 then 0 else (i 0).val; rw [if_neg (by decide)]
        | ⟨1, _⟩ => by show (i 1).val / 32 = if (128 : Nat) = 1 then 0 else (i 1).val / 32; rw [if_neg (by decide)]
        | ⟨2, _⟩ => by show 0 = if (1 : Nat) = 1 then 0 else (i 1).val % 32; rw [if_pos rfl]),
      broadcastInDim_apply _ hb1 _ _ (ix2 (i 0) (⟨(i 1).val / 32, div32_lt (i 1)⟩ : Fin 128)) (fun a => match a with
        | ⟨0, _⟩ => by show (i 0).val = if (4096 : Nat) = 1 then 0 else (i 0).val; rw [if_neg (by decide)]
        | ⟨1, _⟩ => by show (i 1).val / 32 = if (128 : Nat) = 1 then 0 else (i 1).val / 32; rw [if_neg (by decide)]),
      shapeCast_apply _ hc1 _ (ix3 (0 : Fin 1) (i 0) (⟨(i 1).val / 32, div32_lt (i 1)⟩ : Fin 128))
        (by
          rewrite [Shape.rowMajor_val_three, Shape.rowMajor_val_two]
          show (0 * 4096 + (i 0).val) * 128 + (i 1).val / 32 = (i 0).val * 128 + (i 1).val / 32
          omega),
      extractStridedSlice_apply _ q hs _ (ix3 p (i 0) (⟨(i 1).val / 32, div32_lt (i 1)⟩ : Fin 128)) (fun a => match a with
        | ⟨0, _⟩ => by show p.val = p.val + 0; omega
        | ⟨1, _⟩ => by show (i 0).val = 0 + (i 0).val; omega
        | ⟨2, _⟩ => by show (i 1).val / 32 = 0 + (i 1).val / 32; omega)]
  -- the broadcast position is i mod 32
  have e2 : broadcastInDim SP4 ![0, 1, 2] hi2 (broadcastInDim SR32 ![2] hi1 (iotaInDim SL32 32 0))
        (ix3 (i 0) (⟨(i 1).val / 32, div32_lt (i 1)⟩ : Fin 128) (⟨(i 1).val % 32, mod32_lt (i 1)⟩ : Fin 32))
      = BitVec.ofNat 32 ((i 1).val % 32) := by
    rw [broadcastInDim_apply _ hi2 _ _ (ix3 (0 : Fin 1) (0 : Fin 1) (⟨(i 1).val % 32, mod32_lt (i 1)⟩ : Fin 32)) (fun a => match a with
        | ⟨0, _⟩ => by show 0 = if (1 : Nat) = 1 then 0 else (i 0).val; rw [if_pos rfl]
        | ⟨1, _⟩ => by show 0 = if (1 : Nat) = 1 then 0 else (i 1).val / 32; rw [if_pos rfl]
        | ⟨2, _⟩ => by show (i 1).val % 32 = if (32 : Nat) = 1 then 0 else (i 1).val % 32; rw [if_neg (by decide)]),
      broadcastInDim_apply _ hi1 _ _ (ix1 (⟨(i 1).val % 32, mod32_lt (i 1)⟩ : Fin 32)) (fun a => match a with
        | ⟨0, _⟩ => by show (i 1).val % 32 = if (32 : Nat) = 1 then 0 else (i 1).val % 32; rw [if_neg (by decide)])]
    rfl
  -- and the mask is 1
  have e3 : broadcastInDim SP4 ![] ho (constantI Cert.Spec.S0 32 1#32)
        (ix3 (i 0) (⟨(i 1).val / 32, div32_lt (i 1)⟩ : Fin 128) (⟨(i 1).val % 32, mod32_lt (i 1)⟩ : Fin 32)) = 1#32 := by
    rw [broadcastInDim_apply _ ho _ _ ix0 (fun a => a.elim0)]
    rfl
  simp only [andi, Host.shrsi]
  rw [e1, e2, e3]
  rfl

/-! ## A select between two sums -/

/-- Choosing between two sums by a bit is the sum of the chosen terms. -/
theorem select_sum {ι : Type} [Fintype ι] (g : BitVec 1) (f h : ι → EReal) :
    Scalar.select g (∑ k, f k) (∑ k, h k) = ∑ k, (if g = 1#1 then f k else h k) := by
  by_cases hg : g = 1#1
  · subst hg
    rw [select_one]
    exact Finset.sum_congr rfl fun k _ => (if_pos rfl).symm
  · rw [eq_zero_of_ne_one hg, select_zero]
    exact Finset.sum_congr rfl fun k _ => (if_neg (by decide)).symm

end Cert.ReferenceIdeal.Bridge

end
-- ==== Proof.RefSpec.lean ====
/-
  The reference's result is the specification: its last stage, read index by index, is `Cert.Spec.Y`.

  The stages are read in the order the mathematics has them: the flags are the specification's term as printed; each
  of the twelve bit planes is the one stretch of `plane_apply`; the planes, shifted to their places and or-ed from zero,
  are the 4-bit and the 8-bit codes; a take along axis 1 at a code, which is small and non-negative, wraps nothing,
  passes its range test and reads the table's row at the code; the two products are sums over the input position, the
  select by the token's flag chooses between them term by term, and the bias is added.
-/
import proofs.«415461_j65850438582285_3_alg».proof.Proof.RefRead
import proofs.«415461_j65850438582285_3_alg».proof.Proof.Spec
import proofs.«415461_j65850438582285_3_alg».proof.Proof.CodeFacts
import proofs.«415461_j65850438582285_3_alg».proof.Proof.RefFacts

noncomputable section

namespace Cert.ReferenceIdeal.Bridge

open Idealize.ShloMosaic Idealize.SL.Sem Idealize.ShloMosaic.TcCoe Idealize.ShloMosaic.ValueIdx
open Cert.ReferenceIdeal Cert.ReferenceIdeal.Gen

/-- The five arguments' contents, as the stages take them. -/
abbrev X0 : Type := (⟨S4x2048x4096, .f32⟩ : BufTy).Contents (Elt Ideal)
abbrev X1 : Type := (⟨S8x4096x128, .i32⟩ : BufTy).Contents (Elt Ideal)
abbrev X2 : Type := (⟨S4096x16, .f32⟩ : BufTy).Contents (Elt Ideal)
abbrev X3 : Type := (⟨S4096x256, .f32⟩ : BufTy).Contents (Elt Ideal)
abbrev X4 : Type := (⟨S4096, .f32⟩ : BufTy).Contents (Elt Ideal)

/-! ## The flags -/

/-- The reference's flags are the specification's term. -/
theorem flag_v6 (x0 : X0) :
    ReadP.val_main_v6 (F := Ideal) x0 = Cert.Spec.flag x0 reducesTo_S4x2048x4096_S4x2048_d2 h_S_ bcast_S_S4x2048 := rfl

/-! ## The bit planes: four for the 4-bit code, eight for the 8-bit code, each the one stretch -/

theorem bit_v18 (x1 : X1) (i : S4096x4096.Idx) : ReadP.val_main_v18 (F := Ideal) x1 i = Cert.Spec.bit x1 0 (i 0) (i 1) :=
  plane_apply 0 x1 _ _ _ _ _ _ _ _ i
theorem bit_v31 (x1 : X1) (i : S4096x4096.Idx) : ReadP.val_main_v31 (F := Ideal) x1 i = Cert.Spec.bit x1 1 (i 0) (i 1) :=
  plane_apply 1 x1 _ _ _ _ _ _ _ _ i
theorem bit_v44 (x1 : X1) (i : S4096x4096.Idx) : ReadP.val_main_v44 (F := Ideal) x1 i = Cert.Spec.bit x1 2 (i 0) (i 1) :=
  plane_apply 2 x1 _ _ _ _ _ _ _ _ i
theorem bit_v57 (x1 : X1) (i : S4096x4096.Idx) : ReadP.val_main_v57 (F := Ideal) x1 i = Cert.Spec.bit x1 3 (i 0) (i 1) :=
  plane_apply 3 x1 _ _ _ _ _ _ _ _ i
theorem bit_v73 (x1 : X1) (i : S4096x4096.Idx) : ReadP.val_main_v73 (F := Ideal) x1 i = Cert.Spec.bit x1 0 (i 0) (i 1) :=
  plane_apply 0 x1 _ _ _ _ _ _ _ _ i
theorem bit_v86 (x1 : X1) (i : S4096x4096.Idx) : ReadP.val_main_v86 (F := Ideal) x1 i = Cert.Spec.bit x1 1 (i 0) (i 1) :=
  plane_apply 1 x1 _ _ _ _ _ _ _ _ i
theorem bit_v99 (x1 : X1) (i : S4096x4096.Idx) : ReadP.val_main_v99 (F := Ideal) x1 i = Cert.Spec.bit x1 2 (i 0) (i 1) :=
  plane_apply 2 x1 _ _ _ _ _ _ _ _ i
theorem bit_v112 (x1 : X1) (i : S4096x4096.Idx) : ReadP.val_main_v112 (F := Ideal) x1 i = Cert.Spec.bit x1 3 (i 0) (i 1) :=
  plane_apply 3 x1 _ _ _ _ _ _ _ _ i
theorem bit_v125 (x1 : X1) (i : S4096x4096.Idx) : ReadP.val_main_v125 (F := Ideal) x1 i = Cert.Spec.bit x1 4 (i 0) (i 1) :=
  plane_apply 4 x1 _ _ _ _ _ _ _ _ i
theorem bit_v138 (x1 : X1) (i : S4096x4096.Idx) : ReadP.val_main_v138 (F := Ideal) x1 i = Cert.Spec.bit x1 5 (i 0) (i 1) :=
  plane_apply 5 x1 _ _ _ _ _ _ _ _ i
theorem bit_v151 (x1 : X1) (i : S4096x4096.Idx) : ReadP.val_main_v151 (F := Ideal) x1 i = Cert.Spec.bit x1 6 (i 0) (i 1) :=
  plane_apply 6 x1 _ _ _ _ _ _ _ _ i
theorem bit_v164 (x1 : X1) (i : S4096x4096.Idx) : ReadP.val_main_v164 (F := Ideal) x1 i = Cert.Spec.bit x1 7 (i 0) (i 1) :=
  plane_apply 7 x1 _ _ _ _ _ _ _ _ i

/-! ## The codes: the planes shifted to their places and or-ed from zero, in plane order -/

theorem code4_v60 (x1 : X1) (i : S4096x4096.Idx) :
    ReadP.val_main_v60 (F := Ideal) x1 i = Cert.Spec.code4 x1 (i 0) (i 1) := by
  rw [ReadP.val_main_v60_apply, ReadP.val_main_v47_apply, ReadP.val_main_v34_apply, ReadP.val_main_v21_apply,
    ReadP.val_main_v8_apply, ReadP.val_main_c_apply,
    ReadP.val_main_v20_apply, ReadP.val_main_v19_apply, ReadP.val_main_c_3_apply, bit_v18,
    ReadP.val_main_v33_apply, ReadP.val_main_v32_apply, ReadP.val_main_c_5_apply, bit_v31,
    ReadP.val_main_v46_apply, ReadP.val_main_v45_apply, ReadP.val_main_c_7_apply, bit_v44,
    ReadP.val_main_v59_apply, ReadP.val_main_v58_apply, ReadP.val_main_c_9_apply, bit_v57]
  rfl

theorem code8_v167 (x1 : X1) (i : S4096x4096.Idx) :
    ReadP.val_main_v167 (F := Ideal) x1 i = Cert.Spec.code8 x1 (i 0) (i 1) := by
  rw [ReadP.val_main_v167_apply, ReadP.val_main_v154_apply, ReadP.val_main_v141_apply, ReadP.val_main_v128_apply,
    ReadP.val_main_v115_apply, ReadP.val_main_v102_apply, ReadP.val_main_v89_apply, ReadP.val_main_v76_apply,
    ReadP.val_main_v63_apply, ReadP.val_main_c_10_apply,
    ReadP.val_main_v75_apply, ReadP.val_main_v74_apply, ReadP.val_main_c_12_apply, bit_v73,
    ReadP.val_main_v88_apply, ReadP.val_main_v87_apply, ReadP.val_main_c_14_apply, bit_v86,
    ReadP.val_main_v101_apply, ReadP.val_main_v100_apply, ReadP.val_main_c_16_apply, bit_v99,
    ReadP.val_main_v114_apply, ReadP.val_main_v113_apply, ReadP.val_main_c_18_apply, bit_v112,
    ReadP.val_main_v127_apply, ReadP.val_main_v126_apply, ReadP.val_main_c_20_apply, bit_v125,
    ReadP.val_main_v140_apply, ReadP.val_main_v139_apply, ReadP.val_main_c_22_apply, bit_v138,
    ReadP.val_main_v153_apply, ReadP.val_main_v152_apply, ReadP.val_main_c_24_apply, bit_v151,
    ReadP.val_main_v166_apply, ReadP.val_main_v165_apply, ReadP.val_main_c_26_apply, bit_v164]
  rfl

/-! ## The two takes along axis 1

A code is small and non-negative: its position is not wrapped, it passes the range test, and the gather reads the
table's row at it. -/

/-- Entry (o, i, 0) of the positions, reshaped to [4096, 4096, 1], is entry (o, i). -/
theorem unit_idx_call1 (i : S4096x4096.Idx) : ReadP.idx_main_call1_v5 (ix3 (i 0) (i 1) (0 : Fin 1)) = i :=
  funext fun a => Fin.ext (by
    match a with
    | ⟨0, _⟩ => exact unit_row (i 0).val (i 1).val (i 1).isLt
    | ⟨1, _⟩ => exact unit_col (i 0).val (i 1).val (i 1).isLt)

theorem unit_idx_call2 (i : S4096x4096.Idx) : ReadP.idx_main_call2_v5 (ix3 (i 0) (i 1) (0 : Fin 1)) = i :=
  funext fun a => Fin.ext (by
    match a with
    | ⟨0, _⟩ => exact unit_row (i 0).val (i 1).val (i 1).isLt
    | ⟨1, _⟩ => exact unit_col (i 0).val (i 1).val (i 1).isLt)

/-- The position the first take reads for (o, i) is the 4-bit code. -/
theorem pos_call1 (x1 : X1) (i : S4096x4096.Idx) :
    ReadP.val_main_call1_v5 (F := Ideal) x1 (ix3 (i 0) (i 1) (0 : Fin 1)) = Cert.Spec.code4 x1 (i 0) (i 1) := by
  rw [ReadP.val_main_call1_v5_apply, unit_idx_call1, ReadP.val_main_call1_v4_apply, ReadP.val_main_call1_v1_apply,
    ReadP.val_main_call1_v3_apply, ReadP.val_main_call1_v0_apply, ReadP.val_main_call1_c_apply, code4_v60]
  exact wrap_small _ _ (by have := Cert.Spec.code4_lt x1 (i 0) (i 1); omega)

/-- The position the second take reads for (o, i) is the 8-bit code. -/
theorem pos_call2 (x1 : X1) (i : S4096x4096.Idx) :
    ReadP.val_main_call2_v5 (F := Ideal) x1 (ix3 (i 0) (i 1) (0 : Fin 1)) = Cert.Spec.code8 x1 (i 0) (i 1) := by
  rw [ReadP.val_main_call2_v5_apply, unit_idx_call2, ReadP.val_main_call2_v4_apply, ReadP.val_main_call2_v1_apply,
    ReadP.val_main_call2_v3_apply, ReadP.val_main_call2_v0_apply, ReadP.val_main_call2_c_apply, code8_v167]
  exact wrap_small _ _ (by have := Cert.Spec.code8_lt x1 (i 0) (i 1); omega)

/-- The low-precision weights: the first take is row o of the 16-entry table at the 4-bit code. -/
theorem take_v61 (x1 : X1) (x2 : X2) (i : S4096x4096.Idx) :
    ReadP.val_main_v61 (F := Ideal) x1 x2 i = Cert.Spec.wLow x2 x1 (i 0) (i 1) := by
  have hc := Cert.Spec.code4_lt x1 (i 0) (i 1)
  have h12 : ReadP.val_main_call1_v12 (F := Ideal) x1 i = 1#1 := by
    unfold ReadP.val_main_call1_v12
    rw [reduce_and_unit, ReadP.val_main_call1_c_3_apply, ReadP.val_main_call1_v11_apply, ReadP.val_main_call1_v7_apply,
      ReadP.val_main_call1_v10_apply, ReadP.val_main_call1_v6_apply, ReadP.val_main_call1_c_2_apply,
      ReadP.val_main_call1_v9_apply, ReadP.val_main_call1_v8_apply, ReadP.val_main_call1_c_1_apply, pos_call1,
      inrange_small (Cert.Spec.code4 x1 (i 0) (i 1)) 15 (by omega) (by decide) (by omega)]
    rfl
  have h13 : ReadP.val_main_call1_v13 (F := Ideal) x1 x2 i = Cert.Spec.wLow x2 x1 (i 0) (i 1) := by
    unfold ReadP.val_main_call1_v13
    rw [show gather_S4096x16_S4096x4096x1_S4096x4096_n_1_0_0_1_2_11
          = rowTakeDims 16 gather_S4096x16_S4096x4096x1_S4096x4096_n_1_0_0_1_2_11_wf from rfl,
      gather_rowTake_apply (N := 16) (by decide)]
    unfold Cert.Spec.wLow
    refine congrArg x2 (funext fun a => Fin.ext ?_)
    match a with
    | ⟨0, _⟩ => rfl
    | ⟨1, _⟩ =>
      show min (ReadP.val_main_call1_v5 (F := Ideal) x1 (ix3 (i 0) (i 1) (0 : Fin 1))).toInt.toNat (16 - 1)
        = min (Cert.Spec.code4 x1 (i 0) (i 1)).toInt.toNat 15
      rw [pos_call1]
  rw [ReadP.val_main_v61_apply, h12, h13, select_one]

/-- The high-precision weights: the second take is row o of the 256-entry table at the 8-bit code. -/
theorem take_v168 (x1 : X1) (x3 : X3) (i : S4096x4096.Idx) :
    ReadP.val_main_v168 (F := Ideal) x1 x3 i = Cert.Spec.wHigh x3 x1 (i 0) (i 1) := by
  have hc := Cert.Spec.code8_lt x1 (i 0) (i 1)
  have h12 : ReadP.val_main_call2_v12 (F := Ideal) x1 i = 1#1 := by
    unfold ReadP.val_main_call2_v12
    rw [reduce_and_unit, ReadP.val_main_call2_c_3_apply, ReadP.val_main_call2_v11_apply, ReadP.val_main_call2_v7_apply,
      ReadP.val_main_call2_v10_apply, ReadP.val_main_call2_v6_apply, ReadP.val_main_call2_c_2_apply,
      ReadP.val_main_call2_v9_apply, ReadP.val_main_call2_v8_apply, ReadP.val_main_call2_c_1_apply, pos_call2,
      inrange_small (Cert.Spec.code8 x1 (i 0) (i 1)) 255 (by omega) (by decide) (by omega)]
    rfl
  have h13 : ReadP.val_main_call2_v13 (F := Ideal) x1 x3 i = Cert.Spec.wHigh x3 x1 (i 0) (i 1) := by
    unfold ReadP.val_main_call2_v13
    rw [show gather_S4096x256_S4096x4096x1_S4096x4096_n_1_0_0_1_2_11
          = rowTakeDims 256 gather_S4096x256_S4096x4096x1_S4096x4096_n_1_0_0_1_2_11_wf from rfl,
      gather_rowTake_apply (N := 256) (by decide)]
    unfold Cert.Spec.wHigh
    refine congrArg x3 (funext fun a => Fin.ext ?_)
    match a with
    | ⟨0, _⟩ => rfl
    | ⟨1, _⟩ =>
      show min (ReadP.val_main_call2_v5 (F := Ideal) x1 (ix3 (i 0) (i 1) (0 : Fin 1))).toInt.toNat (256 - 1)
        = min (Cert.Spec.code8 x1 (i 0) (i 1)).toInt.toNat 255
      rw [pos_call2]
  rw [ReadP.val_main_v168_apply, h12, h13, select_one]

/-! ## The result -/

/-- The last stage is the specification: two sums over the input position, chosen between by the token's flag term by
    term, plus the bias. -/
theorem val_eq_Y (x0 : X0) (x1 : X1) (x2 : X2) (x3 : X3) (x4 : X4) :
    ReadP.val_main_v175 (F := Ideal) x0 x1 x2 x3 x4
      = Cert.Spec.Y (Cert.Spec.flag x0 reducesTo_S4x2048x4096_S4x2048_d2 h_S_ bcast_S_S4x2048) x0 x1 x2 x3 x4 := by
  funext j
  have hl170 : ∀ k, ReadP.lidx_main_v170 j k = ix3 (j 0) (j 1) k := fun k => funext fun a => Fin.ext (by
    match a with
    | ⟨0, _⟩ => rfl
    | ⟨1, _⟩ => rfl
    | ⟨2, _⟩ => rfl)
  have hl169 : ∀ k, ReadP.lidx_main_v169 j k = ix3 (j 0) (j 1) k := fun k => funext fun a => Fin.ext (by
    match a with
    | ⟨0, _⟩ => rfl
    | ⟨1, _⟩ => rfl
    | ⟨2, _⟩ => rfl)
  have hg : ReadP.idx_main_v171 (ReadP.idx_main_call3_v0 j) = ix2 (j 0) (j 1) := funext fun a => Fin.ext (by
    match a with
    | ⟨0, _⟩ => rfl
    | ⟨1, _⟩ => rfl)
  have hb : ReadP.idx_main_v173 (ReadP.idx_main_v174 j) = ix1 (j 2) := funext fun a => Fin.ext (by
    match a with
    | ⟨0, _⟩ => rfl)
  rw [ReadP.val_main_v175_apply, Ideal.addf_def, ReadP.val_main_v172_apply, ReadP.val_main_call3_v0_apply, ReadP.val_main_v171_apply,
    ReadP.val_main_v170_apply, ReadP.val_main_v169_apply, ReadP.val_main_v174_apply, ReadP.val_main_v173_apply,
    flag_v6, hg, hb, select_sum]
  unfold Cert.Spec.Y
  refine congrArg (· + x4 (ix1 (j 2))) (Finset.sum_congr rfl fun k _ => ?_)
  rw [hl170, hl169, take_v168, take_v61]
  unfold Cert.Spec.wSel
  exact (mul_ite _ _ _ _).symm

end Cert.ReferenceIdeal.Bridge

end
-- ==== Proof.RefChunks.lean ====
import proofs.«415461_j65850438582285_3_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 0 to 12 of the reference: the norm and the token flags (through main_v6). -/
abbrev chunkA : List (HloOp τ sig (Elt F)) :=
  [ TRef.binary (TRef.of (T := ⟨S4x2048x4096, .f32⟩) main_arg0) (TRef.of (T := ⟨S4x2048x4096, .f32⟩) main_arg0) (TRef.of (T := ⟨S4x2048x4096, .f32⟩) main_call0_v0) mulf,
    TRef.nullary (TRef.of (T := ⟨S_, .f32⟩) main_call0_cst) (constant S_ .f32 0x00000000#32),
    TRef.binary (TRef.of (T := ⟨S4x2048x4096, .f32⟩) main_call0_v0) (TRef.of (T := ⟨S_, .f32⟩) main_call0_cst) (TRef.of (T := ⟨S4x2048, .f32⟩) main_call0_v1) (fun x v => Host.reduceAdd x v reducesTo_S4x2048x4096_S4x2048_d2 h_S_),
    TRef.unary (TRef.of (T := ⟨S4x2048, .f32⟩) main_call0_v1) (TRef.of (T := ⟨S4x2048, .f32⟩) main_v0) Host.sqrt,
    nullary main_cst (constant S_ .f32 0x3F800000#32),
    unary main_cst main_v1 (broadcastInDim S4x2048 ![] bcast_S_S4x2048 : (⟨S_, .f32⟩ : BufTy).Contents (Elt F) → (⟨S4x2048, .f32⟩ : BufTy).Contents (Elt F)),
    binary main_v0 main_v1 main_v2 (mulf : (⟨S4x2048, .f32⟩ : BufTy).Contents (Elt F) → (⟨S4x2048, .f32⟩ : BufTy).Contents (Elt F) → (⟨S4x2048, .f32⟩ : BufTy).Contents (Elt F)),
    nullary main_cst_0 (constant S_ .f32 0x00000000#32),
    unary main_cst_0 main_v3 (broadcastInDim S4x2048 ![] bcast_S_S4x2048 : (⟨S_, .f32⟩ : BufTy).Contents (Elt F) → (⟨S4x2048, .f32⟩ : BufTy).Contents (Elt F)),
    binary main_v2 main_v3 main_v4 (addf : (⟨S4x2048, .f32⟩ : BufTy).Contents (Elt F) → (⟨S4x2048, .f32⟩ : BufTy).Contents (Elt F) → (⟨S4x2048, .f32⟩ : BufTy).Contents (Elt F)),
    nullary main_cst_1 (constant S_ .f32 0x42800000#32),
    unary main_cst_1 main_v5 (broadcastInDim S4x2048 ![] bcast_S_S4x2048 : (⟨S_, .f32⟩ : BufTy).Contents (Elt F) → (⟨S4x2048, .f32⟩ : BufTy).Contents (Elt F)),
    binary main_v4 main_v5 main_v6 (cmpf .ogt : (⟨S4x2048, .f32⟩ : BufTy).Contents (Elt F) → (⟨S4x2048, .f32⟩ : BufTy).Contents (Elt F) → (⟨S4x2048, .i1⟩ : BufTy).Contents (Elt F)) ]

/-- Operations 13 to 75 of the reference: the 4-bit codes (through main_v60). -/
abbrev chunkB : List (HloOp τ sig (Elt F)) :=
  [ nullary main_v7 (iotaInDim S32 32 0),
    nullary main_c (constantI S_ 32 0#32),
    unary main_c main_v8 (broadcastInDim S4096x4096 ![] bcast_S_S4096x4096 : (⟨S_, .i32⟩ : BufTy).Contents (Elt F) → (⟨S4096x4096, .i32⟩ : BufTy).Contents (Elt F)),
    unary main_arg1 main_v9 ((extractStridedSlice S1x4096x128 ![0, 0, 0] · slices_S8x4096x128_S1x4096x128_0_0_0) : (⟨S8x4096x128, .i32⟩ : BufTy).Contents (Elt F) → (⟨S1x4096x128, .i32⟩ : BufTy).Contents (Elt F)),
    reshape main_v9 main_v10 rfl shapeCasts_S1x4096x128_S4096x128,
    unary main_v10 main_v11 (broadcastInDim S4096x128x1 ![0, 1] bcast_S4096x128_S4096x128x1_0_1 : (⟨S4096x128, .i32⟩ : BufTy).Contents (Elt F) → (⟨S4096x128x1, .i32⟩ : BufTy).Contents (Elt F)),
    unary main_v7 main_v12 (broadcastInDim S1x1x32 ![2] bcast_S32_S1x1x32_2 : (⟨S32, .i32⟩ : BufTy).Contents (Elt F) → (⟨S1x1x32, .i32⟩ : BufTy).Contents (Elt F)),
    unary main_v11 main_v13 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v12 main_v14 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v13 main_v14 main_v15 (Host.shrsi : (⟨S4096x128x32, .i32⟩ : BufTy).Contents (Elt F) → (⟨S4096x128x32, .i32⟩ : BufTy).Contents (Elt F) → (⟨S4096x128x32, .i32⟩ : BufTy).Contents (Elt F)),
    nullary main_c_2 (constantI S_ 32 1#32),
    unary main_c_2 main_v16 (broadcastInDim S4096x128x32 ![] bcast_S_S4096x128x32 : (⟨S_, .i32⟩ : BufTy).Contents (Elt F) → (⟨S4096x128x32, .i32⟩ : BufTy).Contents (Elt F)),
    binary main_v15 main_v16 main_v17 (andi : (⟨S4096x128x32, .i32⟩ : BufTy).Contents (Elt F) → (⟨S4096x128x32, .i32⟩ : BufTy).Contents (Elt F) → (⟨S4096x128x32, .i32⟩ : BufTy).Contents (Elt F)),
    reshape main_v17 main_v18 rfl shapeCasts_S4096x128x32_S4096x4096,
    nullary main_c_3 (constantI S_ 32 0#32),
    unary main_c_3 main_v19 (broadcastInDim S4096x4096 ![] bcast_S_S4096x4096 : (⟨S_, .i32⟩ : BufTy).Contents (Elt F) → (⟨S4096x4096, .i32⟩ : BufTy).Contents (Elt F)),
    binary main_v18 main_v19 main_v20 (Host.shli : (⟨S4096x4096, .i32⟩ : BufTy).Contents (Elt F) → (⟨S4096x4096, .i32⟩ : BufTy).Contents (Elt F) → (⟨S4096x4096, .i32⟩ : BufTy).Contents (Elt F)),
    binary main_v8 main_v20 main_v21 (ori : (⟨S4096x4096, .i32⟩ : BufTy).Contents (Elt F) → (⟨S4096x4096, .i32⟩ : BufTy).Contents (Elt F) → (⟨S4096x4096, .i32⟩ : BufTy).Contents (Elt F)),
    unary main_arg1 main_v22 ((extractStridedSlice S1x4096x128 ![1, 0, 0] · slices_S8x4096x128_S1x4096x128_1_0_0) : (⟨S8x4096x128, .i32⟩ : BufTy).Contents (Elt F) → (⟨S1x4096x128, .i32⟩ : BufTy).Contents (Elt F)),
    reshape main_v22 main_v23 rfl shapeCasts_S1x4096x128_S4096x128,
    unary main_v23 main_v24 (broadcastInDim S4096x128x1 ![0, 1] bcast_S4096x128_S4096x128x1_0_1 : (⟨S4096x128, .i32⟩ : BufTy).Contents (Elt F) → (⟨S4096x128x1, .i32⟩ : BufTy).Contents (Elt F)),
    unary main_v7 main_v25 (broadcastInDim S1x1x32 ![2] bcast_S32_S1x1x32_2 : (⟨S32, .i32⟩ : BufTy).Contents (Elt F) → (⟨S1x1x32, .i32⟩ : BufTy).Contents (Elt F)),
    unary main_v24 main_v26 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v25 main_v27 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v26 main_v27 main_v28 (Host.shrsi : (⟨S4096x128x32, .i32⟩ : BufTy).Contents (Elt F) → (⟨S4096x128x32, .i32⟩ : BufTy).Contents (Elt F) → (⟨S4096x128x32, .i32⟩ : BufTy).Contents (Elt F)),
    nullary main_c_4 (constantI S_ 32 1#32),
    unary main_c_4 main_v29 (broadcastInDim S4096x128x32 ![] bcast_S_S4096x128x32 : (⟨S_, .i32⟩ : BufTy).Contents (Elt F) → (⟨S4096x128x32, .i32⟩ : BufTy).Contents (Elt F)),
    binary main_v28 main_v29 main_v30 (andi : (⟨S4096x128x32, .i32⟩ : BufTy).Contents (Elt F) → (⟨S4096x128x32, .i32⟩ : BufTy).Contents (Elt F) → (⟨S4096x128x32, .i32⟩ : BufTy).Contents (Elt F)),
    reshape main_v30 main_v31 rfl shapeCasts_S4096x128x32_S4096x4096,
    nullary main_c_5 (constantI S_ 32 1#32),
    unary main_c_5 main_v32 (broadcastInDim S4096x4096 ![] bcast_S_S4096x4096 : (⟨S_, .i32⟩ : BufTy).Contents (Elt F) → (⟨S4096x4096, .i32⟩ : BufTy).Contents (Elt F)),
    binary main_v31 main_v32 main_v33 (Host.shli : (⟨S4096x4096, .i32⟩ : BufTy).Contents (Elt F) → (⟨S4096x4096, .i32⟩ : BufTy).Contents (Elt F) → (⟨S4096x4096, .i32⟩ : BufTy).Contents (Elt F)),
    binary main_v21 main_v33 main_v34 (ori : (⟨S4096x4096, .i32⟩ : BufTy).Contents (Elt F) → (⟨S4096x4096, .i32⟩ : BufTy).Contents (Elt F) → (⟨S4096x4096, .i32⟩ : BufTy).Contents (Elt F)),
    unary main_arg1 main_v35 ((extractStridedSlice S1x4096x128 ![2, 0, 0] · slices_S8x4096x128_S1x4096x128_2_0_0) : (⟨S8x4096x128, .i32⟩ : BufTy).Contents (Elt F) → (⟨S1x4096x128, .i32⟩ : BufTy).Contents (Elt F)),
    reshape main_v35 main_v36 rfl shapeCasts_S1x4096x128_S4096x128,
    unary main_v36 main_v37 (broadcastInDim S4096x128x1 ![0, 1] bcast_S4096x128_S4096x128x1_0_1 : (⟨S4096x128, .i32⟩ : BufTy).Contents (Elt F) → (⟨S4096x128x1, .i32⟩ : BufTy).Contents (Elt F)),
    unary main_v7 main_v38 (broadcastInDim S1x1x32 ![2] bcast_S32_S1x1x32_2 : (⟨S32, .i32⟩ : BufTy).Contents (Elt F) → (⟨S1x1x32, .i32⟩ : BufTy).Contents (Elt F)),
    unary main_v37 main_v39 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v38 main_v40 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v39 main_v40 main_v41 (Host.shrsi : (⟨S4096x128x32, .i32⟩ : BufTy).Contents (Elt F) → (⟨S4096x128x32, .i32⟩ : BufTy).Contents (Elt F) → (⟨S4096x128x32, .i32⟩ : BufTy).Contents (Elt F)),
    nullary main_c_6 (constantI S_ 32 1#32),
    unary main_c_6 main_v42 (broadcastInDim S4096x128x32 ![] bcast_S_S4096x128x32 : (⟨S_, .i32⟩ : BufTy).Contents (Elt F) → (⟨S4096x128x32, .i32⟩ : BufTy).Contents (Elt F)),
    binary main_v41 main_v42 main_v43 (andi : (⟨S4096x128x32, .i32⟩ : BufTy).Contents (Elt F) → (⟨S4096x128x32, .i32⟩ : BufTy).Contents (Elt F) → (⟨S4096x128x32, .i32⟩ : BufTy).Contents (Elt F)),
    reshape main_v43 main_v44 rfl shapeCasts_S4096x128x32_S4096x4096,
    nullary main_c_7 (constantI S_ 32 2#32),
    unary main_c_7 main_v45 (broadcastInDim S4096x4096 ![] bcast_S_S4096x4096 : (⟨S_, .i32⟩ : BufTy).Contents (Elt F) → (⟨S4096x4096, .i32⟩ : BufTy).Contents (Elt F)),
    binary main_v44 main_v45 main_v46 (Host.shli : (⟨S4096x4096, .i32⟩ : BufTy).Contents (Elt F) → (⟨S4096x4096, .i32⟩ : BufTy).Contents (Elt F) → (⟨S4096x4096, .i32⟩ : BufTy).Contents (Elt F)),
    binary main_v34 main_v46 main_v47 (ori : (⟨S4096x4096, .i32⟩ : BufTy).Contents (Elt F) → (⟨S4096x4096, .i32⟩ : BufTy).Contents (Elt F) → (⟨S4096x4096, .i32⟩ : BufTy).Contents (Elt F)),
    unary main_arg1 main_v48 ((extractStridedSlice S1x4096x128 ![3, 0, 0] · slices_S8x4096x128_S1x4096x128_3_0_0) : (⟨S8x4096x128, .i32⟩ : BufTy).Contents (Elt F) → (⟨S1x4096x128, .i32⟩ : BufTy).Contents (Elt F)),
    reshape main_v48 main_v49 rfl shapeCasts_S1x4096x128_S4096x128,
    unary main_v49 main_v50 (broadcastInDim S4096x128x1 ![0, 1] bcast_S4096x128_S4096x128x1_0_1 : (⟨S4096x128, .i32⟩ : BufTy).Contents (Elt F) → (⟨S4096x128x1, .i32⟩ : BufTy).Contents (Elt F)),
    unary main_v7 main_v51 (broadcastInDim S1x1x32 ![2] bcast_S32_S1x1x32_2 : (⟨S32, .i32⟩ : BufTy).Contents (Elt F) → (⟨S1x1x32, .i32⟩ : BufTy).Contents (Elt F)),
    unary main_v50 main_v52 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v51 main_v53 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v52 main_v53 main_v54 (Host.shrsi : (⟨S4096x128x32, .i32⟩ : BufTy).Contents (Elt F) → (⟨S4096x128x32, .i32⟩ : BufTy).Contents (Elt F) → (⟨S4096x128x32, .i32⟩ : BufTy).Contents (Elt F)),
    nullary main_c_8 (constantI S_ 32 1#32),
    unary main_c_8 main_v55 (broadcastInDim S4096x128x32 ![] bcast_S_S4096x128x32 : (⟨S_, .i32⟩ : BufTy).Contents (Elt F) → (⟨S4096x128x32, .i32⟩ : BufTy).Contents (Elt F)),
    binary main_v54 main_v55 main_v56 (andi : (⟨S4096x128x32, .i32⟩ : BufTy).Contents (Elt F) → (⟨S4096x128x32, .i32⟩ : BufTy).Contents (Elt F) → (⟨S4096x128x32, .i32⟩ : BufTy).Contents (Elt F)),
    reshape main_v56 main_v57 rfl shapeCasts_S4096x128x32_S4096x4096,
    nullary main_c_9 (constantI S_ 32 3#32),
    unary main_c_9 main_v58 (broadcastInDim S4096x4096 ![] bcast_S_S4096x4096 : (⟨S_, .i32⟩ : BufTy).Contents (Elt F) → (⟨S4096x4096, .i32⟩ : BufTy).Contents (Elt F)),
    binary main_v57 main_v58 main_v59 (Host.shli : (⟨S4096x4096, .i32⟩ : BufTy).Contents (Elt F) → (⟨S4096x4096, .i32⟩ : BufTy).Contents (Elt F) → (⟨S4096x4096, .i32⟩ : BufTy).Contents (Elt F)),
    binary main_v47 main_v59 main_v60 (ori : (⟨S4096x4096, .i32⟩ : BufTy).Contents (Elt F) → (⟨S4096x4096, .i32⟩ : BufTy).Contents (Elt F) → (⟨S4096x4096, .i32⟩ : BufTy).Contents (Elt F)) ]

/-- Operations 76 to 97 of the reference: the low-precision table read (through main_v61). -/
abbrev chunkC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096x4096, .i32⟩) main_call1_v0) (broadcastInDim S4096x4096 ![] bcast_S_S4096x4096),
    TRef.binary (TRef.of (T := ⟨S4096x4096, .i32⟩) main_v60) (TRef.of (T := ⟨S4096x4096, .i32⟩) main_call1_v0) (TRef.of (T := ⟨S4096x4096, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S4096x4096, .i32⟩) main_call1_v2) (broadcastInDim S4096x4096 ![] bcast_S_S4096x4096),
    TRef.binary (TRef.of (T := ⟨S4096x4096, .i32⟩) main_v60) (TRef.of (T := ⟨S4096x4096, .i32⟩) main_call1_v2) (TRef.of (T := ⟨S4096x4096, .i32⟩) main_call1_v3) addi,
    TRef.ternary (TRef.of (T := ⟨S4096x4096, .i1⟩) main_call1_v1) (TRef.of (T := ⟨S4096x4096, .i32⟩) main_call1_v3) (TRef.of (T := ⟨S4096x4096, .i32⟩) main_v60) (TRef.of (T := ⟨S4096x4096, .i32⟩) main_call1_v4) select,
    TRef.reshape (TRef.of (T := ⟨S4096x4096, .i32⟩) main_call1_v4) (TRef.of (T := ⟨S4096x4096x1, .i32⟩) main_call1_v5) rfl shapeCasts_S4096x4096_S4096x4096x1,
    TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S4096x4096x1, .i32⟩) main_call1_v6) (broadcastInDim S4096x4096x1 ![] bcast_S_S4096x4096x1),
    TRef.binary (TRef.of (T := ⟨S4096x4096x1, .i32⟩) main_call1_v5) (TRef.of (T := ⟨S4096x4096x1, .i32⟩) main_call1_v6) (TRef.of (T := ⟨S4096x4096x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x4096x1, .i32⟩) main_call1_v9) (broadcastInDim S4096x4096x1 ![0, 1, 2] bcast_S1x1x1_S4096x4096x1_0_1_2),
    TRef.binary (TRef.of (T := ⟨S4096x4096x1, .i32⟩) main_call1_v5) (TRef.of (T := ⟨S4096x4096x1, .i32⟩) main_call1_v9) (TRef.of (T := ⟨S4096x4096x1, .i1⟩) main_call1_v10) (cmpi .sle),
    TRef.binary (TRef.of (T := ⟨S4096x4096x1, .i1⟩) main_call1_v7) (TRef.of (T := ⟨S4096x4096x1, .i1⟩) main_call1_v10) (TRef.of (T := ⟨S4096x4096x1, .i1⟩) main_call1_v11) andi,
    TRef.nullary (TRef.of (T := ⟨S_, .i1⟩) main_call1_c_3) (constantI S_ 1 1#1),
    TRef.binary (TRef.of (T := ⟨S4096x4096x1, .i1⟩) main_call1_v11) (TRef.of (T := ⟨S_, .i1⟩) main_call1_c_3) (TRef.of (T := ⟨S4096x4096, .i1⟩) main_call1_v12) (fun x v => Host.reduce IntOp.andi x v reducesTo_S4096x4096x1_S4096x4096_d2 h_S_),
    TRef.binary (TRef.of (T := ⟨S4096x16, .f32⟩) main_arg2) (TRef.of (T := ⟨S4096x4096x1, .i32⟩) main_call1_v5) (TRef.of (T := ⟨S4096x4096, .f32⟩) main_call1_v13) (fun x i => Host.gather gather_S4096x16_S4096x4096x1_S4096x4096_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x4096, .f32⟩) main_call1_v14) (broadcastInDim S4096x4096 ![] bcast_S_S4096x4096),
    TRef.ternary (TRef.of (T := ⟨S4096x4096, .i1⟩) main_call1_v12) (TRef.of (T := ⟨S4096x4096, .f32⟩) main_call1_v13) (TRef.of (T := ⟨S4096x4096, .f32⟩) main_call1_v14) (TRef.of (T := ⟨S4096x4096, .f32⟩) main_v61) select ]

/-- Operations 98 to 160 of the reference: the 8-bit codes, planes 0 to 3 (through main_v115). -/
abbrev chunkD1 : List (HloOp τ sig (Elt F)) :=
  [ nullary main_v62 (iotaInDim S32 32 0),
    nullary main_c_10 (constantI S_ 32 0#32),
    unary main_c_10 main_v63 (broadcastInDim S4096x4096 ![] bcast_S_S4096x4096 : (⟨S_, .i32⟩ : BufTy).Contents (Elt F) → (⟨S4096x4096, .i32⟩ : BufTy).Contents (Elt F)),
    unary main_arg1 main_v64 ((extractStridedSlice S1x4096x128 ![0, 0, 0] · slices_S8x4096x128_S1x4096x128_0_0_0) : (⟨S8x4096x128, .i32⟩ : BufTy).Contents (Elt F) → (⟨S1x4096x128, .i32⟩ : BufTy).Contents (Elt F)),
    reshape main_v64 main_v65 rfl shapeCasts_S1x4096x128_S4096x128,
    unary main_v65 main_v66 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v67 (broadcastInDim S1x1x32 ![2] bcast_S32_S1x1x32_2 : (⟨S32, .i32⟩ : BufTy).Contents (Elt F) → (⟨S1x1x32, .i32⟩ : BufTy).Contents (Elt F)),
    unary main_v66 main_v68 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v67 main_v69 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v68 main_v69 main_v70 (Host.shrsi : (⟨S4096x128x32, .i32⟩ : BufTy).Contents (Elt F) → (⟨S4096x128x32, .i32⟩ : BufTy).Contents (Elt F) → (⟨S4096x128x32, .i32⟩ : BufTy).Contents (Elt F)),
    nullary main_c_11 (constantI S_ 32 1#32),
    unary main_c_11 main_v71 (broadcastInDim S4096x128x32 ![] bcast_S_S4096x128x32 : (⟨S_, .i32⟩ : BufTy).Contents (Elt F) → (⟨S4096x128x32, .i32⟩ : BufTy).Contents (Elt F)),
    binary main_v70 main_v71 main_v72 (andi : (⟨S4096x128x32, .i32⟩ : BufTy).Contents (Elt F) → (⟨S4096x128x32, .i32⟩ : BufTy).Contents (Elt F) → (⟨S4096x128x32, .i32⟩ : BufTy).Contents (Elt F)),
    reshape main_v72 main_v73 rfl shapeCasts_S4096x128x32_S4096x4096,
    nullary main_c_12 (constantI S_ 32 0#32),
    unary main_c_12 main_v74 (broadcastInDim S4096x4096 ![] bcast_S_S4096x4096 : (⟨S_, .i32⟩ : BufTy).Contents (Elt F) → (⟨S4096x4096, .i32⟩ : BufTy).Contents (Elt F)),
    binary main_v73 main_v74 main_v75 (Host.shli : (⟨S4096x4096, .i32⟩ : BufTy).Contents (Elt F) → (⟨S4096x4096, .i32⟩ : BufTy).Contents (Elt F) → (⟨S4096x4096, .i32⟩ : BufTy).Contents (Elt F)),
    binary main_v63 main_v75 main_v76 (ori : (⟨S4096x4096, .i32⟩ : BufTy).Contents (Elt F) → (⟨S4096x4096, .i32⟩ : BufTy).Contents (Elt F) → (⟨S4096x4096, .i32⟩ : BufTy).Contents (Elt F)),
    unary main_arg1 main_v77 ((extractStridedSlice S1x4096x128 ![1, 0, 0] · slices_S8x4096x128_S1x4096x128_1_0_0) : (⟨S8x4096x128, .i32⟩ : BufTy).Contents (Elt F) → (⟨S1x4096x128, .i32⟩ : BufTy).Contents (Elt F)),
    reshape main_v77 main_v78 rfl shapeCasts_S1x4096x128_S4096x128,
    unary main_v78 main_v79 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v80 (broadcastInDim S1x1x32 ![2] bcast_S32_S1x1x32_2 : (⟨S32, .i32⟩ : BufTy).Contents (Elt F) → (⟨S1x1x32, .i32⟩ : BufTy).Contents (Elt F)),
    unary main_v79 main_v81 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v80 main_v82 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v81 main_v82 main_v83 (Host.shrsi : (⟨S4096x128x32, .i32⟩ : BufTy).Contents (Elt F) → (⟨S4096x128x32, .i32⟩ : BufTy).Contents (Elt F) → (⟨S4096x128x32, .i32⟩ : BufTy).Contents (Elt F)),
    nullary main_c_13 (constantI S_ 32 1#32),
    unary main_c_13 main_v84 (broadcastInDim S4096x128x32 ![] bcast_S_S4096x128x32 : (⟨S_, .i32⟩ : BufTy).Contents (Elt F) → (⟨S4096x128x32, .i32⟩ : BufTy).Contents (Elt F)),
    binary main_v83 main_v84 main_v85 (andi : (⟨S4096x128x32, .i32⟩ : BufTy).Contents (Elt F) → (⟨S4096x128x32, .i32⟩ : BufTy).Contents (Elt F) → (⟨S4096x128x32, .i32⟩ : BufTy).Contents (Elt F)),
    reshape main_v85 main_v86 rfl shapeCasts_S4096x128x32_S4096x4096,
    nullary main_c_14 (constantI S_ 32 1#32),
    unary main_c_14 main_v87 (broadcastInDim S4096x4096 ![] bcast_S_S4096x4096 : (⟨S_, .i32⟩ : BufTy).Contents (Elt F) → (⟨S4096x4096, .i32⟩ : BufTy).Contents (Elt F)),
    binary main_v86 main_v87 main_v88 (Host.shli : (⟨S4096x4096, .i32⟩ : BufTy).Contents (Elt F) → (⟨S4096x4096, .i32⟩ : BufTy).Contents (Elt F) → (⟨S4096x4096, .i32⟩ : BufTy).Contents (Elt F)),
    binary main_v76 main_v88 main_v89 (ori : (⟨S4096x4096, .i32⟩ : BufTy).Contents (Elt F) → (⟨S4096x4096, .i32⟩ : BufTy).Contents (Elt F) → (⟨S4096x4096, .i32⟩ : BufTy).Contents (Elt F)),
    unary main_arg1 main_v90 ((extractStridedSlice S1x4096x128 ![2, 0, 0] · slices_S8x4096x128_S1x4096x128_2_0_0) : (⟨S8x4096x128, .i32⟩ : BufTy).Contents (Elt F) → (⟨S1x4096x128, .i32⟩ : BufTy).Contents (Elt F)),
    reshape main_v90 main_v91 rfl shapeCasts_S1x4096x128_S4096x128,
    unary main_v91 main_v92 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v93 (broadcastInDim S1x1x32 ![2] bcast_S32_S1x1x32_2 : (⟨S32, .i32⟩ : BufTy).Contents (Elt F) → (⟨S1x1x32, .i32⟩ : BufTy).Contents (Elt F)),
    unary main_v92 main_v94 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v93 main_v95 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v94 main_v95 main_v96 (Host.shrsi : (⟨S4096x128x32, .i32⟩ : BufTy).Contents (Elt F) → (⟨S4096x128x32, .i32⟩ : BufTy).Contents (Elt F) → (⟨S4096x128x32, .i32⟩ : BufTy).Contents (Elt F)),
    nullary main_c_15 (constantI S_ 32 1#32),
    unary main_c_15 main_v97 (broadcastInDim S4096x128x32 ![] bcast_S_S4096x128x32 : (⟨S_, .i32⟩ : BufTy).Contents (Elt F) → (⟨S4096x128x32, .i32⟩ : BufTy).Contents (Elt F)),
    binary main_v96 main_v97 main_v98 (andi : (⟨S4096x128x32, .i32⟩ : BufTy).Contents (Elt F) → (⟨S4096x128x32, .i32⟩ : BufTy).Contents (Elt F) → (⟨S4096x128x32, .i32⟩ : BufTy).Contents (Elt F)),
    reshape main_v98 main_v99 rfl shapeCasts_S4096x128x32_S4096x4096,
    nullary main_c_16 (constantI S_ 32 2#32),
    unary main_c_16 main_v100 (broadcastInDim S4096x4096 ![] bcast_S_S4096x4096 : (⟨S_, .i32⟩ : BufTy).Contents (Elt F) → (⟨S4096x4096, .i32⟩ : BufTy).Contents (Elt F)),
    binary main_v99 main_v100 main_v101 (Host.shli : (⟨S4096x4096, .i32⟩ : BufTy).Contents (Elt F) → (⟨S4096x4096, .i32⟩ : BufTy).Contents (Elt F) → (⟨S4096x4096, .i32⟩ : BufTy).Contents (Elt F)),
    binary main_v89 main_v101 main_v102 (ori : (⟨S4096x4096, .i32⟩ : BufTy).Contents (Elt F) → (⟨S4096x4096, .i32⟩ : BufTy).Contents (Elt F) → (⟨S4096x4096, .i32⟩ : BufTy).Contents (Elt F)),
    unary main_arg1 main_v103 ((extractStridedSlice S1x4096x128 ![3, 0, 0] · slices_S8x4096x128_S1x4096x128_3_0_0) : (⟨S8x4096x128, .i32⟩ : BufTy).Contents (Elt F) → (⟨S1x4096x128, .i32⟩ : BufTy).Contents (Elt F)),
    reshape main_v103 main_v104 rfl shapeCasts_S1x4096x128_S4096x128,
    unary main_v104 main_v105 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v106 (broadcastInDim S1x1x32 ![2] bcast_S32_S1x1x32_2 : (⟨S32, .i32⟩ : BufTy).Contents (Elt F) → (⟨S1x1x32, .i32⟩ : BufTy).Contents (Elt F)),
    unary main_v105 main_v107 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v106 main_v108 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v107 main_v108 main_v109 (Host.shrsi : (⟨S4096x128x32, .i32⟩ : BufTy).Contents (Elt F) → (⟨S4096x128x32, .i32⟩ : BufTy).Contents (Elt F) → (⟨S4096x128x32, .i32⟩ : BufTy).Contents (Elt F)),
    nullary main_c_17 (constantI S_ 32 1#32),
    unary main_c_17 main_v110 (broadcastInDim S4096x128x32 ![] bcast_S_S4096x128x32 : (⟨S_, .i32⟩ : BufTy).Contents (Elt F) → (⟨S4096x128x32, .i32⟩ : BufTy).Contents (Elt F)),
    binary main_v109 main_v110 main_v111 (andi : (⟨S4096x128x32, .i32⟩ : BufTy).Contents (Elt F) → (⟨S4096x128x32, .i32⟩ : BufTy).Contents (Elt F) → (⟨S4096x128x32, .i32⟩ : BufTy).Contents (Elt F)),
    reshape main_v111 main_v112 rfl shapeCasts_S4096x128x32_S4096x4096,
    nullary main_c_18 (constantI S_ 32 3#32),
    unary main_c_18 main_v113 (broadcastInDim S4096x4096 ![] bcast_S_S4096x4096 : (⟨S_, .i32⟩ : BufTy).Contents (Elt F) → (⟨S4096x4096, .i32⟩ : BufTy).Contents (Elt F)),
    binary main_v112 main_v113 main_v114 (Host.shli : (⟨S4096x4096, .i32⟩ : BufTy).Contents (Elt F) → (⟨S4096x4096, .i32⟩ : BufTy).Contents (Elt F) → (⟨S4096x4096, .i32⟩ : BufTy).Contents (Elt F)),
    binary main_v102 main_v114 main_v115 (ori : (⟨S4096x4096, .i32⟩ : BufTy).Contents (Elt F) → (⟨S4096x4096, .i32⟩ : BufTy).Contents (Elt F) → (⟨S4096x4096, .i32⟩ : BufTy).Contents (Elt F)) ]

/-- Operations 161 to 220 of the reference: the 8-bit codes, planes 4 to 7 (through main_v167). -/
abbrev chunkD2 : List (HloOp τ sig (Elt F)) :=
  [ unary main_arg1 main_v116 ((extractStridedSlice S1x4096x128 ![4, 0, 0] · slices_S8x4096x128_S1x4096x128_4_0_0) : (⟨S8x4096x128, .i32⟩ : BufTy).Contents (Elt F) → (⟨S1x4096x128, .i32⟩ : BufTy).Contents (Elt F)),
    reshape main_v116 main_v117 rfl shapeCasts_S1x4096x128_S4096x128,
    unary main_v117 main_v118 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v119 (broadcastInDim S1x1x32 ![2] bcast_S32_S1x1x32_2 : (⟨S32, .i32⟩ : BufTy).Contents (Elt F) → (⟨S1x1x32, .i32⟩ : BufTy).Contents (Elt F)),
    unary main_v118 main_v120 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v119 main_v121 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v120 main_v121 main_v122 (Host.shrsi : (⟨S4096x128x32, .i32⟩ : BufTy).Contents (Elt F) → (⟨S4096x128x32, .i32⟩ : BufTy).Contents (Elt F) → (⟨S4096x128x32, .i32⟩ : BufTy).Contents (Elt F)),
    nullary main_c_19 (constantI S_ 32 1#32),
    unary main_c_19 main_v123 (broadcastInDim S4096x128x32 ![] bcast_S_S4096x128x32 : (⟨S_, .i32⟩ : BufTy).Contents (Elt F) → (⟨S4096x128x32, .i32⟩ : BufTy).Contents (Elt F)),
    binary main_v122 main_v123 main_v124 (andi : (⟨S4096x128x32, .i32⟩ : BufTy).Contents (Elt F) → (⟨S4096x128x32, .i32⟩ : BufTy).Contents (Elt F) → (⟨S4096x128x32, .i32⟩ : BufTy).Contents (Elt F)),
    reshape main_v124 main_v125 rfl shapeCasts_S4096x128x32_S4096x4096,
    nullary main_c_20 (constantI S_ 32 4#32),
    unary main_c_20 main_v126 (broadcastInDim S4096x4096 ![] bcast_S_S4096x4096 : (⟨S_, .i32⟩ : BufTy).Contents (Elt F) → (⟨S4096x4096, .i32⟩ : BufTy).Contents (Elt F)),
    binary main_v125 main_v126 main_v127 (Host.shli : (⟨S4096x4096, .i32⟩ : BufTy).Contents (Elt F) → (⟨S4096x4096, .i32⟩ : BufTy).Contents (Elt F) → (⟨S4096x4096, .i32⟩ : BufTy).Contents (Elt F)),
    binary main_v115 main_v127 main_v128 (ori : (⟨S4096x4096, .i32⟩ : BufTy).Contents (Elt F) → (⟨S4096x4096, .i32⟩ : BufTy).Contents (Elt F) → (⟨S4096x4096, .i32⟩ : BufTy).Contents (Elt F)),
    unary main_arg1 main_v129 ((extractStridedSlice S1x4096x128 ![5, 0, 0] · slices_S8x4096x128_S1x4096x128_5_0_0) : (⟨S8x4096x128, .i32⟩ : BufTy).Contents (Elt F) → (⟨S1x4096x128, .i32⟩ : BufTy).Contents (Elt F)),
    reshape main_v129 main_v130 rfl shapeCasts_S1x4096x128_S4096x128,
    unary main_v130 main_v131 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v132 (broadcastInDim S1x1x32 ![2] bcast_S32_S1x1x32_2 : (⟨S32, .i32⟩ : BufTy).Contents (Elt F) → (⟨S1x1x32, .i32⟩ : BufTy).Contents (Elt F)),
    unary main_v131 main_v133 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v132 main_v134 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v133 main_v134 main_v135 (Host.shrsi : (⟨S4096x128x32, .i32⟩ : BufTy).Contents (Elt F) → (⟨S4096x128x32, .i32⟩ : BufTy).Contents (Elt F) → (⟨S4096x128x32, .i32⟩ : BufTy).Contents (Elt F)),
    nullary main_c_21 (constantI S_ 32 1#32),
    unary main_c_21 main_v136 (broadcastInDim S4096x128x32 ![] bcast_S_S4096x128x32 : (⟨S_, .i32⟩ : BufTy).Contents (Elt F) → (⟨S4096x128x32, .i32⟩ : BufTy).Contents (Elt F)),
    binary main_v135 main_v136 main_v137 (andi : (⟨S4096x128x32, .i32⟩ : BufTy).Contents (Elt F) → (⟨S4096x128x32, .i32⟩ : BufTy).Contents (Elt F) → (⟨S4096x128x32, .i32⟩ : BufTy).Contents (Elt F)),
    reshape main_v137 main_v138 rfl shapeCasts_S4096x128x32_S4096x4096,
    nullary main_c_22 (constantI S_ 32 5#32),
    unary main_c_22 main_v139 (broadcastInDim S4096x4096 ![] bcast_S_S4096x4096 : (⟨S_, .i32⟩ : BufTy).Contents (Elt F) → (⟨S4096x4096, .i32⟩ : BufTy).Contents (Elt F)),
    binary main_v138 main_v139 main_v140 (Host.shli : (⟨S4096x4096, .i32⟩ : BufTy).Contents (Elt F) → (⟨S4096x4096, .i32⟩ : BufTy).Contents (Elt F) → (⟨S4096x4096, .i32⟩ : BufTy).Contents (Elt F)),
    binary main_v128 main_v140 main_v141 (ori : (⟨S4096x4096, .i32⟩ : BufTy).Contents (Elt F) → (⟨S4096x4096, .i32⟩ : BufTy).Contents (Elt F) → (⟨S4096x4096, .i32⟩ : BufTy).Contents (Elt F)),
    unary main_arg1 main_v142 ((extractStridedSlice S1x4096x128 ![6, 0, 0] · slices_S8x4096x128_S1x4096x128_6_0_0) : (⟨S8x4096x128, .i32⟩ : BufTy).Contents (Elt F) → (⟨S1x4096x128, .i32⟩ : BufTy).Contents (Elt F)),
    reshape main_v142 main_v143 rfl shapeCasts_S1x4096x128_S4096x128,
    unary main_v143 main_v144 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v145 (broadcastInDim S1x1x32 ![2] bcast_S32_S1x1x32_2 : (⟨S32, .i32⟩ : BufTy).Contents (Elt F) → (⟨S1x1x32, .i32⟩ : BufTy).Contents (Elt F)),
    unary main_v144 main_v146 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v145 main_v147 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v146 main_v147 main_v148 (Host.shrsi : (⟨S4096x128x32, .i32⟩ : BufTy).Contents (Elt F) → (⟨S4096x128x32, .i32⟩ : BufTy).Contents (Elt F) → (⟨S4096x128x32, .i32⟩ : BufTy).Contents (Elt F)),
    nullary main_c_23 (constantI S_ 32 1#32),
    unary main_c_23 main_v149 (broadcastInDim S4096x128x32 ![] bcast_S_S4096x128x32 : (⟨S_, .i32⟩ : BufTy).Contents (Elt F) → (⟨S4096x128x32, .i32⟩ : BufTy).Contents (Elt F)),
    binary main_v148 main_v149 main_v150 (andi : (⟨S4096x128x32, .i32⟩ : BufTy).Contents (Elt F) → (⟨S4096x128x32, .i32⟩ : BufTy).Contents (Elt F) → (⟨S4096x128x32, .i32⟩ : BufTy).Contents (Elt F)),
    reshape main_v150 main_v151 rfl shapeCasts_S4096x128x32_S4096x4096,
    nullary main_c_24 (constantI S_ 32 6#32),
    unary main_c_24 main_v152 (broadcastInDim S4096x4096 ![] bcast_S_S4096x4096 : (⟨S_, .i32⟩ : BufTy).Contents (Elt F) → (⟨S4096x4096, .i32⟩ : BufTy).Contents (Elt F)),
    binary main_v151 main_v152 main_v153 (Host.shli : (⟨S4096x4096, .i32⟩ : BufTy).Contents (Elt F) → (⟨S4096x4096, .i32⟩ : BufTy).Contents (Elt F) → (⟨S4096x4096, .i32⟩ : BufTy).Contents (Elt F)),
    binary main_v141 main_v153 main_v154 (ori : (⟨S4096x4096, .i32⟩ : BufTy).Contents (Elt F) → (⟨S4096x4096, .i32⟩ : BufTy).Contents (Elt F) → (⟨S4096x4096, .i32⟩ : BufTy).Contents (Elt F)),
    unary main_arg1 main_v155 ((extractStridedSlice S1x4096x128 ![7, 0, 0] · slices_S8x4096x128_S1x4096x128_7_0_0) : (⟨S8x4096x128, .i32⟩ : BufTy).Contents (Elt F) → (⟨S1x4096x128, .i32⟩ : BufTy).Contents (Elt F)),
    reshape main_v155 main_v156 rfl shapeCasts_S1x4096x128_S4096x128,
    unary main_v156 main_v157 (broadcastInDim S4096x128x1 ![0, 1] bcast_S4096x128_S4096x128x1_0_1 : (⟨S4096x128, .i32⟩ : BufTy).Contents (Elt F) → (⟨S4096x128x1, .i32⟩ : BufTy).Contents (Elt F)),
    unary main_v62 main_v158 (broadcastInDim S1x1x32 ![2] bcast_S32_S1x1x32_2 : (⟨S32, .i32⟩ : BufTy).Contents (Elt F) → (⟨S1x1x32, .i32⟩ : BufTy).Contents (Elt F)),
    unary main_v157 main_v159 (broadcastInDim S4096x128x32 ![0, 1, 2] bcast_S4096x128x1_S4096x128x32_0_1_2 : (⟨S4096x128x1, .i32⟩ : BufTy).Contents (Elt F) → (⟨S4096x128x32, .i32⟩ : BufTy).Contents (Elt F)),
    unary main_v158 main_v160 (broadcastInDim S4096x128x32 ![0, 1, 2] bcast_S1x1x32_S4096x128x32_0_1_2 : (⟨S1x1x32, .i32⟩ : BufTy).Contents (Elt F) → (⟨S4096x128x32, .i32⟩ : BufTy).Contents (Elt F)),
    binary main_v159 main_v160 main_v161 (Host.shrsi : (⟨S4096x128x32, .i32⟩ : BufTy).Contents (Elt F) → (⟨S4096x128x32, .i32⟩ : BufTy).Contents (Elt F) → (⟨S4096x128x32, .i32⟩ : BufTy).Contents (Elt F)),
    nullary main_c_25 (constantI S_ 32 1#32),
    unary main_c_25 main_v162 (broadcastInDim S4096x128x32 ![] bcast_S_S4096x128x32 : (⟨S_, .i32⟩ : BufTy).Contents (Elt F) → (⟨S4096x128x32, .i32⟩ : BufTy).Contents (Elt F)),
    binary main_v161 main_v162 main_v163 (andi : (⟨S4096x128x32, .i32⟩ : BufTy).Contents (Elt F) → (⟨S4096x128x32, .i32⟩ : BufTy).Contents (Elt F) → (⟨S4096x128x32, .i32⟩ : BufTy).Contents (Elt F)),
    reshape main_v163 main_v164 rfl shapeCasts_S4096x128x32_S4096x4096,
    nullary main_c_26 (constantI S_ 32 7#32),
    unary main_c_26 main_v165 (broadcastInDim S4096x4096 ![] bcast_S_S4096x4096 : (⟨S_, .i32⟩ : BufTy).Contents (Elt F) → (⟨S4096x4096, .i32⟩ : BufTy).Contents (Elt F)),
    binary main_v164 main_v165 main_v166 (Host.shli : (⟨S4096x4096, .i32⟩ : BufTy).Contents (Elt F) → (⟨S4096x4096, .i32⟩ : BufTy).Contents (Elt F) → (⟨S4096x4096, .i32⟩ : BufTy).Contents (Elt F)),
    binary main_v154 main_v166 main_v167 (ori : (⟨S4096x4096, .i32⟩ : BufTy).Contents (Elt F) → (⟨S4096x4096, .i32⟩ : BufTy).Contents (Elt F) → (⟨S4096x4096, .i32⟩ : BufTy).Contents (Elt F)) ]

/-- Operations 221 to 242 of the reference: the high-precision table read (through main_v168). -/
abbrev chunkE : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4096x4096, .i32⟩) main_call2_v0) (broadcastInDim S4096x4096 ![] bcast_S_S4096x4096),
    TRef.binary (TRef.of (T := ⟨S4096x4096, .i32⟩) main_v167) (TRef.of (T := ⟨S4096x4096, .i32⟩) main_call2_v0) (TRef.of (T := ⟨S4096x4096, .i1⟩) main_call2_v1) (cmpi .slt),
    TRef.nullary (TRef.of (T := ⟨S_, .i32⟩) main_call2_c_0) (constantI S_ 32 256#32),
    TRef.unary (TRef.of (T := ⟨S_, .i32⟩) main_call2_c_0) (TRef.of (T := ⟨S4096x4096, .i32⟩) main_call2_v2) (broadcastInDim S4096x4096 ![] bcast_S_S4096x4096),
    TRef.binary (TRef.of (T := ⟨S4096x4096, .i32⟩) main_v167) (TRef.of (T := ⟨S4096x4096, .i32⟩) main_call2_v2) (TRef.of (T := ⟨S4096x4096, .i32⟩) main_call2_v3) addi,
    TRef.ternary (TRef.of (T := ⟨S4096x4096, .i1⟩) main_call2_v1) (TRef.of (T := ⟨S4096x4096, .i32⟩) main_call2_v3) (TRef.of (T := ⟨S4096x4096, .i32⟩) main_v167) (TRef.of (T := ⟨S4096x4096, .i32⟩) main_call2_v4) select,
    TRef.reshape (TRef.of (T := ⟨S4096x4096, .i32⟩) main_call2_v4) (TRef.of (T := ⟨S4096x4096x1, .i32⟩) main_call2_v5) rfl shapeCasts_S4096x4096_S4096x4096x1,
    TRef.nullary (TRef.of (T := ⟨S1, .i32⟩) main_call2_c_1) (constantI S1 32 255#32),
    TRef.nullary (TRef.of (T := ⟨S_, .i32⟩) main_call2_c_2) (constantI S_ 32 0#32),
    TRef.unary (TRef.of (T := ⟨S_, .i32⟩) main_call2_c_2) (TRef.of (T := ⟨S4096x4096x1, .i32⟩) main_call2_v6) (broadcastInDim S4096x4096x1 ![] bcast_S_S4096x4096x1),
    TRef.binary (TRef.of (T := ⟨S4096x4096x1, .i32⟩) main_call2_v5) (TRef.of (T := ⟨S4096x4096x1, .i32⟩) main_call2_v6) (TRef.of (T := ⟨S4096x4096x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x4096x1, .i32⟩) main_call2_v9) (broadcastInDim S4096x4096x1 ![0, 1, 2] bcast_S1x1x1_S4096x4096x1_0_1_2),
    TRef.binary (TRef.of (T := ⟨S4096x4096x1, .i32⟩) main_call2_v5) (TRef.of (T := ⟨S4096x4096x1, .i32⟩) main_call2_v9) (TRef.of (T := ⟨S4096x4096x1, .i1⟩) main_call2_v10) (cmpi .sle),
    TRef.binary (TRef.of (T := ⟨S4096x4096x1, .i1⟩) main_call2_v7) (TRef.of (T := ⟨S4096x4096x1, .i1⟩) main_call2_v10) (TRef.of (T := ⟨S4096x4096x1, .i1⟩) main_call2_v11) andi,
    TRef.nullary (TRef.of (T := ⟨S_, .i1⟩) main_call2_c_3) (constantI S_ 1 1#1),
    TRef.binary (TRef.of (T := ⟨S4096x4096x1, .i1⟩) main_call2_v11) (TRef.of (T := ⟨S_, .i1⟩) main_call2_c_3) (TRef.of (T := ⟨S4096x4096, .i1⟩) main_call2_v12) (fun x v => Host.reduce IntOp.andi x v reducesTo_S4096x4096x1_S4096x4096_d2 h_S_),
    TRef.binary (TRef.of (T := ⟨S4096x256, .f32⟩) main_arg3) (TRef.of (T := ⟨S4096x4096x1, .i32⟩) main_call2_v5) (TRef.of (T := ⟨S4096x4096, .f32⟩) main_call2_v13) (fun x i => Host.gather gather_S4096x256_S4096x4096x1_S4096x4096_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x4096, .f32⟩) main_call2_v14) (broadcastInDim S4096x4096 ![] bcast_S_S4096x4096),
    TRef.ternary (TRef.of (T := ⟨S4096x4096, .i1⟩) main_call2_v12) (TRef.of (T := ⟨S4096x4096, .f32⟩) main_call2_v13) (TRef.of (T := ⟨S4096x4096, .f32⟩) main_call2_v14) (TRef.of (T := ⟨S4096x4096, .f32⟩) main_v168) select ]

/-- Operations 243 to 250 of the reference: the two products, the select by flag and the bias (through main_v175). -/
abbrev chunkG : List (HloOp τ sig (Elt F)) :=
  [ binary main_arg0 main_v61 main_v169 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_v168 main_v170 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_v6 main_v171 (broadcastInDim S4x2048x1 ![0, 1] bcast_S4x2048_S4x2048x1_0_1 : (⟨S4x2048, .i1⟩ : BufTy).Contents (Elt F) → (⟨S4x2048x1, .i1⟩ : BufTy).Contents (Elt F)),
    TRef.unary (TRef.of (T := ⟨S4x2048x1, .i1⟩) main_v171) (TRef.of (T := ⟨S4x2048x4096, .i1⟩) main_call3_v0) (broadcastInDim S4x2048x4096 ![0, 1, 2] bcast_S4x2048x1_S4x2048x4096_0_1_2),
    TRef.ternary (TRef.of (T := ⟨S4x2048x4096, .i1⟩) main_call3_v0) (TRef.of (T := ⟨S4x2048x4096, .f32⟩) main_v170) (TRef.of (T := ⟨S4x2048x4096, .f32⟩) main_v169) (TRef.of (T := ⟨S4x2048x4096, .f32⟩) main_v172) select,
    unary main_arg4 main_v173 (broadcastInDim S1x1x4096 ![2] bcast_S4096_S1x1x4096_2 : (⟨S4096, .f32⟩ : BufTy).Contents (Elt F) → (⟨S1x1x4096, .f32⟩ : BufTy).Contents (Elt F)),
    unary main_v173 main_v174 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v172 main_v174 main_v175 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 8192 in
/-- The reference's operations are the seven chunks in order. -/
theorem ops_eq_chunks : (ops : List (HloOp τ sig (Elt F))) = chunkA ++ (chunkB ++ (chunkC ++ (chunkD1 ++ (chunkD2 ++ (chunkE ++ chunkG))))) := rfl

end Cert.ReferenceIdeal.ValueP

end
-- ==== Proof.RefChAG.lean ====
/-
  The reference's first and last stretches of operations, run from ANY earlier contents `W` of the buffers.

  The first stretch (13 operations) computes the token flags from the tokens alone: the squares, their sum along the
  last axis, the square root, times one, plus zero, compared with 64. Run from `W`, it leaves in the flags' buffer the
  read module's stage `val_main_v6` of `W` at the tokens' buffer, and it writes only its own 13 result buffers.

  The last stretch (8 operations) forms the two products of the tokens with the two dequantized weight matrices,
  selects between them by the flag broadcast along the output axis, and adds the bias broadcast over the tokens. Run from
  a `W` that holds the flags' stage in the flags' buffer and the two matrices' stages in theirs, it leaves the read
  module's last stage `val_main_v175` in the result buffer, and it writes only its own 8 result buffers.

  Each operation rewrites exactly its result buffer, so a buffer outside a stretch's results keeps its contents
  (`keepA`, `keepG`), and the result buffer's contents are the operations' functions composed (`valueA`, `valueG`).
-/
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- A one-buffer set of written buffers lies in the set of a list that holds the buffer's reference. -/
theorem wsubAG {Wl : List (Ref sig .tc)} (y : Ref sig .tc) (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, hy, rfl⟩))

/-! ## The flags -/

/-- The buffers the first stretch writes, in order. -/
def writtenA : List (Ref sig .tc) :=
  [main_call0_v0, main_call0_cst, main_call0_v1, main_v0, main_cst, main_v1, main_v2, main_cst_0, main_v3, main_v4,
    main_cst_1, main_v5, main_v6]

/-- A buffer the first stretch does not write keeps its contents. -/
theorem keepA (W : Valuation τ sig (Elt F)) (r : Ref sig .tc) (hr : r ∉ writtenA) :
    after chunkA W (Proc.devRef .tc r) = W (Proc.devRef .tc r) :=
  after_of_writes_sub (W := writtenA) chunkA W
    ⟨wsubAG main_call0_v0 (by decide), wsubAG main_call0_cst (by decide), wsubAG main_call0_v1 (by decide),
      wsubAG main_v0 (by decide), wsubAG main_cst (by decide), wsubAG main_v1 (by decide), wsubAG main_v2 (by decide),
      wsubAG main_cst_0 (by decide), wsubAG main_v3 (by decide), wsubAG main_v4 (by decide), wsubAG main_cst_1 (by decide),
      wsubAG main_v5 (by decide), wsubAG main_v6 (by decide)⟩ hr

/-- The first stretch leaves the flags' stage of the tokens in the flags' buffer. -/
theorem valueA (W : Valuation τ sig (Elt F)) :
    after chunkA W (Proc.devRef .tc main_v6) = val_main_v6 (F := F) (W (Proc.devRef .tc main_arg0)) := by
  simp only [chunkA]
  after_results_simp
  all_goals (try simp only [TRef.ofBuf, TRef.toBuf, cast_eq])
  all_goals rfl

/-! ## The products, the select and the bias -/

/-- The buffers the last stretch writes, in order. -/
def writtenG : List (Ref sig .tc) :=
  [main_v169, main_v170, main_v171, main_call3_v0, main_v172, main_v173, main_v174, main_v175]

/-- A buffer the last stretch does not write keeps its contents. -/
theorem keepG (W : Valuation τ sig (Elt F)) (r : Ref sig .tc) (hr : r ∉ writtenG) :
    after chunkG W (Proc.devRef .tc r) = W (Proc.devRef .tc r) :=
  after_of_writes_sub (W := writtenG) chunkG W
    ⟨wsubAG main_v169 (by decide), wsubAG main_v170 (by decide), wsubAG main_v171 (by decide),
      wsubAG main_call3_v0 (by decide), wsubAG main_v172 (by decide), wsubAG main_v173 (by decide),
      wsubAG main_v174 (by decide), wsubAG main_v175 (by decide)⟩ hr

/-- The last stretch, from contents that hold the flags' and the two matrices' stages, leaves the last stage in the
    result buffer. -/
theorem valueG (W : Valuation τ sig (Elt F)) (x0 : (⟨S4x2048x4096, .f32⟩ : BufTy).Contents (Elt F))
    (x1 : (⟨S8x4096x128, .i32⟩ : BufTy).Contents (Elt F)) (x2 : (⟨S4096x16, .f32⟩ : BufTy).Contents (Elt F))
    (x3 : (⟨S4096x256, .f32⟩ : BufTy).Contents (Elt F)) (h0 : W (Proc.devRef .tc main_arg0) = x0)
    (h6 : W (Proc.devRef .tc main_v6) = val_main_v6 (F := F) x0)
    (h61 : W (Proc.devRef .tc main_v61) = val_main_v61 (F := F) x1 x2)
    (h168 : W (Proc.devRef .tc main_v168) = val_main_v168 (F := F) x1 x3) :
    after chunkG W (Proc.devRef .tc main_v175)
      = val_main_v175 (F := F) x0 x1 x2 x3 (W (Proc.devRef .tc main_arg4)) := by
  simp only [chunkG]
  after_results_simp
  all_goals (try simp only [TRef.ofBuf, TRef.toBuf, cast_eq])
  rw [h0, h6, h61, h168]
  rfl

end Cert.ReferenceIdeal.Bridge

end
-- ==== Proof.RefChB.lean ====
/-
  The reference's 4-bit codes from any earlier contents: the stretch that makes the bit positions and, plane by plane
  for the four low planes of the packed words, moves each plane's bits to its place and ors them from zero. The
  stretch writes only its own references, and its last result is the reference's stage of that name at the packed
  words the earlier contents hold.
-/
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- An operation whose one result reference is in a list writes inside that list's references. -/
private theorem writes_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the stretch writes, in order. -/
def writtenB : List (Ref sig .tc) := [
    main_v7, main_c, main_v8, main_v9, main_v10, main_v11, main_v12, main_v13, main_v14, main_v15,
    main_c_2, main_v16, main_v17, main_v18, main_c_3, main_v19, main_v20, main_v21, main_v22, main_v23,
    main_v24, main_v25, main_v26, main_v27, main_v28, main_c_4, main_v29, main_v30, main_v31, main_c_5,
    main_v32, main_v33, main_v34, main_v35, main_v36, main_v37, main_v38, main_v39, main_v40, main_v41,
    main_c_6, main_v42, main_v43, main_v44, main_c_7, main_v45, main_v46, main_v47, main_v48, main_v49,
    main_v50, main_v51, main_v52, main_v53, main_v54, main_c_8, main_v55, main_v56, main_v57, main_c_9,
    main_v58, main_v59, main_v60 ]

/-- A reference the stretch does not write keeps its contents. -/
theorem keepB (W : Valuation τ sig (Elt F)) (r : Ref sig .tc) (hr : r ∉ writtenB) :
    after chunkB W (Proc.devRef .tc r) = W (Proc.devRef .tc r) :=
  after_of_writes_sub chunkB W (by
    simp only [chunkB, List.Forall, nullary_writes, unary_writes, binary_writes, reshape_writes]
    repeat' apply And.intro
    all_goals exact writes_sub_of_mem (by decide)) hr

set_option maxHeartbeats 16000000 in
/-- The stretch's last result: the 4-bit codes of the packed words. -/
theorem valueB (W : Valuation τ sig (Elt F)) :
    after chunkB W (Proc.devRef .tc main_v60) = val_main_v60 (F := F) (W (Proc.devRef .tc main_arg1)) := by
  simp only [chunkB]
  after_results_simp
  all_goals (try simp only [TRef.ofBuf, TRef.toBuf, cast_eq])
  all_goals rfl

end Cert.ReferenceIdeal.Bridge

end
-- ==== Proof.RefChC.lean ====
/-
  The reference's low-precision weights from any earlier contents: the stretch that takes, along axis 1, row o of the
  16-entry table at the 4-bit code of weight (o, i) — the position wrapped if negative, tested against the row's range,
  gathered, and replaced by a quiet not-a-number where the test fails. The stretch writes only its own references, and
  its last result is the reference's stage of that name at the codes and the table the earlier contents hold.

  The stretch is read in three pieces, cut where one array carries everything later operations need: the positions
  (eight operations), the range bit of the positions (ten), the gather and the select (four).
-/
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## What the stretch writes -/

/-- One result reference, a member of a list, is written inside the list's references. -/
private theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the stretch writes, in order. -/
def writtenC : List (Ref sig .tc) := [
    main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_cst, main_call1_v14,
    main_v61 ]

/-- A reference the stretch does not write keeps its contents. -/
theorem keepC (W : Valuation τ sig (Elt F)) (r : Ref sig .tc) (hr : r ∉ writtenC) :
    after chunkC W (Proc.devRef .tc r) = W (Proc.devRef .tc r) :=
  after_of_writes_sub chunkC W (by
    simp only [chunkC, List.Forall, nullary_writes, unary_writes, binary_writes, ternary_writes, reshape_writes]
    repeat' apply And.intro
    all_goals exact single_sub_of_mem (by decide)) hr

/-! ## The three pieces, each from any earlier contents -/

/-- The positions of the take from an array of codes, one per weight: wrapped if negative, with a last axis of extent
    one. -/
def posLow (c : (⟨S4096x4096, .i32⟩ : BufTy).Contents (Elt F)) : (⟨S4096x4096x1, .i32⟩ : BufTy).Contents (Elt F) :=
  shapeCast _
    (select (cmpi .slt c (broadcastInDim S4096x4096 ![] bcast_S_S4096x4096 (constantI S_ 32 0#32)))
      (addi c (broadcastInDim S4096x4096 ![] bcast_S_S4096x4096 (constantI S_ 32 16#32))) c)
    shapeCasts_S4096x4096_S4096x4096x1

/-- The range test of the positions against a row of 16 entries, folded along the last axis. -/
def rangeLow (p : (⟨S4096x4096x1, .i32⟩ : BufTy).Contents (Elt F)) : (⟨S4096x4096, .i1⟩ : BufTy).Contents (Elt F) :=
  Host.reduce IntOp.andi
    (andi (cmpi .sge p (broadcastInDim S4096x4096x1 ![] bcast_S_S4096x4096x1 (constantI S_ 32 0#32)))
      (cmpi .sle p
        (broadcastInDim S4096x4096x1 ![0, 1, 2] bcast_S1x1x1_S4096x4096x1_0_1_2
          (broadcastInDim S1x1x1 ![2] bcast_S1_S1x1x1_2 (constantI S1 32 15#32)))))
    (constantI S_ 1 1#1) reducesTo_S4096x4096x1_S4096x4096_d2 h_S_

/-- A fold of a line cut after its first n operations. -/
private theorem after_cut (n : Nat) (ops : List (HloOp τ sig (Elt F))) (W : Valuation τ sig (Elt F)) :
    after ops W = after (ops.drop n) (after (ops.take n) W) := by
  rw [← after_append, List.take_append_drop]

/-- The first eight operations leave the positions of the codes the earlier contents hold … -/
theorem posLow_fold (W : Valuation τ sig (Elt F)) :
    after ((chunkC (F := F)).take 8) W (Proc.devRef .tc main_call1_v5) = posLow (F := F) (W (Proc.devRef .tc main_v60)) := by
  simp only [chunkC, List.take_succ_cons, List.take_zero]
  after_results_simp
  all_goals (try simp only [TRef.ofBuf, TRef.toBuf, cast_eq])
  all_goals rfl

/-- … and keep the table. -/
theorem posLow_keep_table (W : Valuation τ sig (Elt F)) :
    after ((chunkC (F := F)).take 8) W (Proc.devRef .tc main_arg2) = W (Proc.devRef .tc main_arg2) := by
  simp only [chunkC, List.take_succ_cons, List.take_zero]
  after_results_simp

/-- The next ten operations leave the range bit of the positions the earlier contents hold … -/
theorem rangeLow_fold (W : Valuation τ sig (Elt F)) :
    after (((chunkC (F := F)).drop 8).take 10) W (Proc.devRef .tc main_call1_v12)
      = rangeLow (F := F) (W (Proc.devRef .tc main_call1_v5)) := by
  simp only [chunkC, List.drop_succ_cons, List.drop_zero, List.take_succ_cons, List.take_zero]
  after_results_simp
  all_goals (try simp only [TRef.ofBuf, TRef.toBuf, cast_eq])
  all_goals rfl

/-- … and keep the positions … -/
theorem rangeLow_keep_pos (W : Valuation τ sig (Elt F)) :
    after (((chunkC (F := F)).drop 8).take 10) W (Proc.devRef .tc main_call1_v5) = W (Proc.devRef .tc main_call1_v5) := by
  simp only [chunkC, List.drop_succ_cons, List.drop_zero, List.take_succ_cons, List.take_zero]
  after_results_simp

/-- … and the table. -/
theorem rangeLow_keep_table (W : Valuation τ sig (Elt F)) :
    after (((chunkC (F := F)).drop 8).take 10) W (Proc.devRef .tc main_arg2) = W (Proc.devRef .tc main_arg2) := by
  simp only [chunkC, List.drop_succ_cons, List.drop_zero, List.take_succ_cons, List.take_zero]
  after_results_simp

/-- The last four operations gather the table's rows at the positions and select by the range bit. -/
theorem takeLow_fold (W : Valuation τ sig (Elt F)) :
    after (((chunkC (F := F)).drop 8).drop 10) W (Proc.devRef .tc main_v61)
      = select (W (Proc.devRef .tc main_call1_v12))
          (Host.gather gather_S4096x16_S4096x4096x1_S4096x4096_n_1_0_0_1_2_11 (W (Proc.devRef .tc main_arg2))
            (W (Proc.devRef .tc main_call1_v5)))
          (broadcastInDim S4096x4096 ![] bcast_S_S4096x4096 (constant (F := F) S_ .f32 0x7FC00000#32)) := by
  simp only [chunkC, List.drop_succ_cons, List.drop_zero]
  after_results_simp
  all_goals (try simp only [TRef.ofBuf, TRef.toBuf, cast_eq])
  all_goals rfl

/-! ## The stretch -/

/-- The stretch's last result: the low-precision weights of the codes the earlier contents hold. -/
theorem valueC (W : Valuation τ sig (Elt F)) (x1 : (⟨S8x4096x128, .i32⟩ : BufTy).Contents (Elt F))
    (h60 : W (Proc.devRef .tc main_v60) = val_main_v60 (F := F) x1) :
    after chunkC W (Proc.devRef .tc main_v61) = val_main_v61 (F := F) x1 (W (Proc.devRef .tc main_arg2)) := by
  rw [after_cut 8 chunkC W, after_cut 10 ((chunkC (F := F)).drop 8), takeLow_fold, rangeLow_fold, rangeLow_keep_pos,
    rangeLow_keep_table, posLow_fold, posLow_keep_table, h60]
  rfl

end Cert.ReferenceIdeal.Bridge

end
-- ==== Proof.RefChD.lean ====
/-
  The reference's 8-bit codes from any earlier contents, in two stretches: the first makes the bit positions and ors
  planes 0 to 3 of the packed words from zero, the second ors planes 4 to 7 onto what the first left (it reads the
  first's bit positions and running result). Each stretch writes only its own references, and its results are the
  reference's stages of those names at the packed words the earlier contents hold.
-/
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- An operation whose one result reference is in a list writes inside that list's references. -/
private theorem writes_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the first stretch writes, in order. -/
def writtenD1 : List (Ref sig .tc) := [
    main_v62, main_c_10, main_v63, main_v64, main_v65, main_v66, main_v67, main_v68, main_v69, main_v70,
    main_c_11, main_v71, main_v72, main_v73, main_c_12, main_v74, main_v75, main_v76, main_v77, main_v78,
    main_v79, main_v80, main_v81, main_v82, main_v83, main_c_13, main_v84, main_v85, main_v86, main_c_14,
    main_v87, main_v88, main_v89, main_v90, main_v91, main_v92, main_v93, main_v94, main_v95, main_v96,
    main_c_15, main_v97, main_v98, main_v99, main_c_16, main_v100, main_v101, main_v102, main_v103, main_v104,
    main_v105, main_v106, main_v107, main_v108, main_v109, main_c_17, main_v110, main_v111, main_v112, main_c_18,
    main_v113, main_v114, main_v115 ]

/-- A reference the first stretch does not write keeps its contents. -/
theorem keepD1 (W : Valuation τ sig (Elt F)) (r : Ref sig .tc) (hr : r ∉ writtenD1) :
    after chunkD1 W (Proc.devRef .tc r) = W (Proc.devRef .tc r) :=
  after_of_writes_sub chunkD1 W (by
    simp only [chunkD1, List.Forall, nullary_writes, unary_writes, binary_writes, reshape_writes]
    repeat' apply And.intro
    all_goals exact writes_sub_of_mem (by decide)) hr

set_option maxHeartbeats 16000000 in
/-- The first stretch's last result: planes 0 to 3 of the 8-bit codes. -/
theorem valueD1 (W : Valuation τ sig (Elt F)) :
    after chunkD1 W (Proc.devRef .tc main_v115) = val_main_v115 (F := F) (W (Proc.devRef .tc main_arg1)) := by
  simp only [chunkD1]
  after_results_simp
  all_goals (try simp only [TRef.ofBuf, TRef.toBuf, cast_eq])
  all_goals rfl

set_option maxHeartbeats 16000000 in
/-- The first stretch's bit positions. -/
theorem valueD1_iota (W : Valuation τ sig (Elt F)) :
    after chunkD1 W (Proc.devRef .tc main_v62) = val_main_v62 (F := F) := by
  simp only [chunkD1]
  after_results_simp
  all_goals (try simp only [TRef.ofBuf, TRef.toBuf, cast_eq])
  all_goals rfl

/-- The references the second stretch writes, in order. -/
def writtenD2 : List (Ref sig .tc) := [
    main_v116, main_v117, main_v118, main_v119, main_v120, main_v121, main_v122, main_c_19, main_v123, main_v124,
    main_v125, main_c_20, main_v126, main_v127, main_v128, main_v129, main_v130, main_v131, main_v132, main_v133,
    main_v134, main_v135, main_c_21, main_v136, main_v137, main_v138, main_c_22, main_v139, main_v140, main_v141,
    main_v142, main_v143, main_v144, main_v145, main_v146, main_v147, main_v148, main_c_23, main_v149, main_v150,
    main_v151, main_c_24, main_v152, main_v153, main_v154, main_v155, main_v156, main_v157, main_v158, main_v159,
    main_v160, main_v161, main_c_25, main_v162, main_v163, main_v164, main_c_26, main_v165, main_v166, main_v167 ]

/-- A reference the second stretch does not write keeps its contents. -/
theorem keepD2 (W : Valuation τ sig (Elt F)) (r : Ref sig .tc) (hr : r ∉ writtenD2) :
    after chunkD2 W (Proc.devRef .tc r) = W (Proc.devRef .tc r) :=
  after_of_writes_sub chunkD2 W (by
    simp only [chunkD2, List.Forall, nullary_writes, unary_writes, binary_writes, reshape_writes]
    repeat' apply And.intro
    all_goals exact writes_sub_of_mem (by decide)) hr

set_option maxHeartbeats 16000000 in
/-- The second stretch's last result: all eight planes of the 8-bit codes, given that the earlier contents hold the first
    stretch's running result and bit positions. -/
theorem valueD2 (W : Valuation τ sig (Elt F))
    (h115 : W (Proc.devRef .tc main_v115) = val_main_v115 (F := F) (W (Proc.devRef .tc main_arg1)))
    (h62 : W (Proc.devRef .tc main_v62) = val_main_v62 (F := F)) :
    after chunkD2 W (Proc.devRef .tc main_v167) = val_main_v167 (F := F) (W (Proc.devRef .tc main_arg1)) := by
  simp only [chunkD2]
  after_results_simp
  all_goals (try simp only [TRef.ofBuf, TRef.toBuf, cast_eq])
  all_goals (try rw [h115])
  all_goals (try rw [h62])
  all_goals rfl

end Cert.ReferenceIdeal.Bridge

end
-- ==== Proof.RefChE.lean ====
/-
  The reference's high-precision weights from any earlier contents: the stretch that takes, along axis 1, row o of the
  256-entry table at the 8-bit code of weight (o, i) — the position wrapped if negative, tested against the row's
  range, gathered, and replaced by a quiet not-a-number where the test fails. The stretch writes only its own
  references, and its last result is the reference's stage of that name at the codes and the table the earlier
  contents hold.

  The stretch is read in three pieces, cut where one array carries everything later operations need: the positions
  (eight operations), the range bit of the positions (ten), the gather and the select (four).
-/
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## What the stretch writes -/

/-- One result reference, a member of a list, is written inside the list's references. -/
private theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the stretch writes, in order. -/
def writtenE : List (Ref sig .tc) := [
    main_call2_c, main_call2_v0, main_call2_v1, main_call2_c_0, main_call2_v2, main_call2_v3, main_call2_v4,
    main_call2_v5, main_call2_c_1, main_call2_c_2, main_call2_v6, main_call2_v7, main_call2_v8, main_call2_v9,
    main_call2_v10, main_call2_v11, main_call2_c_3, main_call2_v12, main_call2_v13, main_call2_cst, main_call2_v14,
    main_v168 ]

/-- A reference the stretch does not write keeps its contents. -/
theorem keepE (W : Valuation τ sig (Elt F)) (r : Ref sig .tc) (hr : r ∉ writtenE) :
    after chunkE W (Proc.devRef .tc r) = W (Proc.devRef .tc r) :=
  after_of_writes_sub chunkE W (by
    simp only [chunkE, List.Forall, nullary_writes, unary_writes, binary_writes, ternary_writes, reshape_writes]
    repeat' apply And.intro
    all_goals exact single_sub_of_mem (by decide)) hr

/-! ## The three pieces, each from any earlier contents -/

/-- The positions of the take from an array of codes, one per weight: wrapped if negative, with a last axis of extent
    one. -/
def posHigh (c : (⟨S4096x4096, .i32⟩ : BufTy).Contents (Elt F)) : (⟨S4096x4096x1, .i32⟩ : BufTy).Contents (Elt F) :=
  shapeCast _
    (select (cmpi .slt c (broadcastInDim S4096x4096 ![] bcast_S_S4096x4096 (constantI S_ 32 0#32)))
      (addi c (broadcastInDim S4096x4096 ![] bcast_S_S4096x4096 (constantI S_ 32 256#32))) c)
    shapeCasts_S4096x4096_S4096x4096x1

/-- The range test of the positions against a row of 256 entries, folded along the last axis. -/
def rangeHigh (p : (⟨S4096x4096x1, .i32⟩ : BufTy).Contents (Elt F)) : (⟨S4096x4096, .i1⟩ : BufTy).Contents (Elt F) :=
  Host.reduce IntOp.andi
    (andi (cmpi .sge p (broadcastInDim S4096x4096x1 ![] bcast_S_S4096x4096x1 (constantI S_ 32 0#32)))
      (cmpi .sle p
        (broadcastInDim S4096x4096x1 ![0, 1, 2] bcast_S1x1x1_S4096x4096x1_0_1_2
          (broadcastInDim S1x1x1 ![2] bcast_S1_S1x1x1_2 (constantI S1 32 255#32)))))
    (constantI S_ 1 1#1) reducesTo_S4096x4096x1_S4096x4096_d2 h_S_

/-- A fold of a line cut after its first n operations. -/
private theorem after_cut (n : Nat) (ops : List (HloOp τ sig (Elt F))) (W : Valuation τ sig (Elt F)) :
    after ops W = after (ops.drop n) (after (ops.take n) W) := by
  rw [← after_append, List.take_append_drop]

/-- The first eight operations leave the positions of the codes the earlier contents hold … -/
theorem posHigh_fold (W : Valuation τ sig (Elt F)) :
    after ((chunkE (F := F)).take 8) W (Proc.devRef .tc main_call2_v5) = posHigh (F := F) (W (Proc.devRef .tc main_v167)) := by
  simp only [chunkE, List.take_succ_cons, List.take_zero]
  after_results_simp
  all_goals (try simp only [TRef.ofBuf, TRef.toBuf, cast_eq])
  all_goals rfl

/-- … and keep the table. -/
theorem posHigh_keep_table (W : Valuation τ sig (Elt F)) :
    after ((chunkE (F := F)).take 8) W (Proc.devRef .tc main_arg3) = W (Proc.devRef .tc main_arg3) := by
  simp only [chunkE, List.take_succ_cons, List.take_zero]
  after_results_simp

/-- The next ten operations leave the range bit of the positions the earlier contents hold … -/
theorem rangeHigh_fold (W : Valuation τ sig (Elt F)) :
    after (((chunkE (F := F)).drop 8).take 10) W (Proc.devRef .tc main_call2_v12)
      = rangeHigh (F := F) (W (Proc.devRef .tc main_call2_v5)) := by
  simp only [chunkE, List.drop_succ_cons, List.drop_zero, List.take_succ_cons, List.take_zero]
  after_results_simp
  all_goals (try simp only [TRef.ofBuf, TRef.toBuf, cast_eq])
  all_goals rfl

/-- … and keep the positions … -/
theorem rangeHigh_keep_pos (W : Valuation τ sig (Elt F)) :
    after (((chunkE (F := F)).drop 8).take 10) W (Proc.devRef .tc main_call2_v5) = W (Proc.devRef .tc main_call2_v5) := by
  simp only [chunkE, List.drop_succ_cons, List.drop_zero, List.take_succ_cons, List.take_zero]
  after_results_simp

/-- … and the table. -/
theorem rangeHigh_keep_table (W : Valuation τ sig (Elt F)) :
    after (((chunkE (F := F)).drop 8).take 10) W (Proc.devRef .tc main_arg3) = W (Proc.devRef .tc main_arg3) := by
  simp only [chunkE, List.drop_succ_cons, List.drop_zero, List.take_succ_cons, List.take_zero]
  after_results_simp

/-- The last four operations gather the table's rows at the positions and select by the range bit. -/
theorem takeHigh_fold (W : Valuation τ sig (Elt F)) :
    after (((chunkE (F := F)).drop 8).drop 10) W (Proc.devRef .tc main_v168)
      = select (W (Proc.devRef .tc main_call2_v12))
          (Host.gather gather_S4096x256_S4096x4096x1_S4096x4096_n_1_0_0_1_2_11 (W (Proc.devRef .tc main_arg3))
            (W (Proc.devRef .tc main_call2_v5)))
          (broadcastInDim S4096x4096 ![] bcast_S_S4096x4096 (constant (F := F) S_ .f32 0x7FC00000#32)) := by
  simp only [chunkE, List.drop_succ_cons, List.drop_zero]
  after_results_simp
  all_goals (try simp only [TRef.ofBuf, TRef.toBuf, cast_eq])
  all_goals rfl

/-! ## The stretch -/

/-- The stretch's last result: the high-precision weights of the codes the earlier contents hold. -/
theorem valueE (W : Valuation τ sig (Elt F)) (x1 : (⟨S8x4096x128, .i32⟩ : BufTy).Contents (Elt F))
    (h167 : W (Proc.devRef .tc main_v167) = val_main_v167 (F := F) x1) :
    after chunkE W (Proc.devRef .tc main_v168) = val_main_v168 (F := F) x1 (W (Proc.devRef .tc main_arg3)) := by
  rw [after_cut 8 chunkE W, after_cut 10 ((chunkE (F := F)).drop 8), takeHigh_fold, rangeHigh_fold, rangeHigh_keep_pos,
    rangeHigh_keep_table, posHigh_fold, posHigh_keep_table, h167]
  rfl

end Cert.ReferenceIdeal.Bridge

end
-- ==== Proof.RefRunHand.lean ====
/-
  The reference's run, assembled from its seven stretches of operations.

  The reference is a straight line of 251 host operations. Cut into seven contiguous stretches, each stretch run from ANY
  earlier contents `W` of the buffers writes only its own result buffers (`keepX`) and leaves in its last result the
  read module's stage of what it found in the buffers it reads (`valueX`). Running the whole line is running the
  stretches in order (`after` of a concatenation is `after` of the second from `after` of the first), so:

  * the flags' stage is computed by the first stretch from the tokens and nothing later writes it;
  * the 4-bit codes' stage is computed by the second stretch from the packed planes, and the third reads it, and the
    low-precision table, into the low-precision matrix's stage;
  * the 8-bit codes' stage is computed by the fourth and fifth stretches (the fifth reads the fourth's last result and
    its iota), and the sixth reads it, and the high-precision table, into the high-precision matrix's stage;
  * the last stretch reads the tokens, the flags, the two matrices and the bias into the last stage.

  No stretch writes an argument, so every stretch finds the arguments as launched. The run theorem of a straight line
  (`run_seq`) then gives: every weakly fair execution terminates with the result buffer at the last stage of the launch
  contents of the five arguments, and the arguments unchanged.
-/
import proofs.«415461_j65850438582285_3_alg».proof.Proof.RefChAG
import proofs.«415461_j65850438582285_3_alg».proof.Proof.RefChB
import proofs.«415461_j65850438582285_3_alg».proof.Proof.RefChC
import proofs.«415461_j65850438582285_3_alg».proof.Proof.RefChD
import proofs.«415461_j65850438582285_3_alg».proof.Proof.RefChE
import proofs.«415461_j65850438582285_3_alg».proof.Proof.RefChunks
import proofs.«415461_j65850438582285_3_alg».proof.Proof.RefRead
import Idealize.ShloMosaic.Lib.StableHlo.Run

noncomputable section

namespace Cert.ReferenceIdeal.Bridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The contents after two stretches run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The contents after the first one to six stretches -/

/-- The contents after the first stretch. -/
def pre1 (W : Valuation τ sig (Elt F)) : Valuation τ sig (Elt F) := after chunkA W
/-- The contents after the first two stretches. -/
def pre2 (W : Valuation τ sig (Elt F)) : Valuation τ sig (Elt F) := after chunkB (pre1 W)
/-- The contents after the first three stretches. -/
def pre3 (W : Valuation τ sig (Elt F)) : Valuation τ sig (Elt F) := after chunkC (pre2 W)
/-- The contents after the first four stretches. -/
def pre4 (W : Valuation τ sig (Elt F)) : Valuation τ sig (Elt F) := after chunkD1 (pre3 W)
/-- The contents after the first five stretches. -/
def pre5 (W : Valuation τ sig (Elt F)) : Valuation τ sig (Elt F) := after chunkD2 (pre4 W)
/-- The contents after the first six stretches. -/
def pre6 (W : Valuation τ sig (Elt F)) : Valuation τ sig (Elt F) := after chunkE (pre5 W)

/-- The whole list runs as the last stretch from the contents the first six leave. -/
theorem after_ops_eq (W : Valuation τ sig (Elt F)) : after (ops (F := F)) W = after chunkG (pre6 W) := by
  rw [ops_eq_chunks, after_app, after_app, after_app, after_app, after_app, after_app]
  rfl

theorem pre1_keep (W : Valuation τ sig (Elt F)) (r : Ref sig .tc) (hA : r ∉ writtenA) :
    pre1 W (Proc.devRef .tc r) = W (Proc.devRef .tc r) := keepA W r hA
theorem pre2_keep (W : Valuation τ sig (Elt F)) (r : Ref sig .tc) (hA : r ∉ writtenA) (hB : r ∉ writtenB) :
    pre2 W (Proc.devRef .tc r) = W (Proc.devRef .tc r) := (keepB (pre1 W) r hB).trans (pre1_keep W r hA)
theorem pre3_keep (W : Valuation τ sig (Elt F)) (r : Ref sig .tc) (hA : r ∉ writtenA) (hB : r ∉ writtenB)
    (hC : r ∉ writtenC) : pre3 W (Proc.devRef .tc r) = W (Proc.devRef .tc r) :=
  (keepC (pre2 W) r hC).trans (pre2_keep W r hA hB)
theorem pre4_keep (W : Valuation τ sig (Elt F)) (r : Ref sig .tc) (hA : r ∉ writtenA) (hB : r ∉ writtenB)
    (hC : r ∉ writtenC) (hD1 : r ∉ writtenD1) : pre4 W (Proc.devRef .tc r) = W (Proc.devRef .tc r) :=
  (keepD1 (pre3 W) r hD1).trans (pre3_keep W r hA hB hC)
theorem pre5_keep (W : Valuation τ sig (Elt F)) (r : Ref sig .tc) (hA : r ∉ writtenA) (hB : r ∉ writtenB)
    (hC : r ∉ writtenC) (hD1 : r ∉ writtenD1) (hD2 : r ∉ writtenD2) :
    pre5 W (Proc.devRef .tc r) = W (Proc.devRef .tc r) :=
  (keepD2 (pre4 W) r hD2).trans (pre4_keep W r hA hB hC hD1)
theorem pre6_keep (W : Valuation τ sig (Elt F)) (r : Ref sig .tc) (hA : r ∉ writtenA) (hB : r ∉ writtenB)
    (hC : r ∉ writtenC) (hD1 : r ∉ writtenD1) (hD2 : r ∉ writtenD2) (hE : r ∉ writtenE) :
    pre6 W (Proc.devRef .tc r) = W (Proc.devRef .tc r) :=
  (keepE (pre5 W) r hE).trans (pre5_keep W r hA hB hC hD1 hD2)

/-! ## What the later stretches find -/

/-- The flags' stage, still in its buffer before the last stretch. -/
theorem pre6_v6 (W : Valuation τ sig (Elt F)) :
    pre6 W (Proc.devRef .tc main_v6) = val_main_v6 (F := F) (W (Proc.devRef .tc main_arg0)) :=
  (keepE (pre5 W) main_v6 (by decide)).trans ((keepD2 (pre4 W) main_v6 (by decide)).trans
    ((keepD1 (pre3 W) main_v6 (by decide)).trans ((keepC (pre2 W) main_v6 (by decide)).trans
      ((keepB (pre1 W) main_v6 (by decide)).trans (valueA W)))))

/-- The 4-bit codes' stage after the second stretch. -/
theorem pre2_v60 (W : Valuation τ sig (Elt F)) :
    pre2 W (Proc.devRef .tc main_v60) = val_main_v60 (F := F) (W (Proc.devRef .tc main_arg1)) :=
  (valueB (pre1 W)).trans (congrArg (val_main_v60 (F := F)) (pre1_keep W main_arg1 (by decide)))

/-- The low-precision matrix's stage, still in its buffer before the last stretch. -/
theorem pre6_v61 (W : Valuation τ sig (Elt F)) :
    pre6 W (Proc.devRef .tc main_v61)
      = val_main_v61 (F := F) (W (Proc.devRef .tc main_arg1)) (W (Proc.devRef .tc main_arg2)) :=
  (keepE (pre5 W) main_v61 (by decide)).trans ((keepD2 (pre4 W) main_v61 (by decide)).trans
    ((keepD1 (pre3 W) main_v61 (by decide)).trans
      ((valueC (pre2 W) (W (Proc.devRef .tc main_arg1)) (pre2_v60 W)).trans
        (congrArg (val_main_v61 (F := F) (W (Proc.devRef .tc main_arg1))) (pre2_keep W main_arg2 (by decide) (by decide))))))

/-- The 8-bit codes' stage after the fifth stretch. -/
theorem pre5_v167 (W : Valuation τ sig (Elt F)) :
    pre5 W (Proc.devRef .tc main_v167) = val_main_v167 (F := F) (W (Proc.devRef .tc main_arg1)) := by
  have e4 : pre4 W (Proc.devRef .tc main_arg1) = W (Proc.devRef .tc main_arg1) :=
    pre4_keep W main_arg1 (by decide) (by decide) (by decide) (by decide)
  have e3 : pre3 W (Proc.devRef .tc main_arg1) = W (Proc.devRef .tc main_arg1) :=
    pre3_keep W main_arg1 (by decide) (by decide) (by decide)
  have h115 : pre4 W (Proc.devRef .tc main_v115) = val_main_v115 (F := F) (pre4 W (Proc.devRef .tc main_arg1)) :=
    (valueD1 (pre3 W)).trans (congrArg (val_main_v115 (F := F)) (e3.trans e4.symm))
  have h62 : pre4 W (Proc.devRef .tc main_v62) = val_main_v62 (F := F) := valueD1_iota (pre3 W)
  exact (valueD2 (pre4 W) h115 h62).trans (congrArg (val_main_v167 (F := F)) e4)

/-- The high-precision matrix's stage before the last stretch. -/
theorem pre6_v168 (W : Valuation τ sig (Elt F)) :
    pre6 W (Proc.devRef .tc main_v168)
      = val_main_v168 (F := F) (W (Proc.devRef .tc main_arg1)) (W (Proc.devRef .tc main_arg3)) :=
  (valueE (pre5 W) (W (Proc.devRef .tc main_arg1)) (pre5_v167 W)).trans
    (congrArg (val_main_v168 (F := F) (W (Proc.devRef .tc main_arg1)))
      (pre5_keep W main_arg3 (by decide) (by decide) (by decide) (by decide) (by decide)))

/-! ## The run -/

/-- The result buffer after the whole list, from any contents: the last stage of the five arguments' contents. -/
theorem after_ops_v175 (W : Valuation τ sig (Elt F)) :
    after (ops (F := F)) W (Proc.devRef .tc main_v175)
      = val_main_v175 (F := F) (W (Proc.devRef .tc main_arg0)) (W (Proc.devRef .tc main_arg1))
          (W (Proc.devRef .tc main_arg2)) (W (Proc.devRef .tc main_arg3)) (W (Proc.devRef .tc main_arg4)) := by
  rw [after_ops_eq]
  exact (valueG (pre6 W) (W (Proc.devRef .tc main_arg0)) (W (Proc.devRef .tc main_arg1)) (W (Proc.devRef .tc main_arg2))
      (W (Proc.devRef .tc main_arg3))
      (pre6_keep W main_arg0 (by decide) (by decide) (by decide) (by decide) (by decide) (by decide))
      (pre6_v6 W) (pre6_v61 W) (pre6_v168 W)).trans
    (congrArg (val_main_v175 (F := F) (W (Proc.devRef .tc main_arg0)) (W (Proc.devRef .tc main_arg1))
        (W (Proc.devRef .tc main_arg2)) (W (Proc.devRef .tc main_arg3)))
      (pre6_keep W main_arg4 (by decide) (by decide) (by decide) (by decide) (by decide) (by decide)))

/-- No operation of the list writes an argument. -/
theorem after_ops_arg (W : Valuation τ sig (Elt F)) (r : Ref sig .tc)
    (hr : r ∈ [main_arg0, main_arg1, main_arg2, main_arg3, main_arg4]) :
    after (ops (F := F)) W (Proc.devRef .tc r) = W (Proc.devRef .tc r) := by
  have key : r ∉ writtenA ∧ r ∉ writtenB ∧ r ∉ writtenC ∧ r ∉ writtenD1 ∧ r ∉ writtenD2 ∧ r ∉ writtenE ∧ r ∉ writtenG := by
    simp only [List.mem_cons, List.mem_nil_iff, or_false] at hr
    rcases hr with rfl | rfl | rfl | rfl | rfl <;> exact ⟨by decide, by decide, by decide, by decide, by decide, by decide, by decide⟩
  rw [after_ops_eq]
  exact (keepG (pre6 W) r key.2.2.2.2.2.2).trans
    (pre6_keep W r key.1 key.2.1 key.2.2.1 key.2.2.2.1 key.2.2.2.2.1 key.2.2.2.2.2.1)

/-- Every weakly fair execution of the reference terminates with the last stage of its arguments in the result buffer and
    its arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
        = val_main_v175 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v175).trans (after_ops_v175 (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide))⟩)
    (run_seq scopedRefs_eq scopedSems_eq defs main (fun _ => ops) main_eq (fun _ => ops_sub) m ρ)

end Cert.ReferenceIdeal.Bridge

end
-- ==== Proof.lean ====
/-
  The certificate. Both programs compute, for every token, its inner products with the rows of a dequantized weight
  matrix chosen by the token's flag (the row norm against 64), plus a bias. The reference forms both products for every
  token and selects; the kernel program sorts the tokens by flag, pads each group to whole row tiles of 1024, multiplies
  each tile by the one matrix a prefetched table names for it, and gathers the rows back. Over the extended reals the
  two results are equal index by index: sums regroup freely, a change of float format is the identity, the sort is a
  permutation that lists the unflagged tokens first, and the 4-bit code of a weight is the low four bits of its 8-bit code.
  The three frames: the kernel programs' by their frame runs (the table of weight numbers holds only 0 and 1, whatever
  the inputs, so every table-indexed block lies inside the stacked weights), the reference's by its run.
-/
import proofs.«415461_j65850438582285_3_alg».proof.Defs
import proofs.«415461_j65850438582285_3_alg».proof.Proof.Gen.Kernel
import proofs.«415461_j65850438582285_3_alg».proof.Proof.Gen.KernelIdeal
import proofs.«415461_j65850438582285_3_alg».proof.Proof.Gen.ReferenceIdeal
import proofs.«415461_j65850438582285_3_alg».proof.Proof.Gen.Pre_finite_inputs
import proofs.«415461_j65850438582285_3_alg».proof.Proof.FrameKernel
import proofs.«415461_j65850438582285_3_alg».proof.Proof.OkKernel
import proofs.«415461_j65850438582285_3_alg».proof.Proof.Bridge
import proofs.«415461_j65850438582285_3_alg».proof.Proof.RefSpec
import proofs.«415461_j65850438582285_3_alg».proof.Proof.RefRunHand
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.GenP.frame m ρ (Cert.Kernel.Bridge.ok_all m)

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ (Cert.KernelIdeal.Bridge.ok_all m)

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Bridge.ref_run (F := Ideal) m ρ)

/-- From memories that agree on the arguments both idealized programs end with the specification in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Bridge.specOf m c, Cert.KernelIdeal.Bridge.kernel_run m ρ, ?_⟩
  refine (θ_run Cert.ReferenceIdeal.defs _ _).mono (fun _ h c => ⟨(h c).1.trans ?_, (h c).2⟩)
    (Cert.ReferenceIdeal.Bridge.ref_run (F := Ideal) m' ρ')
  refine (Cert.ReferenceIdeal.Bridge.val_eq_Y _ _ _ _ _).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
